-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x128 : Shape := ⟨3, ![8, 96, 128]⟩
abbrev S8x96x96 : Shape := ⟨3, ![8, 96, 96]⟩
abbrev S8x96 : Shape := ⟨2, ![8, 96]⟩
abbrev S257x256 : Shape := ⟨2, ![257, 256]⟩
abbrev S256 : Shape := ⟨1, ![256]⟩
abbrev S256x256 : Shape := ⟨2, ![256, 256]⟩
abbrev S768x256 : Shape := ⟨2, ![768, 256]⟩
abbrev S_ : Shape := ⟨0, ![]⟩

class Facts : Prop where
  bcast_S_S8x96x128 : S_.BroadcastsInDim S8x96x128 (![] : Fin 0 → Fin S8x96x128.rank)
  reducesTo_S8x96x128_S_d0_1_2 : S8x96x128.ReducesTo [0, 1, 2] S_
  h_S_ : 0 < S_.numel
  bcast_S_S8x96x96 : S_.BroadcastsInDim S8x96x96 (![] : Fin 0 → Fin S8x96x96.rank)
  reducesTo_S8x96x96_S_d0_1_2 : S8x96x96.ReducesTo [0, 1, 2] S_
  bcast_S_S8x96 : S_.BroadcastsInDim S8x96 (![] : Fin 0 → Fin S8x96.rank)
  reducesTo_S8x96_S_d0_1 : S8x96.ReducesTo [0, 1] S_
  bcast_S_S257x256 : S_.BroadcastsInDim S257x256 (![] : Fin 0 → Fin S257x256.rank)
  reducesTo_S257x256_S_d0_1 : S257x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_

variable [Facts]

def fn_part4 {F : FTy → Type} [FloatOps F] (main_arg14 : FVec F S256 .f32) (main_arg15 : FVec F S768x256 .f32) (main_arg16 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S768x256 .f32 := Host.absf main_arg15
  let main_cst_28 : FVec F S_ .f32 := constant S_ .f32 0x7F800000#32
  let main_v75 : FVec F S768x256 .f32 := broadcastInDim S768x256 ![] bcast_S_S768x256 main_cst_28
  let main_v76 : IVec S768x256 1 := cmpf .olt main_v74 main_v75
  let main_c_29 : IVec S_ 1 := constantI S_ 1 1#1
  let main_v77 : IVec S_ 1 := (fun x v => Host.reduce IntOp.andi x v reducesTo_S768x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg11 : FVec F S256x256 .f32) (main_arg12 : FVec F S256 .f32) (main_arg13 : FVec F S256x256 .f32) (main_arg14 : FVec F S256 .f32) (main_arg15 : FVec F S768x256 .f32) (main_arg16 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S768x256 .f32) (main_arg16 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S768x256 .f32) (main_arg16 : FVec F S256 .f32) (main_v13 : IVec S_ 1) (main_v16 : IVec S257x256 1) : IVec S_ 1 :=
  let main_c_5 : IVec S_ 1 := constantI S_ 1 1#1
  let main_v17 : IVec S_ 1 := (fun x v => Host.reduce IntOp.andi x v reducesTo_S257x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x96x128 .f32) (main_arg1 : FVec F S8x96x96 .f32) (main_arg2 : FVec F S8x96 .f32) (main_arg3 : FVec F S257x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S768x256 .f32) (main_arg16 : FVec F S256 .f32) : IVec S_ 1 :=
  let main_v0 : FVec F S8x96x128 .f32 := Host.absf main_arg0
  let main_cst : FVec F S_ .f32 := constant S_ .f32 0x7F800000#32
  let main_v1 : FVec F S8x96x128 .f32 := broadcastInDim S8x96x128 ![] bcast_S_S8x96x128 main_cst
  let main_v2 : IVec S8x96x128 1 := cmpf .olt main_v0 main_v1
  let main_c : IVec S_ 1 := constantI S_ 1 1#1
  let main_v3 : IVec S_ 1 := (fun x v => Host.reduce IntOp.andi x v reducesTo_S8x96x128_S_d0_1_2 h_S_) main_v2 main_c
  let main_v4 : FVec F S8x96x96 .f32 := Host.absf main_arg1
  let main_cst_0 : FVec F S_ .f32 := constant S_ .f32 0x7F800000#32
  let main_v5 : FVec F S8x96x96 .f32 := broadcastInDim S8x96x96 ![] bcast_S_S8x96x96 main_cst_0
  let main_v6 : IVec S8x96x96 1 := cmpf .olt main_v4 main_v5
  let main_c_1 : IVec S_ 1 := constantI S_ 1 1#1
  let main_v7 : IVec S_ 1 := (fun x v => Host.reduce IntOp.andi x v reducesTo_S8x96x96_S_d0_1_2 h_S_) main_v6 main_c_1
  let main_v8 : IVec S_ 1 := andi main_v3 main_v7
  let main_v9 : FVec F S8x96 .f32 := Host.absf main_arg2
  let main_cst_2 : FVec F S_ .f32 := constant S_ .f32 0x7F800000#32
  let main_v10 : FVec F S8x96 .f32 := broadcastInDim S8x96 ![] bcast_S_S8x96 main_cst_2
  let main_v11 : IVec S8x96 1 := cmpf .olt main_v9 main_v10
  let main_c_3 : IVec S_ 1 := constantI S_ 1 1#1
  let main_v12 : IVec S_ 1 := (fun x v => Host.reduce IntOp.andi x v reducesTo_S8x96_S_d0_1 h_S_) main_v11 main_c_3
  let main_v13 : IVec S_ 1 := andi main_v8 main_v12
  let main_v14 : FVec F S257x256 .f32 := Host.absf main_arg3
  let main_cst_4 : FVec F S_ .f32 := constant S_ .f32 0x7F800000#32
  let main_v15 : FVec F S257x256 .f32 := broadcastInDim S257x256 ![] bcast_S_S257x256 main_cst_4
  let main_v16 : IVec S257x256 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x96x128 : Shape := ⟨3, ![8, 96, 128]⟩
abbrev S8x96x96 : Shape := ⟨3, ![8, 96, 96]⟩
abbrev S8x96 : Shape := ⟨2, ![8, 96]⟩
abbrev S257x256 : Shape := ⟨2, ![257, 256]⟩
abbrev S256 : Shape := ⟨1, ![256]⟩
abbrev S256x256 : Shape := ⟨2, ![256, 256]⟩
abbrev S768x256 : Shape := ⟨2, ![768, 256]⟩
abbrev S128x256 : Shape := ⟨2, ![128, 256]⟩
abbrev S1x256 : Shape := ⟨2, ![1, 256]⟩
abbrev S8x96x1 : Shape := ⟨3, ![8, 96, 1]⟩
abbrev S8x1x96 : Shape := ⟨3, ![8, 1, 96]⟩
abbrev S8x96x96x256 : Shape := ⟨4, ![8, 96, 96, 256]⟩
abbrev S1x32x128 : Shape := ⟨3, ![1, 32, 128]⟩
abbrev S1x96x128 : Shape := ⟨3, ![1, 96, 128]⟩
abbrev S1x32x96 : Shape := ⟨3, ![1, 32, 96]⟩
abbrev S1x32x1 : Shape := ⟨3, ![1, 32, 1]⟩
abbrev S1x1x96 : Shape := ⟨3, ![1, 1, 96]⟩
abbrev S1x32x96x256 : Shape := ⟨4, ![1, 32, 96, 256]⟩
abbrev S32x128 : Shape := ⟨2, ![32, 128]⟩
abbrev S96x128 : Shape := ⟨2, ![96, 128]⟩
abbrev S32x96 : Shape := ⟨2, ![32, 96]⟩
abbrev S32x1 : Shape := ⟨2, ![32, 1]⟩
abbrev S1x96 : Shape := ⟨2, ![1, 96]⟩
abbrev S32x1x128 : Shape := ⟨3, ![32, 1, 128]⟩
abbrev S32x96x128 : Shape := ⟨3, ![32, 96, 128]⟩
abbrev S3072x128 : Shape := ⟨2, ![3072, 128]⟩
abbrev S3072x256 : Shape := ⟨2, ![3072, 256]⟩
abbrev S32x96x256 : Shape := ⟨3, ![32, 96, 256]⟩
abbrev S32x96x1 : Shape := ⟨3, ![32, 96, 1]⟩
abbrev S1x1x256 : Shape := ⟨3, ![1, 1, 256]⟩

abbrev nBuf : Space → Nat
  | .hbm => 31
  | .vmem => 32
  | .smem => 0
  | _ => 0

abbrev bufTy : (tb : Table) → Fin (tcTables nBuf tb) → BufTy
  | .hbm, ⟨0, _⟩ => ⟨S8x96x128, .f32⟩
  | .hbm, ⟨1, _⟩ => ⟨S8x96x96, .f32⟩
  | .hbm, ⟨2, _⟩ => ⟨S8x96, .f32⟩
  | .hbm, ⟨3, _⟩ => ⟨S257x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S768x256, .f32⟩
  | .hbm, ⟨16, _⟩ => ⟨S256, .f32⟩
  | .hbm, ⟨17, _⟩ => ⟨S128x256, .f32⟩
  | .hbm, ⟨18, _⟩ => ⟨S128x256, .f32⟩
  | .hbm, ⟨19, _⟩ => ⟨S1x256, .f32⟩
  | .hbm, ⟨20, _⟩ => ⟨S256, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S8x96x1, .f32⟩
  | .hbm, ⟨29, _⟩ => ⟨S8x1x96, .f32⟩
  | .hbm, ⟨30, _⟩ => ⟨S8x96x96x256, .f32⟩
  | .local _ .vmem, ⟨0, _⟩ => ⟨S1x32x128, .f32⟩
  | .local _ .vmem, ⟨1, _⟩ => ⟨S1x32x128, .f32⟩
  | .local _ .vmem, ⟨2, _⟩ => ⟨S1x96x128, .f32⟩
  | .local _ .vmem, ⟨3, _⟩ => ⟨S1x96x128, .f32⟩
  | .local _ .vmem, ⟨4, _⟩ => ⟨S1x32x96, .f32⟩
  | .local _ .vmem, ⟨5, _⟩ => ⟨S1x32x96, .f32⟩
  | .local _ .vmem, ⟨6, _⟩ => ⟨S1x32x1, .f32⟩
  | .local _ .vmem, ⟨7, _⟩ => ⟨S1x32x1, .f32⟩
  | .local _ .vmem, ⟨8, _⟩ => ⟨S1x1x96, .f32⟩
  | .local _ .vmem, ⟨9, _⟩ => ⟨S1x1x96, .f32⟩
  | .local _ .vmem, ⟨10, _⟩ => ⟨S128x256, .f32⟩
  | .local _ .vmem, ⟨11, _⟩ => ⟨S128x256, .f32⟩
  | .local _ .vmem, ⟨12, _⟩ => ⟨S256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S128x256, .f32⟩
  | .local _ .vmem, ⟨17, _⟩ => ⟨S128x256, .f32⟩
  | .local _ .vmem, ⟨18, _⟩ => ⟨S256, .f32⟩
  | .local _ .vmem, ⟨19, _⟩ => ⟨S256x256, .f32⟩
  | .local _ .vmem, ⟨20, _⟩ => ⟨S256, .f32⟩
  | .local _ .vmem, ⟨21, _⟩ => ⟨S128x256, .f32⟩
  | .local _ .vmem, ⟨22, _⟩ => ⟨S128x256, .f32⟩
  | .local _ .vmem, ⟨23, _⟩ => ⟨S256, .f32⟩
  | .local _ .vmem, ⟨24, _⟩ => ⟨S256x256, .f32⟩
  | .local _ .vmem, ⟨25, _⟩ => ⟨S256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256, .f32⟩
  | .local _ .vmem, ⟨30, _⟩ => ⟨S1x32x96x256, .f32⟩
  | .local _ .vmem, ⟨31, _⟩ => ⟨S1x32x96x256, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg25_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem25_1 : DmaSem sig := 31

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S256x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x32x96x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

class Facts₀ : Prop where
  slices_S257x256_S128x256_0_0 : S257x256.Slices ![0, 0] S128x256
  slices_S257x256_S128x256_128_0 : S257x256.Slices ![128, 0] S128x256
  slices_S257x256_S1x256_256_0 : S257x256.Slices ![256, 0] S1x256
  shapeCasts_S1x256_S256 : S1x256.ShapeCasts S256
  slices_S256x256_S128x256_0_0 : S256x256.Slices ![0, 0] S128x256
  slices_S256x256_S128x256_128_0 : S256x256.Slices ![128, 0] S128x256
  slices_S768x256_S256x256_0_0 : S768x256.Slices ![0, 0] S256x256
  slices_S768x256_S256x256_256_0 : S768x256.Slices ![256, 0] S256x256
  slices_S768x256_S256x256_512_0 : S768x256.Slices ![512, 0] S256x256
  bcast_S8x96_S8x96x1_0_1 : S8x96.BroadcastsInDim S8x96x1 (![0, 1] : Fin 2 → Fin S8x96x1.rank)
  bcast_S8x96_S8x1x96_0_2 : S8x96.BroadcastsInDim S8x1x96 (![0, 2] : Fin 2 → Fin S8x1x96.rank)
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  bitsLt_bf16_f32 : FTy.bits .bf16 < FTy.bits .f32
  inb_S1x96x128_S1x96x128_0_0_0 : ∀ a, (![0, 0, 0] : Fin 3 → Nat) a + S1x96x128.size a ≤ S1x96x128.size a
  h_S1x96x128 : 0 < S1x96x128.numel
  shapeCasts_S1x96x128_S96x128 : S1x96x128.ShapeCasts S96x128
  inb_S1x32x96_S1x32x96_0_0_0 : ∀ a, (![0, 0, 0] : Fin 3 → Nat) a + S1x32x96.size a ≤ S1x32x96.size a
  h_S1x32x96 : 0 < S1x32x96.numel
  shapeCasts_S1x32x96_S32x96 : S1x32x96.ShapeCasts S32x96
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  inb_S1x1x96_S1x1x96_0_0_0 : ∀ a, (![0, 0, 0] : Fin 3 → Nat) a + S1x1x96.size a ≤ S1x1x96.size a
  h_S1x1x96 : 0 < S1x1x96.numel
  shapeCasts_S1x1x96_S1x96 : S1x1x96.ShapeCasts S1x96
  shapeCasts_S32x128_S32x1x128 : S32x128.ShapeCasts S32x1x128
  shapeCasts_S32x1x128_S32x1x128 : S32x1x128.ShapeCasts S32x1x128
  broadcasts_S32x1x128_S32x96x128 : S32x1x128.Broadcasts S32x96x128
  shapeCasts_S96x128_S1x96x128 : S96x128.ShapeCasts S1x96x128
  shapeCasts_S1x96x128_S1x96x128 : S1x96x128.ShapeCasts S1x96x128
  broadcasts_S1x96x128_S32x96x128 : S1x96x128.Broadcasts S32x96x128
  shapeCasts_S32x96x128_S3072x128 : S32x96x128.ShapeCasts S3072x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S3072x256_S32x96x256 : S3072x256.ShapeCasts S32x96x256
  shapeCasts_S32x96_S32x96x1 : S32x96.ShapeCasts S32x96x1
  shapeCasts_S256_S1x1x256 : S256.ShapeCasts S1x1x256
  broadcasts_S32x96x1_S32x96x256 : S32x96x1.Broadcasts S32x96x256
  broadcasts_S1x1x256_S32x96x256 : S1x1x256.Broadcasts S32x96x256
  shapeCasts_S32x96x256_S3072x256 : S32x96x256.ShapeCasts S3072x256
  inb_S256x256_S256x256_0_0 : ∀ a, (![0, 0] : Fin 2 → Nat) a + S256x256.size a ≤ S256x256.size a
  h_S256x256 : 0 < S256x256.numel
  shapeCasts_S256_S1x256 : S256.ShapeCasts S1x256
  broadcasts_S1x256_S3072x256 : S1x256.Broadcasts S3072x256
  shapeCasts_S256x256_S256x256 : S256x256.ShapeCasts S256x256
  broadcasts_S32x1_S32x96 : S32x1.Broadcasts S32x96
  broadcasts_S1x96_S32x96 : S1x96.Broadcasts S32x96
  inb_S1x32x96x256_S1x32x96x256_0_0_0_0 : ∀ a, (![0, 0, 0, 0] : Fin 4 → Nat) a + S1x32x96x256.size a ≤ S1x32x96x256.size a
  h_S1x32x96x256 : 0 < S1x32x96x256.numel
  shapeCasts_S1x32x96x256_S32x96x256 : S1x32x96x256.ShapeCasts S32x96x256
  shapeCasts_S32x96x256_S1x32x96x256 : S32x96x256.ShapeCasts S1x32x96x256
  dot_S3072x128_S128x256_S3072x256_1_0_0_1_n_n_wf : DotDims.WF S3072x128 S128x256 S3072x256 [1] [0] [0] [1] [] []
  dot_S3072x256_S256x256_S3072x256_1_0_0_1_n_n_wf : DotDims.WF S3072x256 S256x256 S3072x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128.size a ≤ S8x96x128.size a
  hwx0_0 : ∀ i : grid0.Coords, EltTy.bits .f32 = 32 ∨ (Rect.block (s := S8x96x128) S1x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x128.size a ≤ S8x96x128.size a
  hwx0_1 : ∀ i : grid0.Coords, EltTy.bits .f32 = 32 ∨ (Rect.block (s := S8x96x128) S1x96x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x96.size a ≤ S8x96x96.size a
  hwx0_2 : ∀ i : grid0.Coords, EltTy.bits .f32 = 32 ∨ (Rect.block (s := S8x96x96) S1x32x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S8x96x1.size a
  hwx0_3 : ∀ i : grid0.Coords, EltTy.bits .f32 = 32 ∨ (Rect.block (s := S8x96x1) S1x32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x96.size a ≤ S8x1x96.size a
  hwx0_4 : ∀ i : grid0.Coords, EltTy.bits .f32 = 32 ∨ (Rect.block (s := S8x1x96) S1x1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S128x256.size a
  hwx0_11 : ∀ i : grid0.Coords, EltTy.bits .f32 = 32 ∨ (Rect.block (s := S128x256) S128x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S128x256.size a
  hwx0_12 : ∀ i : grid0.Coords, EltTy.bits .f32 = 32 ∨ (Rect.block (s := S128x256) S128x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x256.size a ≤ S128x256.size a
  hwx0_16 : ∀ i : grid0.Coords, EltTy.bits .f32 = 32 ∨ (Rect.block (s := S128x256) S128x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .f32 = 32 ∨ (Rect.block (s := S128x256) S128x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .f32 = 32 ∨ (Rect.block (s := S256x256) S256x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .f32 = 32 ∨ (Rect.block (s := S256x256) S256x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S256x256.size a
  hwx0_22 : ∀ i : grid0.Coords, EltTy.bits .f32 = 32 ∨ (Rect.block (s := S256x256) S256x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .f32 = 32 ∨ (Rect.block (s := S256x256) S256x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256.size a ≤ S256.size a
  hwx0_24 : ∀ i : grid0.Coords, EltTy.bits .f32 = 32 ∨ (Rect.block (s := S256) S256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x32x96x256.size a ≤ S8x96x96x256.size a
  hwx0_25 : ∀ i : grid0.Coords, EltTy.bits .f32 = 32 ∨ (Rect.block (s := S8x96x96x256) S1x32x96x256.size (cc0_transform_25 i) (hinb0_25 i)).WholeWords (EltTy.packing .f32)

variable [Facts₀]

def dot_S3072x128_S128x256_S3072x256_1_0_0_1_n_n : DotDims S3072x128 S128x256 S3072x256 where
  lhsContracting := [1]
  rhsContracting := [0]
  lhsNonContracting := [0]
  rhsNonContracting := [1]
  lhsBatch := []
  rhsBatch := []
  wf := dot_S3072x128_S128x256_S3072x256_1_0_0_1_n_n_wf
def dot_S3072x256_S256x256_S3072x256_1_0_0_1_n_n : DotDims S3072x256 S256x256 S3072x256 where
  lhsContracting := [1]
  rhsContracting := [0]
  lhsNonContracting := [0]
  rhsNonContracting := [1]
  lhsBatch := []
  rhsBatch := []
  wf := dot_S3072x256_S256x256_S3072x256_1_0_0_1_n_n_wf

abbrev win0_0 : Pipeline.Window sig grid0 :=
  Pipeline.Window.ofSpec (Memref.whole main_arg0) S1x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x96x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x96.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S128x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S128x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg9) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S128x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg12) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg13) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg14) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v8) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v9) S256x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v10) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg16) S256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v13) S1x32x96x256.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8x96x128 : Shape := ⟨3, ![8, 96, 128]⟩
abbrev S8x96x96 : Shape := ⟨3, ![8, 96, 96]⟩
abbrev S8x96 : Shape := ⟨2, ![8, 96]⟩
abbrev S257x256 : Shape := ⟨2, ![257, 256]⟩
abbrev S256 : Shape := ⟨1, ![256]⟩
abbrev S256x256 : Shape := ⟨2, ![256, 256]⟩
abbrev S768x256 : Shape := ⟨2, ![768, 256]⟩
abbrev S8x96x1x128 : Shape := ⟨4, ![8, 96, 1, 128]⟩
abbrev S8x96x96x128 : Shape := ⟨4, ![8, 96, 96, 128]⟩
abbrev S8x1x96x128 : Shape := ⟨4, ![8, 1, 96, 128]⟩
abbrev S8x96x96x1 : Shape := ⟨4, ![8, 96, 96, 1]⟩
abbrev S8x96x96x257 : Shape := ⟨4, ![8, 96, 96, 257]⟩
abbrev S8x96x96x256 : Shape := ⟨4, ![8, 96, 96, 256]⟩
abbrev S1x1x1x256 : Shape := ⟨4, ![1, 1, 1, 256]⟩
abbrev S_ : Shape := ⟨0, ![]⟩
abbrev S8x96x96x768 : Shape := ⟨4, ![8, 96, 96, 768]⟩
abbrev S8x96x1 : Shape := ⟨3, ![8, 96, 1]⟩
abbrev S8x1x96 : Shape := ⟨3, ![8, 1, 96]⟩

abbrev nBuf : Space → Nat
  | .hbm => 73
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S8x96x96, .f32⟩
  | .hbm, ⟨2, _⟩ => ⟨S8x96, .f32⟩
  | .hbm, ⟨3, _⟩ => ⟨S257x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S768x256, .f32⟩
  | .hbm, ⟨16, _⟩ => ⟨S256, .f32⟩
  | .hbm, ⟨17, _⟩ => ⟨S8x96x1x128, .f32⟩
  | .hbm, ⟨18, _⟩ => ⟨S8x96x96x128, .f32⟩
  | .hbm, ⟨19, _⟩ => ⟨S8x1x96x128, .f32⟩
  | .hbm, ⟨20, _⟩ => ⟨S8x96x96x128, .f32⟩
  | .hbm, ⟨21, _⟩ => ⟨S8x96x96x1, .f32⟩
  | .hbm, ⟨22, _⟩ => ⟨S8x96x96x257, .f32⟩
  | .hbm, ⟨23, _⟩ => ⟨S8x96x96x256, .f32⟩
  | .hbm, ⟨24, _⟩ => ⟨S1x1x1x256, .f32⟩
  | .hbm, ⟨25, _⟩ => ⟨S8x96x96x256, .f32⟩
  | .hbm, ⟨26, _⟩ => ⟨S8x96x96x256, .f32⟩
  | .hbm, ⟨27, _⟩ => ⟨S_, .f32⟩
  | .hbm, ⟨28, _⟩ => ⟨S8x96x96x256, .f32⟩
  | .hbm, ⟨29, _⟩ => ⟨S8x96x96x256, .f32⟩
  | .hbm, ⟨30, _⟩ => ⟨S8x96x96x256, .f32⟩
  | .hbm, ⟨31, _⟩ => ⟨S1x1x1x256, .f32⟩
  | .hbm, ⟨32, _⟩ => ⟨S8x96x96x256, .f32⟩
  | .hbm, ⟨33, _⟩ => ⟨S8x96x96x256, .f32⟩
  | .hbm, ⟨34, _⟩ => ⟨S8x96x96x256, .f32⟩
  | .hbm, ⟨35, _⟩ => ⟨S8x96x96x256, .f32⟩
  | .hbm, ⟨36, _⟩ => ⟨S1x1x1x256, .f32⟩
  | .hbm, ⟨37, _⟩ => ⟨S8x96x96x256, .f32⟩
  | .hbm, ⟨38, _⟩ => ⟨S8x96x96x256, .f32⟩
  | .hbm, ⟨39, _⟩ => ⟨S_, .f32⟩
  | .hbm, ⟨40, _⟩ => ⟨S8x96x96x256, .f32⟩
  | .hbm, ⟨41, _⟩ => ⟨S8x96x96x256, .f32⟩
  | .hbm, ⟨42, _⟩ => ⟨S8x96x96x256, .f32⟩
  | .hbm, ⟨43, _⟩ => ⟨S1x1x1x256, .f32⟩
  | .hbm, ⟨44, _⟩ => ⟨S8x96x96x256, .f32⟩
  | .hbm, ⟨45, _⟩ => ⟨S8x96x96x256, .f32⟩
  | .hbm, ⟨46, _⟩ => ⟨S8x96x96x128, .f32⟩
  | .hbm, ⟨47, _⟩ => ⟨S8x96x96x128, .f32⟩
  | .hbm, ⟨48, _⟩ => ⟨S8x96x96x256, .f32⟩
  | .hbm, ⟨49, _⟩ => ⟨S8x96x96x256, .f32⟩
  | .hbm, ⟨50, _⟩ => ⟨S1x1x1x256, .f32⟩
  | .hbm, ⟨51, _⟩ => ⟨S8x96x96x256, .f32⟩
  | .hbm, ⟨52, _⟩ => ⟨S8x96x96x256, .f32⟩
  | .hbm, ⟨53, _⟩ => ⟨S_, .f32⟩
  | .hbm, ⟨54, _⟩ => ⟨S8x96x96x256, .f32⟩
  | .hbm, ⟨55, _⟩ => ⟨S8x96x96x256, .f32⟩
  | .hbm, ⟨56, _⟩ => ⟨S8x96x96x256, .f32⟩
  | .hbm, ⟨57, _⟩ => ⟨S1x1x1x256, .f32⟩
  | .hbm, ⟨58, _⟩ => ⟨S8x96x96x256, .f32⟩
  | .hbm, ⟨59, _⟩ => ⟨S8x96x96x256, .f32⟩
  | .hbm, ⟨60, _⟩ => ⟨S8x96x96x768, .f32⟩
  | .hbm, ⟨61, _⟩ => ⟨S8x96x96x256, .f32⟩
  | .hbm, ⟨62, _⟩ => ⟨S1x1x1x256, .f32⟩
  | .hbm, ⟨63, _⟩ => ⟨S8x96x96x256, .f32⟩
  | .hbm, ⟨64, _⟩ => ⟨S8x96x96x256, .f32⟩
  | .hbm, ⟨65, _⟩ => ⟨S8x96x1, .f32⟩
  | .hbm, ⟨66, _⟩ => ⟨S8x1x96, .f32⟩
  | .hbm, ⟨67, _⟩ => ⟨S8x96x96, .f32⟩
  | .hbm, ⟨68, _⟩ => ⟨S8x96x96, .f32⟩
  | .hbm, ⟨69, _⟩ => ⟨S8x96x96, .f32⟩
  | .hbm, ⟨70, _⟩ => ⟨S8x96x96x1, .f32⟩
  | .hbm, ⟨71, _⟩ => ⟨S8x96x96x256, .f32⟩
  | .hbm, ⟨72, _⟩ => ⟨S8x96x96x256, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call0_cst : Ref sig .tc := ⟨.hbm, 27, rfl⟩
abbrev main_call0_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_cst : Ref sig .tc := ⟨.hbm, 39, rfl⟩
abbrev main_call1_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_cst : Ref sig .tc := ⟨.hbm, 53, rfl⟩
abbrev main_call2_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S8x96x128_S8x96x1x128_0_1_3 : S8x96x128.BroadcastsInDim S8x96x1x128 (![0, 1, 3] : Fin 3 → Fin S8x96x1x128.rank)
  bcast_S8x96x1x128_S8x96x96x128_0_1_2_3 : S8x96x1x128.BroadcastsInDim S8x96x96x128 (![0, 1, 2, 3] : Fin 4 → Fin S8x96x96x128.rank)
  bcast_S8x96x128_S8x1x96x128_0_2_3 : S8x96x128.BroadcastsInDim S8x1x96x128 (![0, 2, 3] : Fin 3 → Fin S8x1x96x128.rank)
  bcast_S8x1x96x128_S8x96x96x128_0_1_2_3 : S8x1x96x128.BroadcastsInDim S8x96x96x128 (![0, 1, 2, 3] : Fin 4 → Fin S8x96x96x128.rank)
  bcast_S8x96x96_S8x96x96x1_0_1_2 : S8x96x96.BroadcastsInDim S8x96x96x1 (![0, 1, 2] : Fin 3 → Fin S8x96x96x1.rank)
  concatenates_S8x96x96x128_S8x96x96x128_S8x96x96x1_S8x96x96x257_d3 : Shape.Concatenates [S8x96x96x128, S8x96x96x128, S8x96x96x1] S8x96x96x257 3
  bcast_S256_S1x1x1x256_3 : S256.BroadcastsInDim S1x1x1x256 (![3] : Fin 1 → Fin S1x1x1x256.rank)
  bcast_S1x1x1x256_S8x96x96x256_0_1_2_3 : S1x1x1x256.BroadcastsInDim S8x96x96x256 (![0, 1, 2, 3] : Fin 4 → Fin S8x96x96x256.rank)
  bcast_S_S8x96x96x256 : S_.BroadcastsInDim S8x96x96x256 (![] : Fin 0 → Fin S8x96x96x256.rank)
  concatenates_S8x96x96x128_S8x96x96x128_S8x96x96x256_d3 : Shape.Concatenates [S8x96x96x128, S8x96x96x128] S8x96x96x256 3
  concatenates_S8x96x96x256_S8x96x96x256_S8x96x96x256_S8x96x96x768_d3 : Shape.Concatenates [S8x96x96x256, S8x96x96x256, S8x96x96x256] S8x96x96x768 3
  bcast_S8x96_S8x96x1_0_1 : S8x96.BroadcastsInDim S8x96x1 (![0, 1] : Fin 2 → Fin S8x96x1.rank)
  bcast_S8x96_S8x1x96_0_2 : S8x96.BroadcastsInDim S8x1x96 (![0, 2] : Fin 2 → Fin S8x1x96.rank)
  bcast_S8x96x1_S8x96x96_0_1_2 : S8x96x1.BroadcastsInDim S8x96x96 (![0, 1, 2] : Fin 3 → Fin S8x96x96.rank)
  bcast_S8x1x96_S8x96x96_0_1_2 : S8x1x96.BroadcastsInDim S8x96x96 (![0, 1, 2] : Fin 3 → Fin S8x96x96.rank)
  bcast_S8x96x96x1_S8x96x96x256_0_1_2_3 : S8x96x96x1.BroadcastsInDim S8x96x96x256 (![0, 1, 2, 3] : Fin 4 → Fin S8x96x96x256.rank)
  dot_S8x96x96x257_S257x256_S8x96x96x256_3_0_012_1_n_n_wf : DotDims.WF S8x96x96x257 S257x256 S8x96x96x256 [3] [0] [0, 1, 2] [1] [] []
  dot_S8x96x96x256_S256x256_S8x96x96x256_3_0_012_1_n_n_wf : DotDims.WF S8x96x96x256 S256x256 S8x96x96x256 [3] [0] [0, 1, 2] [1] [] []
  dot_S8x96x96x768_S768x256_S8x96x96x256_3_0_012_1_n_n_wf : DotDims.WF S8x96x96x768 S768x256 S8x96x96x256 [3] [0] [0, 1, 2] [1] [] []

variable [Facts₀]

def dot_S8x96x96x257_S257x256_S8x96x96x256_3_0_012_1_n_n : DotDims S8x96x96x257 S257x256 S8x96x96x256 where
  lhsContracting := [3]
  rhsContracting := [0]
  lhsNonContracting := [0, 1, 2]
  rhsNonContracting := [1]
  lhsBatch := []
  rhsBatch := []
  wf := dot_S8x96x96x257_S257x256_S8x96x96x256_3_0_012_1_n_n_wf
def dot_S8x96x96x256_S256x256_S8x96x96x256_3_0_012_1_n_n : DotDims S8x96x96x256 S256x256 S8x96x96x256 where
  lhsContracting := [3]
  rhsContracting := [0]
  lhsNonContracting := [0, 1, 2]
  rhsNonContracting := [1]
  lhsBatch := []
  rhsBatch := []
  wf := dot_S8x96x96x256_S256x256_S8x96x96x256_3_0_012_1_n_n_wf
def dot_S8x96x96x768_S768x256_S8x96x96x256_3_0_012_1_n_n : DotDims S8x96x96x768 S768x256 S8x96x96x256 where
  lhsContracting := [3]
  rhsContracting := [0]
  lhsNonContracting := [0, 1, 2]
  rhsNonContracting := [1]
  lhsBatch := []
  rhsBatch := []
  wf := dot_S8x96x96x768_S768x256_S8x96x96x256_3_0_012_1_n_n_wf

class Facts : Prop extends Facts₀ where

variable [Facts]
-- ==== Proof.K.Host.lean ====
/-
  The host side of the kernel program: what each buffer holds when the one kernel region is entered, and the frame
  claim's postcondition from a run of the region.

  @main first cuts the first-layer and fusion weight matrices into their bands of rows (and the mask into a column and a
  row), then calls the kernel. `V` is the memory after those host operations; no host operation writes an argument
  array, so the region finds every argument as launched (`V_main_argK`). Window `w`'s block at grid point `t` is read
  off its array as the region finds it (`iblk`); an input window holds that block whenever the body runs, fetched at
  that point or not (`before_inW_of`). Two windows (0 and 1) are on the same array, the features: one reads the
  32 rows `i` of the point, the other all 96 rows `j` of the batch element.
-/
import proofs.«122816_j57561151701198_1_alg».proof.Proof.Gen.Kernel.Launch
import proofs.«122816_j57561151701198_1_alg».proof.Proof.Gen.Kernel.Skeleton
import proofs.«122816_j57561151701198_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that cut the weight matrices and the mask. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found by the region as launched. -/
theorem V_unwritten (c : Dev nD) (b : Ref sig .tc)
    (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

/-- Every host operation writes a fresh result buffer, none of them an argument. -/
local macro "host_leaves" : tactic => `(tactic| (
  refine List.forall_iff_forall_mem.mp ?_
  simp only [hostOps0, List.Forall, StableHlo.nullary_writes, StableHlo.unary_writes, StableHlo.binary_writes,
    StableHlo.reshape_writes, Finset.mem_singleton]
  repeat' apply And.intro
  all_goals exact StableHlo.devRef_ne_of_ne (by decide)))

theorem V_main_arg0 (c : Dev nD) : V m c main_arg0 = m ((c : Thread nD τ).loc main_arg0) := V_unwritten m c main_arg0 (by host_leaves)
theorem V_main_arg1 (c : Dev nD) : V m c main_arg1 = m ((c : Thread nD τ).loc main_arg1) := V_unwritten m c main_arg1 (by host_leaves)
theorem V_main_arg2 (c : Dev nD) : V m c main_arg2 = m ((c : Thread nD τ).loc main_arg2) := V_unwritten m c main_arg2 (by host_leaves)
theorem V_main_arg3 (c : Dev nD) : V m c main_arg3 = m ((c : Thread nD τ).loc main_arg3) := V_unwritten m c main_arg3 (by host_leaves)
theorem V_main_arg4 (c : Dev nD) : V m c main_arg4 = m ((c : Thread nD τ).loc main_arg4) := V_unwritten m c main_arg4 (by host_leaves)
theorem V_main_arg5 (c : Dev nD) : V m c main_arg5 = m ((c : Thread nD τ).loc main_arg5) := V_unwritten m c main_arg5 (by host_leaves)
theorem V_main_arg6 (c : Dev nD) : V m c main_arg6 = m ((c : Thread nD τ).loc main_arg6) := V_unwritten m c main_arg6 (by host_leaves)
theorem V_main_arg7 (c : Dev nD) : V m c main_arg7 = m ((c : Thread nD τ).loc main_arg7) := V_unwritten m c main_arg7 (by host_leaves)
theorem V_main_arg8 (c : Dev nD) : V m c main_arg8 = m ((c : Thread nD τ).loc main_arg8) := V_unwritten m c main_arg8 (by host_leaves)
theorem V_main_arg9 (c : Dev nD) : V m c main_arg9 = m ((c : Thread nD τ).loc main_arg9) := V_unwritten m c main_arg9 (by host_leaves)
theorem V_main_arg10 (c : Dev nD) : V m c main_arg10 = m ((c : Thread nD τ).loc main_arg10) := V_unwritten m c main_arg10 (by host_leaves)
theorem V_main_arg11 (c : Dev nD) : V m c main_arg11 = m ((c : Thread nD τ).loc main_arg11) := V_unwritten m c main_arg11 (by host_leaves)
theorem V_main_arg12 (c : Dev nD) : V m c main_arg12 = m ((c : Thread nD τ).loc main_arg12) := V_unwritten m c main_arg12 (by host_leaves)
theorem V_main_arg13 (c : Dev nD) : V m c main_arg13 = m ((c : Thread nD τ).loc main_arg13) := V_unwritten m c main_arg13 (by host_leaves)
theorem V_main_arg14 (c : Dev nD) : V m c main_arg14 = m ((c : Thread nD τ).loc main_arg14) := V_unwritten m c main_arg14 (by host_leaves)
theorem V_main_arg15 (c : Dev nD) : V m c main_arg15 = m ((c : Thread nD τ).loc main_arg15) := V_unwritten m c main_arg15 (by host_leaves)
theorem V_main_arg16 (c : Dev nD) : V m c main_arg16 = m ((c : Thread nD τ).loc main_arg16) := V_unwritten m c main_arg16 (by host_leaves)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not fetched the
    block index has not moved), for any proof data whose array is `V`'s and whose body leaves the block in place. -/
local macro "before_in_proof" w:term : term => `(fun {c : Dev nD} (dat : Dat τ (Elt F) Unit ℕ (UR sig nD τ) ℕ cfg0 c)
    (hA : dat.A $w = V m c (Pipeline.arrRef spec0 $w)) (hafter : ∀ t, dat.after $w t = iblk m c $w t) (t : Fin cfg0.N) d =>
  ((dat.before_in_eq_fetched $w rfl (fun _ => rfl) (fun _ _ _ => rfl)
      (fun t => by rw [hafter]; unfold Dat.blockOf iblk; rw [hA]; try rfl) t d).trans
    (by unfold Dat.fetched Dat.blockOf iblk; rw [hA]; try rfl) : dat.before $w t d = iblk m c $w t))

theorem before_in0_of {c : Dev nD} (dat : Dat τ (Elt F) Unit ℕ (UR sig nD τ) ℕ cfg0 c) (hA : dat.A 0 = V m c (Pipeline.arrRef spec0 0)) (hafter : ∀ t, dat.after 0 t = iblk m c 0 t) (t : Fin cfg0.N) (d) :
    dat.before 0 t d = iblk m c 0 t := (before_in_proof (0 : Fin cfg0.W)) dat hA hafter t d
theorem before_in1_of {c : Dev nD} (dat : Dat τ (Elt F) Unit ℕ (UR sig nD τ) ℕ cfg0 c) (hA : dat.A 1 = V m c (Pipeline.arrRef spec0 1)) (hafter : ∀ t, dat.after 1 t = iblk m c 1 t) (t : Fin cfg0.N) (d) :
    dat.before 1 t d = iblk m c 1 t := (before_in_proof (1 : Fin cfg0.W)) dat hA hafter t d
theorem before_in2_of {c : Dev nD} (dat : Dat τ (Elt F) Unit ℕ (UR sig nD τ) ℕ cfg0 c) (hA : dat.A 2 = V m c (Pipeline.arrRef spec0 2)) (hafter : ∀ t, dat.after 2 t = iblk m c 2 t) (t : Fin cfg0.N) (d) :
    dat.before 2 t d = iblk m c 2 t := (before_in_proof (2 : Fin cfg0.W)) dat hA hafter t d
theorem before_in3_of {c : Dev nD} (dat : Dat τ (Elt F) Unit ℕ (UR sig nD τ) ℕ cfg0 c) (hA : dat.A 3 = V m c (Pipeline.arrRef spec0 3)) (hafter : ∀ t, dat.after 3 t = iblk m c 3 t) (t : Fin cfg0.N) (d) :
    dat.before 3 t d = iblk m c 3 t := (before_in_proof (3 : Fin cfg0.W)) dat hA hafter t d
theorem before_in4_of {c : Dev nD} (dat : Dat τ (Elt F) Unit ℕ (UR sig nD τ) ℕ cfg0 c) (hA : dat.A 4 = V m c (Pipeline.arrRef spec0 4)) (hafter : ∀ t, dat.after 4 t = iblk m c 4 t) (t : Fin cfg0.N) (d) :
    dat.before 4 t d = iblk m c 4 t := (before_in_proof (4 : Fin cfg0.W)) dat hA hafter t d
theorem before_in5_of {c : Dev nD} (dat : Dat τ (Elt F) Unit ℕ (UR sig nD τ) ℕ cfg0 c) (hA : dat.A 5 = V m c (Pipeline.arrRef spec0 5)) (hafter : ∀ t, dat.after 5 t = iblk m c 5 t) (t : Fin cfg0.N) (d) :
    dat.before 5 t d = iblk m c 5 t := (before_in_proof (5 : Fin cfg0.W)) dat hA hafter t d
theorem before_in6_of {c : Dev nD} (dat : Dat τ (Elt F) Unit ℕ (UR sig nD τ) ℕ cfg0 c) (hA : dat.A 6 = V m c (Pipeline.arrRef spec0 6)) (hafter : ∀ t, dat.after 6 t = iblk m c 6 t) (t : Fin cfg0.N) (d) :
    dat.before 6 t d = iblk m c 6 t := (before_in_proof (6 : Fin cfg0.W)) dat hA hafter t d
theorem before_in7_of {c : Dev nD} (dat : Dat τ (Elt F) Unit ℕ (UR sig nD τ) ℕ cfg0 c) (hA : dat.A 7 = V m c (Pipeline.arrRef spec0 7)) (hafter : ∀ t, dat.after 7 t = iblk m c 7 t) (t : Fin cfg0.N) (d) :
    dat.before 7 t d = iblk m c 7 t := (before_in_proof (7 : Fin cfg0.W)) dat hA hafter t d
theorem before_in8_of {c : Dev nD} (dat : Dat τ (Elt F) Unit ℕ (UR sig nD τ) ℕ cfg0 c) (hA : dat.A 8 = V m c (Pipeline.arrRef spec0 8)) (hafter : ∀ t, dat.after 8 t = iblk m c 8 t) (t : Fin cfg0.N) (d) :
    dat.before 8 t d = iblk m c 8 t := (before_in_proof (8 : Fin cfg0.W)) dat hA hafter t d
theorem before_in9_of {c : Dev nD} (dat : Dat τ (Elt F) Unit ℕ (UR sig nD τ) ℕ cfg0 c) (hA : dat.A 9 = V m c (Pipeline.arrRef spec0 9)) (hafter : ∀ t, dat.after 9 t = iblk m c 9 t) (t : Fin cfg0.N) (d) :
    dat.before 9 t d = iblk m c 9 t := (before_in_proof (9 : Fin cfg0.W)) dat hA hafter t d
theorem before_in10_of {c : Dev nD} (dat : Dat τ (Elt F) Unit ℕ (UR sig nD τ) ℕ cfg0 c) (hA : dat.A 10 = V m c (Pipeline.arrRef spec0 10)) (hafter : ∀ t, dat.after 10 t = iblk m c 10 t) (t : Fin cfg0.N) (d) :
    dat.before 10 t d = iblk m c 10 t := (before_in_proof (10 : Fin cfg0.W)) dat hA hafter t d
theorem before_in11_of {c : Dev nD} (dat : Dat τ (Elt F) Unit ℕ (UR sig nD τ) ℕ cfg0 c) (hA : dat.A 11 = V m c (Pipeline.arrRef spec0 11)) (hafter : ∀ t, dat.after 11 t = iblk m c 11 t) (t : Fin cfg0.N) (d) :
    dat.before 11 t d = iblk m c 11 t := (before_in_proof (11 : Fin cfg0.W)) dat hA hafter t d
theorem before_in12_of {c : Dev nD} (dat : Dat τ (Elt F) Unit ℕ (UR sig nD τ) ℕ cfg0 c) (hA : dat.A 12 = V m c (Pipeline.arrRef spec0 12)) (hafter : ∀ t, dat.after 12 t = iblk m c 12 t) (t : Fin cfg0.N) (d) :
    dat.before 12 t d = iblk m c 12 t := (before_in_proof (12 : Fin cfg0.W)) dat hA hafter t d
theorem before_in13_of {c : Dev nD} (dat : Dat τ (Elt F) Unit ℕ (UR sig nD τ) ℕ cfg0 c) (hA : dat.A 13 = V m c (Pipeline.arrRef spec0 13)) (hafter : ∀ t, dat.after 13 t = iblk m c 13 t) (t : Fin cfg0.N) (d) :
    dat.before 13 t d = iblk m c 13 t := (before_in_proof (13 : Fin cfg0.W)) dat hA hafter t d
theorem before_in14_of {c : Dev nD} (dat : Dat τ (Elt F) Unit ℕ (UR sig nD τ) ℕ cfg0 c) (hA : dat.A 14 = V m c (Pipeline.arrRef spec0 14)) (hafter : ∀ t, dat.after 14 t = iblk m c 14 t) (t : Fin cfg0.N) (d) :
    dat.before 14 t d = iblk m c 14 t := (before_in_proof (14 : Fin cfg0.W)) dat hA hafter t d
theorem before_in15_of {c : Dev nD} (dat : Dat τ (Elt F) Unit ℕ (UR sig nD τ) ℕ cfg0 c) (hA : dat.A 15 = V m c (Pipeline.arrRef spec0 15)) (hafter : ∀ t, dat.after 15 t = iblk m c 15 t) (t : Fin cfg0.N) (d) :
    dat.before 15 t d = iblk m c 15 t := (before_in_proof (15 : Fin cfg0.W)) dat hA hafter t d
theorem before_in16_of {c : Dev nD} (dat : Dat τ (Elt F) Unit ℕ (UR sig nD τ) ℕ cfg0 c) (hA : dat.A 16 = V m c (Pipeline.arrRef spec0 16)) (hafter : ∀ t, dat.after 16 t = iblk m c 16 t) (t : Fin cfg0.N) (d) :
    dat.before 16 t d = iblk m c 16 t := (before_in_proof (16 : Fin cfg0.W)) dat hA hafter t d
theorem before_in17_of {c : Dev nD} (dat : Dat τ (Elt F) Unit ℕ (UR sig nD τ) ℕ cfg0 c) (hA : dat.A 17 = V m c (Pipeline.arrRef spec0 17)) (hafter : ∀ t, dat.after 17 t = iblk m c 17 t) (t : Fin cfg0.N) (d) :
    dat.before 17 t d = iblk m c 17 t := (before_in_proof (17 : Fin cfg0.W)) dat hA hafter t d
theorem before_in18_of {c : Dev nD} (dat : Dat τ (Elt F) Unit ℕ (UR sig nD τ) ℕ cfg0 c) (hA : dat.A 18 = V m c (Pipeline.arrRef spec0 18)) (hafter : ∀ t, dat.after 18 t = iblk m c 18 t) (t : Fin cfg0.N) (d) :
    dat.before 18 t d = iblk m c 18 t := (before_in_proof (18 : Fin cfg0.W)) dat hA hafter t d
theorem before_in19_of {c : Dev nD} (dat : Dat τ (Elt F) Unit ℕ (UR sig nD τ) ℕ cfg0 c) (hA : dat.A 19 = V m c (Pipeline.arrRef spec0 19)) (hafter : ∀ t, dat.after 19 t = iblk m c 19 t) (t : Fin cfg0.N) (d) :
    dat.before 19 t d = iblk m c 19 t := (before_in_proof (19 : Fin cfg0.W)) dat hA hafter t d
theorem before_in20_of {c : Dev nD} (dat : Dat τ (Elt F) Unit ℕ (UR sig nD τ) ℕ cfg0 c) (hA : dat.A 20 = V m c (Pipeline.arrRef spec0 20)) (hafter : ∀ t, dat.after 20 t = iblk m c 20 t) (t : Fin cfg0.N) (d) :
    dat.before 20 t d = iblk m c 20 t := (before_in_proof (20 : Fin cfg0.W)) dat hA hafter t d
theorem before_in21_of {c : Dev nD} (dat : Dat τ (Elt F) Unit ℕ (UR sig nD τ) ℕ cfg0 c) (hA : dat.A 21 = V m c (Pipeline.arrRef spec0 21)) (hafter : ∀ t, dat.after 21 t = iblk m c 21 t) (t : Fin cfg0.N) (d) :
    dat.before 21 t d = iblk m c 21 t := (before_in_proof (21 : Fin cfg0.W)) dat hA hafter t d
theorem before_in22_of {c : Dev nD} (dat : Dat τ (Elt F) Unit ℕ (UR sig nD τ) ℕ cfg0 c) (hA : dat.A 22 = V m c (Pipeline.arrRef spec0 22)) (hafter : ∀ t, dat.after 22 t = iblk m c 22 t) (t : Fin cfg0.N) (d) :
    dat.before 22 t d = iblk m c 22 t := (before_in_proof (22 : Fin cfg0.W)) dat hA hafter t d
theorem before_in23_of {c : Dev nD} (dat : Dat τ (Elt F) Unit ℕ (UR sig nD τ) ℕ cfg0 c) (hA : dat.A 23 = V m c (Pipeline.arrRef spec0 23)) (hafter : ∀ t, dat.after 23 t = iblk m c 23 t) (t : Fin cfg0.N) (d) :
    dat.before 23 t d = iblk m c 23 t := (before_in_proof (23 : Fin cfg0.W)) dat hA hafter t d
theorem before_in24_of {c : Dev nD} (dat : Dat τ (Elt F) Unit ℕ (UR sig nD τ) ℕ cfg0 c) (hA : dat.A 24 = V m c (Pipeline.arrRef spec0 24)) (hafter : ∀ t, dat.after 24 t = iblk m c 24 t) (t : Fin cfg0.N) (d) :
    dat.before 24 t d = iblk m c 24 t := (before_in_proof (24 : Fin cfg0.W)) dat hA hafter t d

/-! ## The frame claim's post from a frame run -/

/-- For any proof data whose arrays are the region-entry contents, a run that ends with every window's array at the proof
    data's final contents and every other unscoped buffer as the region found it leaves every ARGUMENT as launched: a
    staged argument is an input window's array, which no write-back touches; the five weight matrices the host cut
    (and the mask) are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 8).trans (((dats 0 c).arrAt_in 8 rfl _).trans ((hA c 8).trans (V_main_arg4 m c))),
      ((h c).1 9).trans (((dats 0 c).arrAt_in 9 rfl _).trans ((hA c 9).trans (V_main_arg5 m c))),
      ((h c).1 10).trans (((dats 0 c).arrAt_in 10 rfl _).trans ((hA c 10).trans (V_main_arg6 m c))),
      ((h c).2 main_arg7 (Pipeline.mem_restRefs_of main_arg7 (by decide) (by decide))).trans (V_main_arg7 m c),
      ((h c).1 13).trans (((dats 0 c).arrAt_in 13 rfl _).trans ((hA c 13).trans (V_main_arg8 m c))),
      ((h c).1 14).trans (((dats 0 c).arrAt_in 14 rfl _).trans ((hA c 14).trans (V_main_arg9 m c))),
      ((h c).1 15).trans (((dats 0 c).arrAt_in 15 rfl _).trans ((hA c 15).trans (V_main_arg10 m c))),
      ((h c).2 main_arg11 (Pipeline.mem_restRefs_of main_arg11 (by decide) (by decide))).trans (V_main_arg11 m c),
      ((h c).1 18).trans (((dats 0 c).arrAt_in 18 rfl _).trans ((hA c 18).trans (V_main_arg12 m c))),
      ((h c).1 19).trans (((dats 0 c).arrAt_in 19 rfl _).trans ((hA c 19).trans (V_main_arg13 m c))),
      ((h c).1 20).trans (((dats 0 c).arrAt_in 20 rfl _).trans ((hA c 20).trans (V_main_arg14 m c))),
      ((h c).2 main_arg15 (Pipeline.mem_restRefs_of main_arg15 (by decide) (by decide))).trans (V_main_arg15 m c),
      ((h c).1 24).trans (((dats 0 c).arrAt_in 24 rfl _).trans ((hA c 24).trans (V_main_arg16 m c)))⟩) h

end Cert.Kernel.Hand

end
-- ==== Proof.K.OutBlock.lean ====
/-
  What the kernel body stores, as one term over the blocks it loads.

  The body loads its twenty-five input blocks whole, computes, and stores one value over the whole output block. The
  stored value is the composition of the body's named pure pieces: the two feature blocks (cast and broadcast over
  the pair axes), the first-layer products, the three hidden layers, the three second-layer products, the final
  product, the bias and the mask. `outBlk` is that composition, at any float instance.
-/
import proofs.«122816_j57561151701198_1_alg».proof.Proof.Gen.Kernel.Skeleton

noncomputable section

namespace Cert.Kernel.Hand

open Idealize.ShloMosaic Idealize.SL.Sem Cert.Kernel Cert.Kernel.Gen

variable {F : FTy → Type} [FloatOps F]

/-- The value stored into the output block, from the values loaded from the input blocks: `x0` the rows `i` of the
    features, `x1` all rows `j`, `x2` the distances, `x3` / `x4` the mask at `i` / at `j`, then the weights and biases
    of the spatial (`x5`–`x10`), temporal (`x11`–`x15`) and interaction (`x16`–`x20`) branches and of the fusion layer
    (`x21`–`x24`). -/
def outBlk (x0 : Vec F S1x32x128 .f32) (x1 : Vec F S1x96x128 .f32) (x2 : Vec F S1x32x96 .f32) (x3 : Vec F S1x32x1 .f32)
    (x4 : Vec F S1x1x96 .f32) (x5 x6 : Vec F S128x256 .f32) (x7 x8 : Vec F S256 .f32) (x9 : Vec F S256x256 .f32)
    (x10 : Vec F S256 .f32) (x11 x12 : Vec F S128x256 .f32) (x13 : Vec F S256 .f32) (x14 : Vec F S256x256 .f32)
    (x15 : Vec F S256 .f32) (x16 x17 : Vec F S128x256 .f32) (x18 : Vec F S256 .f32) (x19 : Vec F S256x256 .f32)
    (x20 : Vec F S256 .f32) (x21 x22 x23 : Vec F S256x256 .f32) (x24 : Vec F S256 .f32) : FVec F S1x32x96x256 .f32 :=
  k0_pay1 (k0_pay2 x3) (k0_pay3 x4)
    (k0_pay11 x8 (k0_pay8 x0 x1 x5 x6) (k0_pay9 x2) (k0_pay10 x7) x9 x10)
    (k0_pay14 (k0_pay12 (k0_pay6 x0) (k0_pay7 x1) x11 x12 x13 x14) (k0_pay13 x15))
    (k0_pay15 (k0_pay4 x0) (k0_pay5 x1) x16 x17 x18 x19 x20)
    (k0_pay16 x21) (k0_pay17 x22) (k0_pay18 x23) x24

end Cert.Kernel.Hand

end
-- ==== Proof.K.Body.lean ====
/-
  The kernel body as a triple: on whole staging buffers, the twenty-five inputs at read contents `x0 … x24` and the output
  at anything, the body runs to the end leaving the inputs as they were and the output block at the value it stores,
  `outBlk` of the loaded blocks. The body loads each input block whole (one load through the rectangle that is the whole
  block), and stores the output block whole, so the one store covers the buffer.
-/
import proofs.«122816_j57561151701198_1_alg».proof.Proof.K.OutBlock
import proofs.«122816_j57561151701198_1_alg».proof.Proof.Gen.Kernel.Launch
import proofs.«122816_j57561151701198_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each the whole of its block -/

abbrev rFi : Rect S1x32x128 := Rect.unit (s := S1x32x128) ![0, 0, 0] S1x32x128.size inb_S1x32x128_S1x32x128_0_0_0
abbrev rFj : Rect S1x96x128 := Rect.unit (s := S1x96x128) ![0, 0, 0] S1x96x128.size inb_S1x96x128_S1x96x128_0_0_0
abbrev rDist : Rect S1x32x96 := Rect.unit (s := S1x32x96) ![0, 0, 0] S1x32x96.size inb_S1x32x96_S1x32x96_0_0_0
abbrev rMi : Rect S1x32x1 := Rect.unit (s := S1x32x1) ![0, 0, 0] S1x32x1.size inb_S1x32x1_S1x32x1_0_0_0
abbrev rMj : Rect S1x1x96 := Rect.unit (s := S1x1x96) ![0, 0, 0] S1x1x96.size inb_S1x1x96_S1x1x96_0_0_0
abbrev rHalf : Rect S128x256 := Rect.unit (s := S128x256) ![0, 0] S128x256.size inb_S128x256_S128x256_0_0
abbrev rVec : Rect S256 := Rect.unit (s := S256) ![0] S256.size inb_S256_S256_0
abbrev rSq : Rect S256x256 := Rect.unit (s := S256x256) ![0, 0] S256x256.size inb_S256x256_S256x256_0_0
abbrev rOut : Rect S1x32x96x256 := Rect.unit (s := S1x32x96x256) ![0, 0, 0, 0] S1x32x96x256.size inb_S1x32x96x256_S1x32x96x256_0_0_0_0

/-! ## What the body leaves in the output block -/

/-- The output window's staging buffer after the body, from the input windows' blocks: its one store as a piece. -/
def out0_25 (x0 : Vec F S1x32x128 .f32) (x1 : Vec F S1x96x128 .f32) (x2 : Vec F S1x32x96 .f32) (x3 : Vec F S1x32x1 .f32)
    (x4 : Vec F S1x1x96 .f32) (x5 x6 : Vec F S128x256 .f32) (x7 x8 : Vec F S256 .f32) (x9 : Vec F S256x256 .f32)
    (x10 : Vec F S256 .f32) (x11 x12 : Vec F S128x256 .f32) (x13 : Vec F S256 .f32) (x14 : Vec F S256x256 .f32)
    (x15 : Vec F S256 .f32) (x16 x17 : Vec F S128x256 .f32) (x18 : Vec F S256 .f32) (x19 : Vec F S256x256 .f32)
    (x20 : Vec F S256 .f32) (x21 x22 x23 : Vec F S256x256 .f32) (x24 : Vec F S256 .f32) : Vec F S1x32x96x256 .f32 :=
  View.canon [⟨rOut, outBlk (View.ld x0 rFi) (View.ld x1 rFj) (View.ld x2 rDist) (View.ld x3 rMi) (View.ld x4 rMj)
    (View.ld x5 rHalf) (View.ld x6 rHalf) (View.ld x7 rVec) (View.ld x8 rVec) (View.ld x9 rSq) (View.ld x10 rVec)
    (View.ld x11 rHalf) (View.ld x12 rHalf) (View.ld x13 rVec) (View.ld x14 rSq) (View.ld x15 rVec)
    (View.ld x16 rHalf) (View.ld x17 rHalf) (View.ld x18 rVec) (View.ld x19 rSq) (View.ld x20 rVec)
    (View.ld x21 rSq) (View.ld x22 rSq) (View.ld x23 rSq) (View.ld x24 rVec)⟩]

/-- The one store is of the whole block, so it covers it. -/
theorem cover0_25 (p0 : Vec F S1x32x96x256 .f32) (y : S1x32x96x256.Idx) :
    ∃ pc ∈ ([⟨rOut, p0⟩] : List (View.Piece (Elt F) S1x32x96x256 .f32)), y ∈ pc.1.set :=
  View.cover_of_tiled [⟨rOut, p0⟩] S1x32x96x256.size (by rfl) y

/-! ## The body's triple -/

set_option maxHeartbeats 4000000 in
/-- The body on whole staging buffers: inputs kept, the output block at `out0_25` of the inputs. -/
theorem sound_kernel (c : Dev nD) (E : Set ℕ) (i : grid0.Coords)
    (arg2 : Memref sig .tc .vmem S1x32x128 .f32) (harg2 : arg2.IsWhole) (arg3 : Memref sig .tc .vmem S1x96x128 .f32) (harg3 : arg3.IsWhole)
    (arg4 : Memref sig .tc .vmem S1x32x96 .f32) (harg4 : arg4.IsWhole) (arg5 : Memref sig .tc .vmem S1x32x1 .f32) (harg5 : arg5.IsWhole)
    (arg6 : Memref sig .tc .vmem S1x1x96 .f32) (harg6 : arg6.IsWhole) (arg7 : Memref sig .tc .vmem S128x256 .f32) (harg7 : arg7.IsWhole)
    (arg8 : Memref sig .tc .vmem S128x256 .f32) (harg8 : arg8.IsWhole) (arg9 : Memref sig .tc .vmem S256 .f32) (harg9 : arg9.IsWhole)
    (arg10 : Memref sig .tc .vmem S256 .f32) (harg10 : arg10.IsWhole) (arg11 : Memref sig .tc .vmem S256x256 .f32) (harg11 : arg11.IsWhole)
    (arg12 : Memref sig .tc .vmem S256 .f32) (harg12 : arg12.IsWhole) (arg13 : Memref sig .tc .vmem S128x256 .f32) (harg13 : arg13.IsWhole)
    (arg14 : Memref sig .tc .vmem S128x256 .f32) (harg14 : arg14.IsWhole) (arg15 : Memref sig .tc .vmem S256 .f32) (harg15 : arg15.IsWhole)
    (arg16 : Memref sig .tc .vmem S256x256 .f32) (harg16 : arg16.IsWhole) (arg17 : Memref sig .tc .vmem S256 .f32) (harg17 : arg17.IsWhole)
    (arg18 : Memref sig .tc .vmem S128x256 .f32) (harg18 : arg18.IsWhole) (arg19 : Memref sig .tc .vmem S128x256 .f32) (harg19 : arg19.IsWhole)
    (arg20 : Memref sig .tc .vmem S256 .f32) (harg20 : arg20.IsWhole) (arg21 : Memref sig .tc .vmem S256x256 .f32) (harg21 : arg21.IsWhole)
    (arg22 : Memref sig .tc .vmem S256 .f32) (harg22 : arg22.IsWhole) (arg23 : Memref sig .tc .vmem S256x256 .f32) (harg23 : arg23.IsWhole)
    (arg24 : Memref sig .tc .vmem S256x256 .f32) (harg24 : arg24.IsWhole) (arg25 : Memref sig .tc .vmem S256x256 .f32) (harg25 : arg25.IsWhole)
    (arg26 : Memref sig .tc .vmem S256 .f32) (harg26 : arg26.IsWhole) (arg27 : Memref sig .tc .vmem S1x32x96x256 .f32) (harg27 : arg27.IsWhole)
    (x0 : Vec F S1x32x128 .f32) (x1 : Vec F S1x96x128 .f32) (x2 : Vec F S1x32x96 .f32) (x3 : Vec F S1x32x1 .f32)
    (x4 : Vec F S1x1x96 .f32) (x5 x6 : Vec F S128x256 .f32) (x7 x8 : Vec F S256 .f32) (x9 : Vec F S256x256 .f32)
    (x10 : Vec F S256 .f32) (x11 x12 : Vec F S128x256 .f32) (x13 : Vec F S256 .f32) (x14 : Vec F S256x256 .f32)
    (x15 : Vec F S256 .f32) (x16 x17 : Vec F S128x256 .f32) (x18 : Vec F S256 .f32) (x19 : Vec F S256x256 .f32)
    (x20 : Vec F S256 .f32) (x21 x22 x23 : Vec F S256x256 .f32) (x24 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10 ∗ owns (c : Thread nD τ) arg13 fullShare x11
        ∗ owns (c : Thread nD τ) arg14 fullShare x12 ∗ owns (c : Thread nD τ) arg15 fullShare x13 ∗ owns (c : Thread nD τ) arg16 fullShare x14
        ∗ owns (c : Thread nD τ) arg17 fullShare x15 ∗ owns (c : Thread nD τ) arg18 fullShare x16 ∗ owns (c : Thread nD τ) arg19 fullShare x17
        ∗ owns (c : Thread nD τ) arg20 fullShare x18 ∗ owns (c : Thread nD τ) arg21 fullShare x19 ∗ owns (c : Thread nD τ) arg22 fullShare x20
        ∗ owns (c : Thread nD τ) arg23 fullShare x21 ∗ owns (c : Thread nD τ) arg24 fullShare x22 ∗ owns (c : Thread nD τ) arg25 fullShare x23
        ∗ owns (c : Thread nD τ) arg26 fullShare x24 ∗ (∃ d, owns (c : Thread nD τ) arg27 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15 ∗ owns (c : Thread nD τ) arg18 fullShare x16 ∗ owns (c : Thread nD τ) arg19 fullShare x17
            ∗ owns (c : Thread nD τ) arg20 fullShare x18 ∗ owns (c : Thread nD τ) arg21 fullShare x19 ∗ owns (c : Thread nD τ) arg22 fullShare x20
            ∗ owns (c : Thread nD τ) arg23 fullShare x21 ∗ owns (c : Thread nD τ) arg24 fullShare x22 ∗ owns (c : Thread nD τ) arg25 fullShare x23
            ∗ owns (c : Thread nD τ) arg26 fullShare x24
            ∗ owns (c : Thread nD τ) arg27 fullShare (out0_25 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E
          (cc0__relation_kernel i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19
            arg20 harg20 arg21 harg21 arg22 harg22 arg23 harg23 arg24 harg24 arg25 harg25 arg26 harg26 arg27 harg27) K := by
  simp only [cc0__relation_kernel_eq_skeleton]; unfold cc0__relation_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19, H19⟩,
    ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  exact View.read_writes_eq_canon _ _ _ (cover0_25 _)

end Cert.Kernel.Hand

end
-- ==== Proof.K.Data.lean ====
/-
  The proof data of the kernel's one pipeline, and the body obligation.

  Each array as the region finds it; after the body at a point every input window's buffer still at its block and the
  output window's at the value the body stores, of the input blocks at that point; nothing carried between points but
  the scoped buffers the pipeline does not stage (there are none). The features array is read through two windows, so
  each holds one half of its share; every other input array is held whole. With the body's triple this gives the body
  obligation at every point.
-/
import proofs.«122816_j57561151701198_1_alg».proof.Proof.K.Host
import proofs.«122816_j57561151701198_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`. Windows 0 and 1 are both on the features array and hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 26, h⟩ => absurd h (Nat.not_lt.2 (Nat.le_add_left _ _))
  Φ _ := Pipeline.scopedRest spec0 c
  q w := if w = 0 then fullShare.left else if w = 1 then fullShare.right else fullShare
  owed _ := 0

theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
/-- The output block after the body: the stored value of the input blocks at the point. -/
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by
  dsimp only [dats]

/-! Each input's current staging buffer holds its block at every point. -/
theorem before0_0 (c : Dev nD) (t : Fin cfg0.N) (d) : (dats m 0 c).before 0 t d = iblk m c 0 t := before_in0_of m (dats m 0 c) (A_eq m c 0) (after0_0 m c) t d
theorem before0_1 (c : Dev nD) (t : Fin cfg0.N) (d) : (dats m 0 c).before 1 t d = iblk m c 1 t := before_in1_of m (dats m 0 c) (A_eq m c 1) (after0_1 m c) t d
theorem before0_2 (c : Dev nD) (t : Fin cfg0.N) (d) : (dats m 0 c).before 2 t d = iblk m c 2 t := before_in2_of m (dats m 0 c) (A_eq m c 2) (after0_2 m c) t d
theorem before0_3 (c : Dev nD) (t : Fin cfg0.N) (d) : (dats m 0 c).before 3 t d = iblk m c 3 t := before_in3_of m (dats m 0 c) (A_eq m c 3) (after0_3 m c) t d
theorem before0_4 (c : Dev nD) (t : Fin cfg0.N) (d) : (dats m 0 c).before 4 t d = iblk m c 4 t := before_in4_of m (dats m 0 c) (A_eq m c 4) (after0_4 m c) t d
theorem before0_5 (c : Dev nD) (t : Fin cfg0.N) (d) : (dats m 0 c).before 5 t d = iblk m c 5 t := before_in5_of m (dats m 0 c) (A_eq m c 5) (after0_5 m c) t d
theorem before0_6 (c : Dev nD) (t : Fin cfg0.N) (d) : (dats m 0 c).before 6 t d = iblk m c 6 t := before_in6_of m (dats m 0 c) (A_eq m c 6) (after0_6 m c) t d
theorem before0_7 (c : Dev nD) (t : Fin cfg0.N) (d) : (dats m 0 c).before 7 t d = iblk m c 7 t := before_in7_of m (dats m 0 c) (A_eq m c 7) (after0_7 m c) t d
theorem before0_8 (c : Dev nD) (t : Fin cfg0.N) (d) : (dats m 0 c).before 8 t d = iblk m c 8 t := before_in8_of m (dats m 0 c) (A_eq m c 8) (after0_8 m c) t d
theorem before0_9 (c : Dev nD) (t : Fin cfg0.N) (d) : (dats m 0 c).before 9 t d = iblk m c 9 t := before_in9_of m (dats m 0 c) (A_eq m c 9) (after0_9 m c) t d
theorem before0_10 (c : Dev nD) (t : Fin cfg0.N) (d) : (dats m 0 c).before 10 t d = iblk m c 10 t := before_in10_of m (dats m 0 c) (A_eq m c 10) (after0_10 m c) t d
theorem before0_11 (c : Dev nD) (t : Fin cfg0.N) (d) : (dats m 0 c).before 11 t d = iblk m c 11 t := before_in11_of m (dats m 0 c) (A_eq m c 11) (after0_11 m c) t d
theorem before0_12 (c : Dev nD) (t : Fin cfg0.N) (d) : (dats m 0 c).before 12 t d = iblk m c 12 t := before_in12_of m (dats m 0 c) (A_eq m c 12) (after0_12 m c) t d
theorem before0_13 (c : Dev nD) (t : Fin cfg0.N) (d) : (dats m 0 c).before 13 t d = iblk m c 13 t := before_in13_of m (dats m 0 c) (A_eq m c 13) (after0_13 m c) t d
theorem before0_14 (c : Dev nD) (t : Fin cfg0.N) (d) : (dats m 0 c).before 14 t d = iblk m c 14 t := before_in14_of m (dats m 0 c) (A_eq m c 14) (after0_14 m c) t d
theorem before0_15 (c : Dev nD) (t : Fin cfg0.N) (d) : (dats m 0 c).before 15 t d = iblk m c 15 t := before_in15_of m (dats m 0 c) (A_eq m c 15) (after0_15 m c) t d
theorem before0_16 (c : Dev nD) (t : Fin cfg0.N) (d) : (dats m 0 c).before 16 t d = iblk m c 16 t := before_in16_of m (dats m 0 c) (A_eq m c 16) (after0_16 m c) t d
theorem before0_17 (c : Dev nD) (t : Fin cfg0.N) (d) : (dats m 0 c).before 17 t d = iblk m c 17 t := before_in17_of m (dats m 0 c) (A_eq m c 17) (after0_17 m c) t d
theorem before0_18 (c : Dev nD) (t : Fin cfg0.N) (d) : (dats m 0 c).before 18 t d = iblk m c 18 t := before_in18_of m (dats m 0 c) (A_eq m c 18) (after0_18 m c) t d
theorem before0_19 (c : Dev nD) (t : Fin cfg0.N) (d) : (dats m 0 c).before 19 t d = iblk m c 19 t := before_in19_of m (dats m 0 c) (A_eq m c 19) (after0_19 m c) t d
theorem before0_20 (c : Dev nD) (t : Fin cfg0.N) (d) : (dats m 0 c).before 20 t d = iblk m c 20 t := before_in20_of m (dats m 0 c) (A_eq m c 20) (after0_20 m c) t d
theorem before0_21 (c : Dev nD) (t : Fin cfg0.N) (d) : (dats m 0 c).before 21 t d = iblk m c 21 t := before_in21_of m (dats m 0 c) (A_eq m c 21) (after0_21 m c) t d
theorem before0_22 (c : Dev nD) (t : Fin cfg0.N) (d) : (dats m 0 c).before 22 t d = iblk m c 22 t := before_in22_of m (dats m 0 c) (A_eq m c 22) (after0_22 m c) t d
theorem before0_23 (c : Dev nD) (t : Fin cfg0.N) (d) : (dats m 0 c).before 23 t d = iblk m c 23 t := before_in23_of m (dats m 0 c) (A_eq m c 23) (after0_23 m c) t d
theorem before0_24 (c : Dev nD) (t : Fin cfg0.N) (d) : (dats m 0 c).before 24 t d = iblk m c 24 t := before_in24_of m (dats m 0 c) (A_eq m c 24) (after0_24 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
    after0_12, after0_13, after0_14, after0_15, after0_16, after0_17, after0_18, after0_19, after0_20, after0_21, after0_22,
    after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shares of the arrays -/

theorem share_0 (c : Dev nD) : (dats m 0 c).share 0 = fullShare.left := rfl
theorem share_1 (c : Dev nD) : (dats m 0 c).share 1 = fullShare.right := rfl
theorem share_rest (c : Dev nD) (w : Fin cfg0.W) (h0 : w ≠ 0) (h1 : w ≠ 1) : (dats m 0 c).share w = fullShare := by
  unfold Dat.share
  split
  · rfl
  · dsimp only [dats]; rw [if_neg h0, if_neg h1]

/-! ## The arguments at the end of a frame run -/

/-- A final state with every window's array at the proof data's final contents and every other unscoped buffer as the
    region found it has every ARGUMENT array as launched: a staged argument is an input window's array, which no
    write-back touches; the four weight matrices the host cuts and the mask are staged by no window. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 8).trans (((dats m 0 c).arrAt_in 8 rfl _).trans ((A_eq m c 8).trans (V_main_arg4 m c))),
    ((h c).1 9).trans (((dats m 0 c).arrAt_in 9 rfl _).trans ((A_eq m c 9).trans (V_main_arg5 m c))),
    ((h c).1 10).trans (((dats m 0 c).arrAt_in 10 rfl _).trans ((A_eq m c 10).trans (V_main_arg6 m c))),
    ((h c).2 main_arg7 (Pipeline.mem_restRefs_of main_arg7 (by decide) (by decide))).trans (V_main_arg7 m c),
    ((h c).1 13).trans (((dats m 0 c).arrAt_in 13 rfl _).trans ((A_eq m c 13).trans (V_main_arg8 m c))),
    ((h c).1 14).trans (((dats m 0 c).arrAt_in 14 rfl _).trans ((A_eq m c 14).trans (V_main_arg9 m c))),
    ((h c).1 15).trans (((dats m 0 c).arrAt_in 15 rfl _).trans ((A_eq m c 15).trans (V_main_arg10 m c))),
    ((h c).2 main_arg11 (Pipeline.mem_restRefs_of main_arg11 (by decide) (by decide))).trans (V_main_arg11 m c),
    ((h c).1 18).trans (((dats m 0 c).arrAt_in 18 rfl _).trans ((A_eq m c 18).trans (V_main_arg12 m c))),
    ((h c).1 19).trans (((dats m 0 c).arrAt_in 19 rfl _).trans ((A_eq m c 19).trans (V_main_arg13 m c))),
    ((h c).1 20).trans (((dats m 0 c).arrAt_in 20 rfl _).trans ((A_eq m c 20).trans (V_main_arg14 m c))),
    ((h c).2 main_arg15 (Pipeline.mem_restRefs_of main_arg15 (by decide) (by decide))).trans (V_main_arg15 m c),
    ((h c).1 24).trans (((dats m 0 c).arrAt_in 24 rfl _).trans ((A_eq m c 24).trans (V_main_arg16 m c)))⟩

end Cert.Kernel.Hand

end
-- ==== Proof.LibSharedFrame.lean ====
/-
  The frame run of a pipelined kernel some of whose windows are on one array.

  A kernel may be handed one array through several input windows. The array's buffer is then held once, at the full
  share, when the region is entered, and how it is dealt among the windows on it is a hypothesis here (`hsplit`: the
  buffers behind the arrays, each whole at the full share, make the proof data's arrays at entry).

  `θ_run_frame_shared`: from the proof data, its body obligation, @main up to the region and such a split, every weakly
  fair execution of @main terminates with every window's array at the proof data's final contents and every other
  unscoped buffer as the region found it; the body's invariant is only the scoped buffers the pipeline does not stage.
-/
import Idealize.ShloMosaic.Lib.Pipeline.Frame

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open Idealize.ShloMosaic.Rounds

section Frame

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays: `hsplit` says how the buffers behind the arrays make the proof data's
    arrays at entry; the proof data's invariant is the scoped buffers the pipeline does not stage. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  exact θ_run_region_noSem_shared cfgs dats () hinj p hw emb₁ defs₀ 𝒱₀ m g main hbody hne harr hstage howed
    (u₀ := initOf (cells cfgs hinj) (launchToks cfgs hinj))
    (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Frame

end Pipeline

end Idealize.ShloMosaic

end
-- ==== Proof.LibSharePair.lean ====
/-
  One array read through two input windows: dealing its share.

  A kernel may be handed one array through two input windows (one reads a block of it that moves with the grid point,
  the other a larger block). The array's buffer is held once, at the full share, when the region is entered, and the two
  windows each need a share of it: the full share is split into its two halves, one to each window. Every other
  window's array is a buffer of its own, held at the full share.

  `arrays_split_pair`: the buffers behind the windows' arrays, each whole at the full share, make the proof data's
  arrays at entry when exactly two windows `w₀`, `w₁` share an array and hold its two halves.
-/
import Idealize.ShloMosaic.Lib.Pipeline.Frame

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open Idealize.ShloMosaic.Rounds

section Split

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- Two input windows `w₀ ≠ w₁` on one array holding its two halves, every other window's array a buffer of its own at
    the full share: the buffers behind the arrays, whole at the full share, are the proof data's arrays. -/
theorem arrays_split_pair {cfg : Cfg sig Λ₀} {c : Dev nD} (dat : Dat τ Val Ix Name U Lvl cfg c)
    (w₀ w₁ : Fin cfg.W) (hne : w₀ ≠ w₁) (hsame : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hq₀ : dat.share w₀ = fullShare.left) (hq₁ : dat.share w₁ = fullShare.right)
    (hq : ∀ w, w ≠ w₀ → w ≠ w₁ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F := by
  classical
  -- the proof data's arrays: every window's array is a whole buffer, held at the window's share
  have harrays : dat.arrays F = bigSep Finset.univ fun w =>
      (((c.tc : Thread nD τ).loc (arrRef cfg.spec w)) ↦{dat.share w} F w : sProp 𝕄) := by
    unfold Dat.arrays
    exact BI.bigSep_congr fun w _ => by rw [(harr w).set_eq_univ]
  -- the buffers behind the arrays are those behind the windows other than `w₁` (its array is `w₀`'s), one each
  have hw₀ : w₀ ∈ (Finset.univ.erase w₁ : Finset (Fin cfg.W)) := Finset.mem_erase.mpr ⟨hne, Finset.mem_univ _⟩
  have himg : Finset.univ.image (arrRef cfg.spec) = (Finset.univ.erase w₁).image (arrRef cfg.spec) := by
    ext b
    constructor
    · intro hb
      obtain ⟨w, -, rfl⟩ := Finset.mem_image.mp hb
      by_cases h : w = w₁
      · exact Finset.mem_image.mpr ⟨w₀, hw₀, by rw [h, hsame]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hinjOn : Set.InjOn (arrRef cfg.spec) ↑(Finset.univ.erase w₁ : Finset (Fin cfg.W)) := fun w hw w' hw' e =>
    hinj w w' (Finset.ne_of_mem_erase (Finset.mem_coe.mp hw)) (Finset.ne_of_mem_erase (Finset.mem_coe.mp hw')) e
  -- a points-to read along an equation of references
  have htr : ∀ (b b' : Ref sig .tc) (q : PosShare TreeShare), b = b' →
      ((((c.tc : Thread nD τ).loc b) ↦{q} V b : sProp 𝕄)) = (((c.tc : Thread nD τ).loc b') ↦{q} V b') := by
    rintro b _ q rfl; rfl
  -- the left side: `w₀`'s buffer whole, and the buffers of the windows other than `w₀`, `w₁`
  have hL : (arrBufs cfg.spec c V : sProp 𝕄)
      = iprop((((c.tc : Thread nD τ).loc (arrRef cfg.spec w₀)) ↦{fullShare} V (arrRef cfg.spec w₀))
          ∗ bigSep ((Finset.univ.erase w₁).erase w₀) fun w =>
              (((c.tc : Thread nD τ).loc (arrRef cfg.spec w)) ↦{fullShare} V (arrRef cfg.spec w) : sProp 𝕄)) := by
    unfold arrBufs
    rw [himg, BI.bigSep_image_of_injOn hinjOn, BI.bigSep_erase hw₀]
    rfl
  -- the right side: `w₁`'s half, `w₀`'s half, and the other windows' buffers whole
  have hR : dat.arrays F
      = iprop((((c.tc : Thread nD τ).loc (arrRef cfg.spec w₀)) ↦{fullShare.right} V (arrRef cfg.spec w₀))
          ∗ (((c.tc : Thread nD τ).loc (arrRef cfg.spec w₀)) ↦{fullShare.left} V (arrRef cfg.spec w₀))
          ∗ bigSep ((Finset.univ.erase w₁).erase w₀) fun w =>
              (((c.tc : Thread nD τ).loc (arrRef cfg.spec w)) ↦{fullShare} V (arrRef cfg.spec w) : sProp 𝕄)) := by
    rw [harrays, BI.bigSep_univ_split w₁, BI.bigSep_erase hw₀, hq₀, hq₁, hF w₀, hF w₁, htr _ _ fullShare.right hsame]
    congr 2
    exact BI.bigSep_congr fun w hw => by
      rw [hq w (Finset.ne_of_mem_erase hw) (Finset.ne_of_mem_erase (Finset.mem_of_mem_erase hw)), hF w]
  rw [hL, hR]
  -- the full share of `w₀`'s buffer is its two halves
  iintro ⟨HA, HS⟩
  ihave HA := (pointsTo_share (PosShare.mem_left_op_right fullShare)).1 $$ HA
  icases HA with ⟨HA₁, HA₂⟩
  isplitl [HA₂]; · iexact HA₂
  isplitl [HA₁]; · iexact HA₁
  iexact HS

end Split

end Pipeline

end Idealize.ShloMosaic

end
-- ==== Proof.K.Run.lean ====
/-
  The run of the kernel program, and its frame.

  The features' buffer is dealt in halves to the two windows on it. With the body obligation, the frame run for windows
  that share an array gives: @main terminates, every window's array ends at the proof data's final contents, every
  other buffer as found; in particular every argument array ends as launched.
-/
import proofs.«122816_j57561151701198_1_alg».proof.Proof.K.Data
import proofs.«122816_j57561151701198_1_alg».proof.Proof.LibSharedFrame
import proofs.«122816_j57561151701198_1_alg».proof.Proof.LibSharePair

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The features' buffer, held whole when the region is entered, is dealt in halves to the two windows on it; every other
    window's array is a buffer of its own. -/
theorem hsplit (c : Dev nD) :
    (Pipeline.arrBufs spec0 c (V m c) : sProp 𝕄) ⊢ (dats m 0 c).arrays ((dats m 0 c).arrAt · 0) :=
  Pipeline.arrays_split_pair (dats m 0 c) 0 1 (by decide) rfl (by decide) arr_whole0 (share_0 m c) (share_1 m c)
    (share_rest m c) (V m c) _ (fun w => A_eq m c w)

/-! ## The run and the frame -/

set_option backward.isDefEq.respectTransparency.types false in
/-- Every weakly fair execution of @main terminates, every window's array at the proof data's final contents and every
    other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The frame: the program runs to the end, nothing faulting, its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Hand

end
-- ==== Proof.KI.Host.lean ====
/-
  The host side of the kernel program: what each buffer holds when the one kernel region is entered, and the frame
  claim's postcondition from a run of the region.

  @main first cuts the first-layer and fusion weight matrices into their bands of rows (and the mask into a column and a
  row), then calls the kernel. `V` is the memory after those host operations; no host operation writes an argument
  array, so the region finds every argument as launched (`V_main_argK`). Window `w`'s block at grid point `t` is read
  off its array as the region finds it (`iblk`); an input window holds that block whenever the body runs, fetched at
  that point or not (`before_inW_of`). Two windows (0 and 1) are on the same array, the features: one reads the
  32 rows `i` of the point, the other all 96 rows `j` of the batch element.
-/
import proofs.«122816_j57561151701198_1_alg».proof.Proof.Gen.KernelIdeal.Launch
import proofs.«122816_j57561151701198_1_alg».proof.Proof.Gen.KernelIdeal.Skeleton
import proofs.«122816_j57561151701198_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that cut the weight matrices and the mask. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found by the region as launched. -/
theorem V_unwritten (c : Dev nD) (b : Ref sig .tc)
    (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

/-- Every host operation writes a fresh result buffer, none of them an argument. -/
local macro "host_leaves" : tactic => `(tactic| (
  refine List.forall_iff_forall_mem.mp ?_
  simp only [hostOps0, List.Forall, StableHlo.nullary_writes, StableHlo.unary_writes, StableHlo.binary_writes,
    StableHlo.reshape_writes, Finset.mem_singleton]
  repeat' apply And.intro
  all_goals exact StableHlo.devRef_ne_of_ne (by decide)))

theorem V_main_arg0 (c : Dev nD) : V m c main_arg0 = m ((c : Thread nD τ).loc main_arg0) := V_unwritten m c main_arg0 (by host_leaves)
theorem V_main_arg1 (c : Dev nD) : V m c main_arg1 = m ((c : Thread nD τ).loc main_arg1) := V_unwritten m c main_arg1 (by host_leaves)
theorem V_main_arg2 (c : Dev nD) : V m c main_arg2 = m ((c : Thread nD τ).loc main_arg2) := V_unwritten m c main_arg2 (by host_leaves)
theorem V_main_arg3 (c : Dev nD) : V m c main_arg3 = m ((c : Thread nD τ).loc main_arg3) := V_unwritten m c main_arg3 (by host_leaves)
theorem V_main_arg4 (c : Dev nD) : V m c main_arg4 = m ((c : Thread nD τ).loc main_arg4) := V_unwritten m c main_arg4 (by host_leaves)
theorem V_main_arg5 (c : Dev nD) : V m c main_arg5 = m ((c : Thread nD τ).loc main_arg5) := V_unwritten m c main_arg5 (by host_leaves)
theorem V_main_arg6 (c : Dev nD) : V m c main_arg6 = m ((c : Thread nD τ).loc main_arg6) := V_unwritten m c main_arg6 (by host_leaves)
theorem V_main_arg7 (c : Dev nD) : V m c main_arg7 = m ((c : Thread nD τ).loc main_arg7) := V_unwritten m c main_arg7 (by host_leaves)
theorem V_main_arg8 (c : Dev nD) : V m c main_arg8 = m ((c : Thread nD τ).loc main_arg8) := V_unwritten m c main_arg8 (by host_leaves)
theorem V_main_arg9 (c : Dev nD) : V m c main_arg9 = m ((c : Thread nD τ).loc main_arg9) := V_unwritten m c main_arg9 (by host_leaves)
theorem V_main_arg10 (c : Dev nD) : V m c main_arg10 = m ((c : Thread nD τ).loc main_arg10) := V_unwritten m c main_arg10 (by host_leaves)
theorem V_main_arg11 (c : Dev nD) : V m c main_arg11 = m ((c : Thread nD τ).loc main_arg11) := V_unwritten m c main_arg11 (by host_leaves)
theorem V_main_arg12 (c : Dev nD) : V m c main_arg12 = m ((c : Thread nD τ).loc main_arg12) := V_unwritten m c main_arg12 (by host_leaves)
theorem V_main_arg13 (c : Dev nD) : V m c main_arg13 = m ((c : Thread nD τ).loc main_arg13) := V_unwritten m c main_arg13 (by host_leaves)
theorem V_main_arg14 (c : Dev nD) : V m c main_arg14 = m ((c : Thread nD τ).loc main_arg14) := V_unwritten m c main_arg14 (by host_leaves)
theorem V_main_arg15 (c : Dev nD) : V m c main_arg15 = m ((c : Thread nD τ).loc main_arg15) := V_unwritten m c main_arg15 (by host_leaves)
theorem V_main_arg16 (c : Dev nD) : V m c main_arg16 = m ((c : Thread nD τ).loc main_arg16) := V_unwritten m c main_arg16 (by host_leaves)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not fetched the
    block index has not moved), for any proof data whose array is `V`'s and whose body leaves the block in place. -/
local macro "before_in_proof" w:term : term => `(fun {c : Dev nD} (dat : Dat τ (Elt F) Unit ℕ (UR sig nD τ) ℕ cfg0 c)
    (hA : dat.A $w = V m c (Pipeline.arrRef spec0 $w)) (hafter : ∀ t, dat.after $w t = iblk m c $w t) (t : Fin cfg0.N) d =>
  ((dat.before_in_eq_fetched $w rfl (fun _ => rfl) (fun _ _ _ => rfl)
      (fun t => by rw [hafter]; unfold Dat.blockOf iblk; rw [hA]; try rfl) t d).trans
    (by unfold Dat.fetched Dat.blockOf iblk; rw [hA]; try rfl) : dat.before $w t d = iblk m c $w t))

theorem before_in0_of {c : Dev nD} (dat : Dat τ (Elt F) Unit ℕ (UR sig nD τ) ℕ cfg0 c) (hA : dat.A 0 = V m c (Pipeline.arrRef spec0 0)) (hafter : ∀ t, dat.after 0 t = iblk m c 0 t) (t : Fin cfg0.N) (d) :
    dat.before 0 t d = iblk m c 0 t := (before_in_proof (0 : Fin cfg0.W)) dat hA hafter t d
theorem before_in1_of {c : Dev nD} (dat : Dat τ (Elt F) Unit ℕ (UR sig nD τ) ℕ cfg0 c) (hA : dat.A 1 = V m c (Pipeline.arrRef spec0 1)) (hafter : ∀ t, dat.after 1 t = iblk m c 1 t) (t : Fin cfg0.N) (d) :
    dat.before 1 t d = iblk m c 1 t := (before_in_proof (1 : Fin cfg0.W)) dat hA hafter t d
theorem before_in2_of {c : Dev nD} (dat : Dat τ (Elt F) Unit ℕ (UR sig nD τ) ℕ cfg0 c) (hA : dat.A 2 = V m c (Pipeline.arrRef spec0 2)) (hafter : ∀ t, dat.after 2 t = iblk m c 2 t) (t : Fin cfg0.N) (d) :
    dat.before 2 t d = iblk m c 2 t := (before_in_proof (2 : Fin cfg0.W)) dat hA hafter t d
theorem before_in3_of {c : Dev nD} (dat : Dat τ (Elt F) Unit ℕ (UR sig nD τ) ℕ cfg0 c) (hA : dat.A 3 = V m c (Pipeline.arrRef spec0 3)) (hafter : ∀ t, dat.after 3 t = iblk m c 3 t) (t : Fin cfg0.N) (d) :
    dat.before 3 t d = iblk m c 3 t := (before_in_proof (3 : Fin cfg0.W)) dat hA hafter t d
theorem before_in4_of {c : Dev nD} (dat : Dat τ (Elt F) Unit ℕ (UR sig nD τ) ℕ cfg0 c) (hA : dat.A 4 = V m c (Pipeline.arrRef spec0 4)) (hafter : ∀ t, dat.after 4 t = iblk m c 4 t) (t : Fin cfg0.N) (d) :
    dat.before 4 t d = iblk m c 4 t := (before_in_proof (4 : Fin cfg0.W)) dat hA hafter t d
theorem before_in5_of {c : Dev nD} (dat : Dat τ (Elt F) Unit ℕ (UR sig nD τ) ℕ cfg0 c) (hA : dat.A 5 = V m c (Pipeline.arrRef spec0 5)) (hafter : ∀ t, dat.after 5 t = iblk m c 5 t) (t : Fin cfg0.N) (d) :
    dat.before 5 t d = iblk m c 5 t := (before_in_proof (5 : Fin cfg0.W)) dat hA hafter t d
theorem before_in6_of {c : Dev nD} (dat : Dat τ (Elt F) Unit ℕ (UR sig nD τ) ℕ cfg0 c) (hA : dat.A 6 = V m c (Pipeline.arrRef spec0 6)) (hafter : ∀ t, dat.after 6 t = iblk m c 6 t) (t : Fin cfg0.N) (d) :
    dat.before 6 t d = iblk m c 6 t := (before_in_proof (6 : Fin cfg0.W)) dat hA hafter t d
theorem before_in7_of {c : Dev nD} (dat : Dat τ (Elt F) Unit ℕ (UR sig nD τ) ℕ cfg0 c) (hA : dat.A 7 = V m c (Pipeline.arrRef spec0 7)) (hafter : ∀ t, dat.after 7 t = iblk m c 7 t) (t : Fin cfg0.N) (d) :
    dat.before 7 t d = iblk m c 7 t := (before_in_proof (7 : Fin cfg0.W)) dat hA hafter t d
theorem before_in8_of {c : Dev nD} (dat : Dat τ (Elt F) Unit ℕ (UR sig nD τ) ℕ cfg0 c) (hA : dat.A 8 = V m c (Pipeline.arrRef spec0 8)) (hafter : ∀ t, dat.after 8 t = iblk m c 8 t) (t : Fin cfg0.N) (d) :
    dat.before 8 t d = iblk m c 8 t := (before_in_proof (8 : Fin cfg0.W)) dat hA hafter t d
theorem before_in9_of {c : Dev nD} (dat : Dat τ (Elt F) Unit ℕ (UR sig nD τ) ℕ cfg0 c) (hA : dat.A 9 = V m c (Pipeline.arrRef spec0 9)) (hafter : ∀ t, dat.after 9 t = iblk m c 9 t) (t : Fin cfg0.N) (d) :
    dat.before 9 t d = iblk m c 9 t := (before_in_proof (9 : Fin cfg0.W)) dat hA hafter t d
theorem before_in10_of {c : Dev nD} (dat : Dat τ (Elt F) Unit ℕ (UR sig nD τ) ℕ cfg0 c) (hA : dat.A 10 = V m c (Pipeline.arrRef spec0 10)) (hafter : ∀ t, dat.after 10 t = iblk m c 10 t) (t : Fin cfg0.N) (d) :
    dat.before 10 t d = iblk m c 10 t := (before_in_proof (10 : Fin cfg0.W)) dat hA hafter t d
theorem before_in11_of {c : Dev nD} (dat : Dat τ (Elt F) Unit ℕ (UR sig nD τ) ℕ cfg0 c) (hA : dat.A 11 = V m c (Pipeline.arrRef spec0 11)) (hafter : ∀ t, dat.after 11 t = iblk m c 11 t) (t : Fin cfg0.N) (d) :
    dat.before 11 t d = iblk m c 11 t := (before_in_proof (11 : Fin cfg0.W)) dat hA hafter t d
theorem before_in12_of {c : Dev nD} (dat : Dat τ (Elt F) Unit ℕ (UR sig nD τ) ℕ cfg0 c) (hA : dat.A 12 = V m c (Pipeline.arrRef spec0 12)) (hafter : ∀ t, dat.after 12 t = iblk m c 12 t) (t : Fin cfg0.N) (d) :
    dat.before 12 t d = iblk m c 12 t := (before_in_proof (12 : Fin cfg0.W)) dat hA hafter t d
theorem before_in13_of {c : Dev nD} (dat : Dat τ (Elt F) Unit ℕ (UR sig nD τ) ℕ cfg0 c) (hA : dat.A 13 = V m c (Pipeline.arrRef spec0 13)) (hafter : ∀ t, dat.after 13 t = iblk m c 13 t) (t : Fin cfg0.N) (d) :
    dat.before 13 t d = iblk m c 13 t := (before_in_proof (13 : Fin cfg0.W)) dat hA hafter t d
theorem before_in14_of {c : Dev nD} (dat : Dat τ (Elt F) Unit ℕ (UR sig nD τ) ℕ cfg0 c) (hA : dat.A 14 = V m c (Pipeline.arrRef spec0 14)) (hafter : ∀ t, dat.after 14 t = iblk m c 14 t) (t : Fin cfg0.N) (d) :
    dat.before 14 t d = iblk m c 14 t := (before_in_proof (14 : Fin cfg0.W)) dat hA hafter t d
theorem before_in15_of {c : Dev nD} (dat : Dat τ (Elt F) Unit ℕ (UR sig nD τ) ℕ cfg0 c) (hA : dat.A 15 = V m c (Pipeline.arrRef spec0 15)) (hafter : ∀ t, dat.after 15 t = iblk m c 15 t) (t : Fin cfg0.N) (d) :
    dat.before 15 t d = iblk m c 15 t := (before_in_proof (15 : Fin cfg0.W)) dat hA hafter t d
theorem before_in16_of {c : Dev nD} (dat : Dat τ (Elt F) Unit ℕ (UR sig nD τ) ℕ cfg0 c) (hA : dat.A 16 = V m c (Pipeline.arrRef spec0 16)) (hafter : ∀ t, dat.after 16 t = iblk m c 16 t) (t : Fin cfg0.N) (d) :
    dat.before 16 t d = iblk m c 16 t := (before_in_proof (16 : Fin cfg0.W)) dat hA hafter t d
theorem before_in17_of {c : Dev nD} (dat : Dat τ (Elt F) Unit ℕ (UR sig nD τ) ℕ cfg0 c) (hA : dat.A 17 = V m c (Pipeline.arrRef spec0 17)) (hafter : ∀ t, dat.after 17 t = iblk m c 17 t) (t : Fin cfg0.N) (d) :
    dat.before 17 t d = iblk m c 17 t := (before_in_proof (17 : Fin cfg0.W)) dat hA hafter t d
theorem before_in18_of {c : Dev nD} (dat : Dat τ (Elt F) Unit ℕ (UR sig nD τ) ℕ cfg0 c) (hA : dat.A 18 = V m c (Pipeline.arrRef spec0 18)) (hafter : ∀ t, dat.after 18 t = iblk m c 18 t) (t : Fin cfg0.N) (d) :
    dat.before 18 t d = iblk m c 18 t := (before_in_proof (18 : Fin cfg0.W)) dat hA hafter t d
theorem before_in19_of {c : Dev nD} (dat : Dat τ (Elt F) Unit ℕ (UR sig nD τ) ℕ cfg0 c) (hA : dat.A 19 = V m c (Pipeline.arrRef spec0 19)) (hafter : ∀ t, dat.after 19 t = iblk m c 19 t) (t : Fin cfg0.N) (d) :
    dat.before 19 t d = iblk m c 19 t := (before_in_proof (19 : Fin cfg0.W)) dat hA hafter t d
theorem before_in20_of {c : Dev nD} (dat : Dat τ (Elt F) Unit ℕ (UR sig nD τ) ℕ cfg0 c) (hA : dat.A 20 = V m c (Pipeline.arrRef spec0 20)) (hafter : ∀ t, dat.after 20 t = iblk m c 20 t) (t : Fin cfg0.N) (d) :
    dat.before 20 t d = iblk m c 20 t := (before_in_proof (20 : Fin cfg0.W)) dat hA hafter t d
theorem before_in21_of {c : Dev nD} (dat : Dat τ (Elt F) Unit ℕ (UR sig nD τ) ℕ cfg0 c) (hA : dat.A 21 = V m c (Pipeline.arrRef spec0 21)) (hafter : ∀ t, dat.after 21 t = iblk m c 21 t) (t : Fin cfg0.N) (d) :
    dat.before 21 t d = iblk m c 21 t := (before_in_proof (21 : Fin cfg0.W)) dat hA hafter t d
theorem before_in22_of {c : Dev nD} (dat : Dat τ (Elt F) Unit ℕ (UR sig nD τ) ℕ cfg0 c) (hA : dat.A 22 = V m c (Pipeline.arrRef spec0 22)) (hafter : ∀ t, dat.after 22 t = iblk m c 22 t) (t : Fin cfg0.N) (d) :
    dat.before 22 t d = iblk m c 22 t := (before_in_proof (22 : Fin cfg0.W)) dat hA hafter t d
theorem before_in23_of {c : Dev nD} (dat : Dat τ (Elt F) Unit ℕ (UR sig nD τ) ℕ cfg0 c) (hA : dat.A 23 = V m c (Pipeline.arrRef spec0 23)) (hafter : ∀ t, dat.after 23 t = iblk m c 23 t) (t : Fin cfg0.N) (d) :
    dat.before 23 t d = iblk m c 23 t := (before_in_proof (23 : Fin cfg0.W)) dat hA hafter t d
theorem before_in24_of {c : Dev nD} (dat : Dat τ (Elt F) Unit ℕ (UR sig nD τ) ℕ cfg0 c) (hA : dat.A 24 = V m c (Pipeline.arrRef spec0 24)) (hafter : ∀ t, dat.after 24 t = iblk m c 24 t) (t : Fin cfg0.N) (d) :
    dat.before 24 t d = iblk m c 24 t := (before_in_proof (24 : Fin cfg0.W)) dat hA hafter t d

/-! ## The frame claim's post from a frame run -/

/-- For any proof data whose arrays are the region-entry contents, a run that ends with every window's array at the proof
    data's final contents and every other unscoped buffer as the region found it leaves every ARGUMENT as launched: a
    staged argument is an input window's array, which no write-back touches; the five weight matrices the host cut
    (and the mask) are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 8).trans (((dats 0 c).arrAt_in 8 rfl _).trans ((hA c 8).trans (V_main_arg4 m c))),
      ((h c).1 9).trans (((dats 0 c).arrAt_in 9 rfl _).trans ((hA c 9).trans (V_main_arg5 m c))),
      ((h c).1 10).trans (((dats 0 c).arrAt_in 10 rfl _).trans ((hA c 10).trans (V_main_arg6 m c))),
      ((h c).2 main_arg7 (Pipeline.mem_restRefs_of main_arg7 (by decide) (by decide))).trans (V_main_arg7 m c),
      ((h c).1 13).trans (((dats 0 c).arrAt_in 13 rfl _).trans ((hA c 13).trans (V_main_arg8 m c))),
      ((h c).1 14).trans (((dats 0 c).arrAt_in 14 rfl _).trans ((hA c 14).trans (V_main_arg9 m c))),
      ((h c).1 15).trans (((dats 0 c).arrAt_in 15 rfl _).trans ((hA c 15).trans (V_main_arg10 m c))),
      ((h c).2 main_arg11 (Pipeline.mem_restRefs_of main_arg11 (by decide) (by decide))).trans (V_main_arg11 m c),
      ((h c).1 18).trans (((dats 0 c).arrAt_in 18 rfl _).trans ((hA c 18).trans (V_main_arg12 m c))),
      ((h c).1 19).trans (((dats 0 c).arrAt_in 19 rfl _).trans ((hA c 19).trans (V_main_arg13 m c))),
      ((h c).1 20).trans (((dats 0 c).arrAt_in 20 rfl _).trans ((hA c 20).trans (V_main_arg14 m c))),
      ((h c).2 main_arg15 (Pipeline.mem_restRefs_of main_arg15 (by decide) (by decide))).trans (V_main_arg15 m c),
      ((h c).1 24).trans (((dats 0 c).arrAt_in 24 rfl _).trans ((hA c 24).trans (V_main_arg16 m c)))⟩) h

end Cert.KernelIdeal.Hand

end
-- ==== Proof.KI.OutBlock.lean ====
/-
  What the kernel body stores, as one term over the blocks it loads.

  The body loads its twenty-five input blocks whole, computes, and stores one value over the whole output block. The
  stored value is the composition of the body's named pure pieces: the two feature blocks (cast and broadcast over
  the pair axes), the first-layer products, the three hidden layers, the three second-layer products, the final
  product, the bias and the mask. `outBlk` is that composition, at any float instance.
-/
import proofs.«122816_j57561151701198_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The value stored into the output block, from the values loaded from the input blocks: `x0` the rows `i` of the
    features, `x1` all rows `j`, `x2` the distances, `x3` / `x4` the mask at `i` / at `j`, then the weights and biases
    of the spatial (`x5`–`x10`), temporal (`x11`–`x15`) and interaction (`x16`–`x20`) branches and of the fusion layer
    (`x21`–`x24`). -/
def outBlk (x0 : Vec F S1x32x128 .f32) (x1 : Vec F S1x96x128 .f32) (x2 : Vec F S1x32x96 .f32) (x3 : Vec F S1x32x1 .f32)
    (x4 : Vec F S1x1x96 .f32) (x5 x6 : Vec F S128x256 .f32) (x7 x8 : Vec F S256 .f32) (x9 : Vec F S256x256 .f32)
    (x10 : Vec F S256 .f32) (x11 x12 : Vec F S128x256 .f32) (x13 : Vec F S256 .f32) (x14 : Vec F S256x256 .f32)
    (x15 : Vec F S256 .f32) (x16 x17 : Vec F S128x256 .f32) (x18 : Vec F S256 .f32) (x19 : Vec F S256x256 .f32)
    (x20 : Vec F S256 .f32) (x21 x22 x23 : Vec F S256x256 .f32) (x24 : Vec F S256 .f32) : FVec F S1x32x96x256 .f32 :=
  k0_pay1 (k0_pay2 x3) (k0_pay3 x4)
    (k0_pay11 x8 (k0_pay8 x0 x1 x5 x6) (k0_pay9 x2) (k0_pay10 x7) x9 x10)
    (k0_pay14 (k0_pay12 (k0_pay6 x0) (k0_pay7 x1) x11 x12 x13 x14) (k0_pay13 x15))
    (k0_pay15 (k0_pay4 x0) (k0_pay5 x1) x16 x17 x18 x19 x20)
    (k0_pay16 x21) (k0_pay17 x22) (k0_pay18 x23) x24

end Cert.KernelIdeal.Hand

end
-- ==== Proof.KI.Body.lean ====
/-
  The kernel body as a triple: on whole staging buffers, the twenty-five inputs at read contents `x0 … x24` and the output
  at anything, the body runs to the end leaving the inputs as they were and the output block at the value it stores,
  `outBlk` of the loaded blocks. The body loads each input block whole (one load through the rectangle that is the whole
  block), and stores the output block whole, so the one store covers the buffer.
-/
import proofs.«122816_j57561151701198_1_alg».proof.Proof.KI.OutBlock
import proofs.«122816_j57561151701198_1_alg».proof.Proof.Gen.KernelIdeal.Launch
import proofs.«122816_j57561151701198_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each the whole of its block -/

abbrev rFi : Rect S1x32x128 := Rect.unit (s := S1x32x128) ![0, 0, 0] S1x32x128.size inb_S1x32x128_S1x32x128_0_0_0
abbrev rFj : Rect S1x96x128 := Rect.unit (s := S1x96x128) ![0, 0, 0] S1x96x128.size inb_S1x96x128_S1x96x128_0_0_0
abbrev rDist : Rect S1x32x96 := Rect.unit (s := S1x32x96) ![0, 0, 0] S1x32x96.size inb_S1x32x96_S1x32x96_0_0_0
abbrev rMi : Rect S1x32x1 := Rect.unit (s := S1x32x1) ![0, 0, 0] S1x32x1.size inb_S1x32x1_S1x32x1_0_0_0
abbrev rMj : Rect S1x1x96 := Rect.unit (s := S1x1x96) ![0, 0, 0] S1x1x96.size inb_S1x1x96_S1x1x96_0_0_0
abbrev rHalf : Rect S128x256 := Rect.unit (s := S128x256) ![0, 0] S128x256.size inb_S128x256_S128x256_0_0
abbrev rVec : Rect S256 := Rect.unit (s := S256) ![0] S256.size inb_S256_S256_0
abbrev rSq : Rect S256x256 := Rect.unit (s := S256x256) ![0, 0] S256x256.size inb_S256x256_S256x256_0_0
abbrev rOut : Rect S1x32x96x256 := Rect.unit (s := S1x32x96x256) ![0, 0, 0, 0] S1x32x96x256.size inb_S1x32x96x256_S1x32x96x256_0_0_0_0

/-! ## What the body leaves in the output block -/

/-- The output window's staging buffer after the body, from the input windows' blocks: its one store as a piece. -/
def out0_25 (x0 : Vec F S1x32x128 .f32) (x1 : Vec F S1x96x128 .f32) (x2 : Vec F S1x32x96 .f32) (x3 : Vec F S1x32x1 .f32)
    (x4 : Vec F S1x1x96 .f32) (x5 x6 : Vec F S128x256 .f32) (x7 x8 : Vec F S256 .f32) (x9 : Vec F S256x256 .f32)
    (x10 : Vec F S256 .f32) (x11 x12 : Vec F S128x256 .f32) (x13 : Vec F S256 .f32) (x14 : Vec F S256x256 .f32)
    (x15 : Vec F S256 .f32) (x16 x17 : Vec F S128x256 .f32) (x18 : Vec F S256 .f32) (x19 : Vec F S256x256 .f32)
    (x20 : Vec F S256 .f32) (x21 x22 x23 : Vec F S256x256 .f32) (x24 : Vec F S256 .f32) : Vec F S1x32x96x256 .f32 :=
  View.canon [⟨rOut, outBlk (View.ld x0 rFi) (View.ld x1 rFj) (View.ld x2 rDist) (View.ld x3 rMi) (View.ld x4 rMj)
    (View.ld x5 rHalf) (View.ld x6 rHalf) (View.ld x7 rVec) (View.ld x8 rVec) (View.ld x9 rSq) (View.ld x10 rVec)
    (View.ld x11 rHalf) (View.ld x12 rHalf) (View.ld x13 rVec) (View.ld x14 rSq) (View.ld x15 rVec)
    (View.ld x16 rHalf) (View.ld x17 rHalf) (View.ld x18 rVec) (View.ld x19 rSq) (View.ld x20 rVec)
    (View.ld x21 rSq) (View.ld x22 rSq) (View.ld x23 rSq) (View.ld x24 rVec)⟩]

/-- The one store is of the whole block, so it covers it. -/
theorem cover0_25 (p0 : Vec F S1x32x96x256 .f32) (y : S1x32x96x256.Idx) :
    ∃ pc ∈ ([⟨rOut, p0⟩] : List (View.Piece (Elt F) S1x32x96x256 .f32)), y ∈ pc.1.set :=
  View.cover_of_tiled [⟨rOut, p0⟩] S1x32x96x256.size (by rfl) y

/-! ## The body's triple -/

set_option maxHeartbeats 4000000 in
/-- The body on whole staging buffers: inputs kept, the output block at `out0_25` of the inputs. -/
theorem sound_kernel (c : Dev nD) (E : Set ℕ) (i : grid0.Coords)
    (arg2 : Memref sig .tc .vmem S1x32x128 .f32) (harg2 : arg2.IsWhole) (arg3 : Memref sig .tc .vmem S1x96x128 .f32) (harg3 : arg3.IsWhole)
    (arg4 : Memref sig .tc .vmem S1x32x96 .f32) (harg4 : arg4.IsWhole) (arg5 : Memref sig .tc .vmem S1x32x1 .f32) (harg5 : arg5.IsWhole)
    (arg6 : Memref sig .tc .vmem S1x1x96 .f32) (harg6 : arg6.IsWhole) (arg7 : Memref sig .tc .vmem S128x256 .f32) (harg7 : arg7.IsWhole)
    (arg8 : Memref sig .tc .vmem S128x256 .f32) (harg8 : arg8.IsWhole) (arg9 : Memref sig .tc .vmem S256 .f32) (harg9 : arg9.IsWhole)
    (arg10 : Memref sig .tc .vmem S256 .f32) (harg10 : arg10.IsWhole) (arg11 : Memref sig .tc .vmem S256x256 .f32) (harg11 : arg11.IsWhole)
    (arg12 : Memref sig .tc .vmem S256 .f32) (harg12 : arg12.IsWhole) (arg13 : Memref sig .tc .vmem S128x256 .f32) (harg13 : arg13.IsWhole)
    (arg14 : Memref sig .tc .vmem S128x256 .f32) (harg14 : arg14.IsWhole) (arg15 : Memref sig .tc .vmem S256 .f32) (harg15 : arg15.IsWhole)
    (arg16 : Memref sig .tc .vmem S256x256 .f32) (harg16 : arg16.IsWhole) (arg17 : Memref sig .tc .vmem S256 .f32) (harg17 : arg17.IsWhole)
    (arg18 : Memref sig .tc .vmem S128x256 .f32) (harg18 : arg18.IsWhole) (arg19 : Memref sig .tc .vmem S128x256 .f32) (harg19 : arg19.IsWhole)
    (arg20 : Memref sig .tc .vmem S256 .f32) (harg20 : arg20.IsWhole) (arg21 : Memref sig .tc .vmem S256x256 .f32) (harg21 : arg21.IsWhole)
    (arg22 : Memref sig .tc .vmem S256 .f32) (harg22 : arg22.IsWhole) (arg23 : Memref sig .tc .vmem S256x256 .f32) (harg23 : arg23.IsWhole)
    (arg24 : Memref sig .tc .vmem S256x256 .f32) (harg24 : arg24.IsWhole) (arg25 : Memref sig .tc .vmem S256x256 .f32) (harg25 : arg25.IsWhole)
    (arg26 : Memref sig .tc .vmem S256 .f32) (harg26 : arg26.IsWhole) (arg27 : Memref sig .tc .vmem S1x32x96x256 .f32) (harg27 : arg27.IsWhole)
    (x0 : Vec F S1x32x128 .f32) (x1 : Vec F S1x96x128 .f32) (x2 : Vec F S1x32x96 .f32) (x3 : Vec F S1x32x1 .f32)
    (x4 : Vec F S1x1x96 .f32) (x5 x6 : Vec F S128x256 .f32) (x7 x8 : Vec F S256 .f32) (x9 : Vec F S256x256 .f32)
    (x10 : Vec F S256 .f32) (x11 x12 : Vec F S128x256 .f32) (x13 : Vec F S256 .f32) (x14 : Vec F S256x256 .f32)
    (x15 : Vec F S256 .f32) (x16 x17 : Vec F S128x256 .f32) (x18 : Vec F S256 .f32) (x19 : Vec F S256x256 .f32)
    (x20 : Vec F S256 .f32) (x21 x22 x23 : Vec F S256x256 .f32) (x24 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10 ∗ owns (c : Thread nD τ) arg13 fullShare x11
        ∗ owns (c : Thread nD τ) arg14 fullShare x12 ∗ owns (c : Thread nD τ) arg15 fullShare x13 ∗ owns (c : Thread nD τ) arg16 fullShare x14
        ∗ owns (c : Thread nD τ) arg17 fullShare x15 ∗ owns (c : Thread nD τ) arg18 fullShare x16 ∗ owns (c : Thread nD τ) arg19 fullShare x17
        ∗ owns (c : Thread nD τ) arg20 fullShare x18 ∗ owns (c : Thread nD τ) arg21 fullShare x19 ∗ owns (c : Thread nD τ) arg22 fullShare x20
        ∗ owns (c : Thread nD τ) arg23 fullShare x21 ∗ owns (c : Thread nD τ) arg24 fullShare x22 ∗ owns (c : Thread nD τ) arg25 fullShare x23
        ∗ owns (c : Thread nD τ) arg26 fullShare x24 ∗ (∃ d, owns (c : Thread nD τ) arg27 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15 ∗ owns (c : Thread nD τ) arg18 fullShare x16 ∗ owns (c : Thread nD τ) arg19 fullShare x17
            ∗ owns (c : Thread nD τ) arg20 fullShare x18 ∗ owns (c : Thread nD τ) arg21 fullShare x19 ∗ owns (c : Thread nD τ) arg22 fullShare x20
            ∗ owns (c : Thread nD τ) arg23 fullShare x21 ∗ owns (c : Thread nD τ) arg24 fullShare x22 ∗ owns (c : Thread nD τ) arg25 fullShare x23
            ∗ owns (c : Thread nD τ) arg26 fullShare x24
            ∗ owns (c : Thread nD τ) arg27 fullShare (out0_25 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E
          (cc0__relation_kernel i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19
            arg20 harg20 arg21 harg21 arg22 harg22 arg23 harg23 arg24 harg24 arg25 harg25 arg26 harg26 arg27 harg27) K := by
  simp only [cc0__relation_kernel_eq_skeleton]; unfold cc0__relation_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19, H19⟩,
    ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  exact View.read_writes_eq_canon _ _ _ (cover0_25 _)

end Cert.KernelIdeal.Hand

end
-- ==== Proof.KI.Data.lean ====
/-
  The proof data of the kernel's one pipeline, and the body obligation.

  Each array as the region finds it; after the body at a point every input window's buffer still at its block and the
  output window's at the value the body stores, of the input blocks at that point; nothing carried between points but
  the scoped buffers the pipeline does not stage (there are none). The features array is read through two windows, so
  each holds one half of its share; every other input array is held whole. With the body's triple this gives the body
  obligation at every point.
-/
import proofs.«122816_j57561151701198_1_alg».proof.Proof.KI.Host
import proofs.«122816_j57561151701198_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`. Windows 0 and 1 are both on the features array and hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 26, h⟩ => absurd h (Nat.not_lt.2 (Nat.le_add_left _ _))
  Φ _ := Pipeline.scopedRest spec0 c
  q w := if w = 0 then fullShare.left else if w = 1 then fullShare.right else fullShare
  owed _ := 0

theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
/-- The output block after the body: the stored value of the input blocks at the point. -/
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by
  dsimp only [dats]

/-! Each input's current staging buffer holds its block at every point. -/
theorem before0_0 (c : Dev nD) (t : Fin cfg0.N) (d) : (dats m 0 c).before 0 t d = iblk m c 0 t := before_in0_of m (dats m 0 c) (A_eq m c 0) (after0_0 m c) t d
theorem before0_1 (c : Dev nD) (t : Fin cfg0.N) (d) : (dats m 0 c).before 1 t d = iblk m c 1 t := before_in1_of m (dats m 0 c) (A_eq m c 1) (after0_1 m c) t d
theorem before0_2 (c : Dev nD) (t : Fin cfg0.N) (d) : (dats m 0 c).before 2 t d = iblk m c 2 t := before_in2_of m (dats m 0 c) (A_eq m c 2) (after0_2 m c) t d
theorem before0_3 (c : Dev nD) (t : Fin cfg0.N) (d) : (dats m 0 c).before 3 t d = iblk m c 3 t := before_in3_of m (dats m 0 c) (A_eq m c 3) (after0_3 m c) t d
theorem before0_4 (c : Dev nD) (t : Fin cfg0.N) (d) : (dats m 0 c).before 4 t d = iblk m c 4 t := before_in4_of m (dats m 0 c) (A_eq m c 4) (after0_4 m c) t d
theorem before0_5 (c : Dev nD) (t : Fin cfg0.N) (d) : (dats m 0 c).before 5 t d = iblk m c 5 t := before_in5_of m (dats m 0 c) (A_eq m c 5) (after0_5 m c) t d
theorem before0_6 (c : Dev nD) (t : Fin cfg0.N) (d) : (dats m 0 c).before 6 t d = iblk m c 6 t := before_in6_of m (dats m 0 c) (A_eq m c 6) (after0_6 m c) t d
theorem before0_7 (c : Dev nD) (t : Fin cfg0.N) (d) : (dats m 0 c).before 7 t d = iblk m c 7 t := before_in7_of m (dats m 0 c) (A_eq m c 7) (after0_7 m c) t d
theorem before0_8 (c : Dev nD) (t : Fin cfg0.N) (d) : (dats m 0 c).before 8 t d = iblk m c 8 t := before_in8_of m (dats m 0 c) (A_eq m c 8) (after0_8 m c) t d
theorem before0_9 (c : Dev nD) (t : Fin cfg0.N) (d) : (dats m 0 c).before 9 t d = iblk m c 9 t := before_in9_of m (dats m 0 c) (A_eq m c 9) (after0_9 m c) t d
theorem before0_10 (c : Dev nD) (t : Fin cfg0.N) (d) : (dats m 0 c).before 10 t d = iblk m c 10 t := before_in10_of m (dats m 0 c) (A_eq m c 10) (after0_10 m c) t d
theorem before0_11 (c : Dev nD) (t : Fin cfg0.N) (d) : (dats m 0 c).before 11 t d = iblk m c 11 t := before_in11_of m (dats m 0 c) (A_eq m c 11) (after0_11 m c) t d
theorem before0_12 (c : Dev nD) (t : Fin cfg0.N) (d) : (dats m 0 c).before 12 t d = iblk m c 12 t := before_in12_of m (dats m 0 c) (A_eq m c 12) (after0_12 m c) t d
theorem before0_13 (c : Dev nD) (t : Fin cfg0.N) (d) : (dats m 0 c).before 13 t d = iblk m c 13 t := before_in13_of m (dats m 0 c) (A_eq m c 13) (after0_13 m c) t d
theorem before0_14 (c : Dev nD) (t : Fin cfg0.N) (d) : (dats m 0 c).before 14 t d = iblk m c 14 t := before_in14_of m (dats m 0 c) (A_eq m c 14) (after0_14 m c) t d
theorem before0_15 (c : Dev nD) (t : Fin cfg0.N) (d) : (dats m 0 c).before 15 t d = iblk m c 15 t := before_in15_of m (dats m 0 c) (A_eq m c 15) (after0_15 m c) t d
theorem before0_16 (c : Dev nD) (t : Fin cfg0.N) (d) : (dats m 0 c).before 16 t d = iblk m c 16 t := before_in16_of m (dats m 0 c) (A_eq m c 16) (after0_16 m c) t d
theorem before0_17 (c : Dev nD) (t : Fin cfg0.N) (d) : (dats m 0 c).before 17 t d = iblk m c 17 t := before_in17_of m (dats m 0 c) (A_eq m c 17) (after0_17 m c) t d
theorem before0_18 (c : Dev nD) (t : Fin cfg0.N) (d) : (dats m 0 c).before 18 t d = iblk m c 18 t := before_in18_of m (dats m 0 c) (A_eq m c 18) (after0_18 m c) t d
theorem before0_19 (c : Dev nD) (t : Fin cfg0.N) (d) : (dats m 0 c).before 19 t d = iblk m c 19 t := before_in19_of m (dats m 0 c) (A_eq m c 19) (after0_19 m c) t d
theorem before0_20 (c : Dev nD) (t : Fin cfg0.N) (d) : (dats m 0 c).before 20 t d = iblk m c 20 t := before_in20_of m (dats m 0 c) (A_eq m c 20) (after0_20 m c) t d
theorem before0_21 (c : Dev nD) (t : Fin cfg0.N) (d) : (dats m 0 c).before 21 t d = iblk m c 21 t := before_in21_of m (dats m 0 c) (A_eq m c 21) (after0_21 m c) t d
theorem before0_22 (c : Dev nD) (t : Fin cfg0.N) (d) : (dats m 0 c).before 22 t d = iblk m c 22 t := before_in22_of m (dats m 0 c) (A_eq m c 22) (after0_22 m c) t d
theorem before0_23 (c : Dev nD) (t : Fin cfg0.N) (d) : (dats m 0 c).before 23 t d = iblk m c 23 t := before_in23_of m (dats m 0 c) (A_eq m c 23) (after0_23 m c) t d
theorem before0_24 (c : Dev nD) (t : Fin cfg0.N) (d) : (dats m 0 c).before 24 t d = iblk m c 24 t := before_in24_of m (dats m 0 c) (A_eq m c 24) (after0_24 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
    after0_12, after0_13, after0_14, after0_15, after0_16, after0_17, after0_18, after0_19, after0_20, after0_21, after0_22,
    after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shares of the arrays -/

theorem share_0 (c : Dev nD) : (dats m 0 c).share 0 = fullShare.left := rfl
theorem share_1 (c : Dev nD) : (dats m 0 c).share 1 = fullShare.right := rfl
theorem share_rest (c : Dev nD) (w : Fin cfg0.W) (h0 : w ≠ 0) (h1 : w ≠ 1) : (dats m 0 c).share w = fullShare := by
  unfold Dat.share
  split
  · rfl
  · dsimp only [dats]; rw [if_neg h0, if_neg h1]

/-! ## The arguments at the end of a frame run -/

/-- A final state with every window's array at the proof data's final contents and every other unscoped buffer as the
    region found it has every ARGUMENT array as launched: a staged argument is an input window's array, which no
    write-back touches; the four weight matrices the host cuts and the mask are staged by no window. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 8).trans (((dats m 0 c).arrAt_in 8 rfl _).trans ((A_eq m c 8).trans (V_main_arg4 m c))),
    ((h c).1 9).trans (((dats m 0 c).arrAt_in 9 rfl _).trans ((A_eq m c 9).trans (V_main_arg5 m c))),
    ((h c).1 10).trans (((dats m 0 c).arrAt_in 10 rfl _).trans ((A_eq m c 10).trans (V_main_arg6 m c))),
    ((h c).2 main_arg7 (Pipeline.mem_restRefs_of main_arg7 (by decide) (by decide))).trans (V_main_arg7 m c),
    ((h c).1 13).trans (((dats m 0 c).arrAt_in 13 rfl _).trans ((A_eq m c 13).trans (V_main_arg8 m c))),
    ((h c).1 14).trans (((dats m 0 c).arrAt_in 14 rfl _).trans ((A_eq m c 14).trans (V_main_arg9 m c))),
    ((h c).1 15).trans (((dats m 0 c).arrAt_in 15 rfl _).trans ((A_eq m c 15).trans (V_main_arg10 m c))),
    ((h c).2 main_arg11 (Pipeline.mem_restRefs_of main_arg11 (by decide) (by decide))).trans (V_main_arg11 m c),
    ((h c).1 18).trans (((dats m 0 c).arrAt_in 18 rfl _).trans ((A_eq m c 18).trans (V_main_arg12 m c))),
    ((h c).1 19).trans (((dats m 0 c).arrAt_in 19 rfl _).trans ((A_eq m c 19).trans (V_main_arg13 m c))),
    ((h c).1 20).trans (((dats m 0 c).arrAt_in 20 rfl _).trans ((A_eq m c 20).trans (V_main_arg14 m c))),
    ((h c).2 main_arg15 (Pipeline.mem_restRefs_of main_arg15 (by decide) (by decide))).trans (V_main_arg15 m c),
    ((h c).1 24).trans (((dats m 0 c).arrAt_in 24 rfl _).trans ((A_eq m c 24).trans (V_main_arg16 m c)))⟩

end Cert.KernelIdeal.Hand

end
-- ==== Proof.Spec.lean ====
/-
  The relation encoder, one output row at a time, on the extended reals.

  For a pair (i, j) of positions of one batch element the encoder takes the two feature rows `fi`, `fj` (128 entries
  each), the pair's distance `d` and the two mask entries, and computes three two-layer perceptrons and a final linear
  layer:
    spatial     = relu([fi, fj, d] · Ws1 + bs1) · Ws2 + bs2
    temporal    = relu([fi, fj] · Wt1 + bt1) · Wt2 + bt2
    interaction = relu([fi ∗ fj, fi + fj] · Wi1 + bi1) · Wi2 + bi2
    out         = ([spatial, temporal, interaction] · Wf + bf) · (mi · mj)
  A product of a concatenated row with a matrix is the sum of the products of the pieces with the matching bands of
  rows of the matrix; `cell` is written in that split form (each first-layer and the final product as a sum of
  half- or third-width products, added left to right), and the three laws at the end say that a sum over the whole
  concatenated width is the sum of the sums over the bands. Only commutativity and associativity of addition are used,
  so the laws hold on the extended reals with no finiteness assumption.
-/
import Idealize.ShloMosaic.Lib.ValueIdx
import Idealize.ShloMosaic.PureOps.Ideal

open scoped BigOperators

noncomputable section

namespace RelEnc

open Idealize.ShloMosaic Idealize.ShloMosaic.ValueIdx

/-! ## Positions inside the concatenated widths -/

/-- Row `k` of the first band of a 257-row matrix. -/
abbrev r0 (k : Fin 128) : Fin 257 := ⟨k.val, by omega⟩
/-- Row `k` of the second band (rows 128 to 255). -/
abbrev r1 (k : Fin 128) : Fin 257 := ⟨128 + k.val, by omega⟩
/-- The last row, 256. -/
abbrev r2 : Fin 257 := ⟨256, by omega⟩
/-- Row `k` of the first half of a 256-row matrix. -/
abbrev h0 (k : Fin 128) : Fin 256 := ⟨k.val, by omega⟩
/-- Row `k` of the second half (rows 128 to 255). -/
abbrev h1 (k : Fin 128) : Fin 256 := ⟨128 + k.val, by omega⟩
/-- Row `g` of the first third of a 768-row matrix. -/
abbrev f0 (g : Fin 256) : Fin 768 := ⟨g.val, by omega⟩
/-- Row `g` of the second third (rows 256 to 511). -/
abbrev f1 (g : Fin 256) : Fin 768 := ⟨256 + g.val, by omega⟩
/-- Row `g` of the last third (rows 512 to 767). -/
abbrev f2 (g : Fin 256) : Fin 768 := ⟨512 + g.val, by omega⟩

/-! ## One output row -/

section Cell

variable (fi fj : Fin 128 → EReal) (d mi mj : EReal)
  (ws1i ws1j : Fin 128 → Fin 256 → EReal) (ws1d bs1 : Fin 256 → EReal) (ws2 : Fin 256 → Fin 256 → EReal) (bs2 : Fin 256 → EReal)
  (wt1i wt1j : Fin 128 → Fin 256 → EReal) (bt1 : Fin 256 → EReal) (wt2 : Fin 256 → Fin 256 → EReal) (bt2 : Fin 256 → EReal)
  (wi1m wi1a : Fin 128 → Fin 256 → EReal) (bi1 : Fin 256 → EReal) (wi2 : Fin 256 → Fin 256 → EReal) (bi2 : Fin 256 → EReal)
  (wfs wft wfi : Fin 256 → Fin 256 → EReal) (bf : Fin 256 → EReal)

/-- The spatial branch's hidden layer: the two feature rows against the two bands, the distance against the last row. -/
def hidS (h : Fin 256) : EReal :=
  max ((((∑ k : Fin 128, fi k * ws1i k h) + (∑ k : Fin 128, fj k * ws1j k h)) + d * ws1d h) + bs1 h) 0

/-- The spatial branch. -/
def spatial (g : Fin 256) : EReal := (∑ h : Fin 256, hidS fi fj d ws1i ws1j ws1d bs1 h * ws2 h g) + bs2 g

/-- The temporal branch's hidden layer. -/
def hidT (h : Fin 256) : EReal :=
  max (((∑ k : Fin 128, fi k * wt1i k h) + (∑ k : Fin 128, fj k * wt1j k h)) + bt1 h) 0

/-- The temporal branch. -/
def temporal (g : Fin 256) : EReal := (∑ h : Fin 256, hidT fi fj wt1i wt1j bt1 h * wt2 h g) + bt2 g

/-- The interaction branch's hidden layer: the entrywise product against one band, the entrywise sum against the other. -/
def hidI (h : Fin 256) : EReal :=
  max (((∑ k : Fin 128, (fi k * fj k) * wi1m k h) + (∑ k : Fin 128, (fi k + fj k) * wi1a k h)) + bi1 h) 0

/-- The interaction branch. -/
def interaction (g : Fin 256) : EReal := (∑ h : Fin 256, hidI fi fj wi1m wi1a bi1 h * wi2 h g) + bi2 g

/-- One entry of the output row: the three branches against the three bands of the fusion matrix, the bias, the mask. -/
def cell (o : Fin 256) : EReal :=
  ((((∑ g : Fin 256, spatial fi fj d ws1i ws1j ws1d bs1 ws2 bs2 g * wfs g o)
      + (∑ g : Fin 256, temporal fi fj wt1i wt1j bt1 wt2 bt2 g * wft g o))
      + (∑ g : Fin 256, interaction fi fj wi1m wi1a bi1 wi2 bi2 g * wfi g o)) + bf o) * (mi * mj)

end Cell

/-! ## The whole result, from the argument arrays -/

section Whole

variable (feat : (⟨3, ![8, 96, 128]⟩ : Shape).Idx → EReal) (dist : (⟨3, ![8, 96, 96]⟩ : Shape).Idx → EReal)
  (mask : (⟨2, ![8, 96]⟩ : Shape).Idx → EReal)
  (Ws1 : (⟨2, ![257, 256]⟩ : Shape).Idx → EReal) (bs1 : (⟨1, ![256]⟩ : Shape).Idx → EReal)
  (Ws2 : (⟨2, ![256, 256]⟩ : Shape).Idx → EReal) (bs2 : (⟨1, ![256]⟩ : Shape).Idx → EReal)
  (Wt1 : (⟨2, ![256, 256]⟩ : Shape).Idx → EReal) (bt1 : (⟨1, ![256]⟩ : Shape).Idx → EReal)
  (Wt2 : (⟨2, ![256, 256]⟩ : Shape).Idx → EReal) (bt2 : (⟨1, ![256]⟩ : Shape).Idx → EReal)
  (Wi1 : (⟨2, ![256, 256]⟩ : Shape).Idx → EReal) (bi1 : (⟨1, ![256]⟩ : Shape).Idx → EReal)
  (Wi2 : (⟨2, ![256, 256]⟩ : Shape).Idx → EReal) (bi2 : (⟨1, ![256]⟩ : Shape).Idx → EReal)
  (Wf : (⟨2, ![768, 256]⟩ : Shape).Idx → EReal) (bf : (⟨1, ![256]⟩ : Shape).Idx → EReal)

/-- Entry `(b, i, j, o)` of the result: the row of the pair `(i, j)` of batch element `b`, at `o`. -/
def Gat (b : Fin 8) (i j : Fin 96) (o : Fin 256) : EReal :=
  cell (fun k => feat (ix3 b i k)) (fun k => feat (ix3 b j k)) (dist (ix3 b i j)) (mask (ix2 b i)) (mask (ix2 b j))
    (fun k h => Ws1 (ix2 (r0 k) h)) (fun k h => Ws1 (ix2 (r1 k) h)) (fun h => Ws1 (ix2 r2 h)) (fun h => bs1 (ix1 h))
    (fun h g => Ws2 (ix2 h g)) (fun g => bs2 (ix1 g))
    (fun k h => Wt1 (ix2 (h0 k) h)) (fun k h => Wt1 (ix2 (h1 k) h)) (fun h => bt1 (ix1 h))
    (fun h g => Wt2 (ix2 h g)) (fun g => bt2 (ix1 g))
    (fun k h => Wi1 (ix2 (h0 k) h)) (fun k h => Wi1 (ix2 (h1 k) h)) (fun h => bi1 (ix1 h))
    (fun h g => Wi2 (ix2 h g)) (fun g => bi2 (ix1 g))
    (fun g o => Wf (ix2 (f0 g) o)) (fun g o => Wf (ix2 (f1 g) o)) (fun g o => Wf (ix2 (f2 g) o)) (fun o => bf (ix1 o)) o

/-- The result array as one function of the argument arrays. -/
def G : (⟨4, ![8, 96, 96, 256]⟩ : Shape).Idx → EReal :=
  fun y => Gat feat dist mask Ws1 bs1 Ws2 bs2 Wt1 bt1 Wt2 bt2 Wi1 bi1 Wi2 bi2 Wf bf (y 0) (y 1) (y 2) (y 3)

theorem G_ix4 (b : Fin 8) (i j : Fin 96) (o : Fin 256) :
    G feat dist mask Ws1 bs1 Ws2 bs2 Wt1 bt1 Wt2 bt2 Wi1 bi1 Wi2 bi2 Wf bf (ix4 b i j o)
      = Gat feat dist mask Ws1 bs1 Ws2 bs2 Wt1 bt1 Wt2 bt2 Wi1 bi1 Wi2 bi2 Wf bf b i j o := rfl

end Whole

/-! ## A sum over a concatenated width is the sum of the sums over its bands -/

section Bands

variable {M : Type*} [AddCommMonoid M]

/-- 256 = 128 + 128. -/
theorem sum_256 (f : Fin 256 → M) : ∑ k : Fin 256, f k = (∑ k : Fin 128, f (h0 k)) + (∑ k : Fin 128, f (h1 k)) := by
  have := Fin.sum_univ_add (a := 128) (b := 128) f
  simpa [h0, h1, Fin.castAdd, Fin.natAdd, Fin.castLE] using this

/-- 257 = 128 + 128 + 1. -/
theorem sum_257 (f : Fin 257 → M) :
    ∑ k : Fin 257, f k = ((∑ k : Fin 128, f (r0 k)) + (∑ k : Fin 128, f (r1 k))) + f r2 := by
  rw [Fin.sum_univ_castSucc (n := 256) f]
  congr 1
  have := Fin.sum_univ_add (a := 128) (b := 128) (fun k : Fin 256 => f k.castSucc)
  simpa [r0, r1, Fin.castAdd, Fin.natAdd, Fin.castLE] using this

/-- 768 = 256 + 256 + 256. -/
theorem sum_768 (f : Fin 768 → M) :
    ∑ k : Fin 768, f k = ((∑ g : Fin 256, f (f0 g)) + (∑ g : Fin 256, f (f1 g))) + (∑ g : Fin 256, f (f2 g)) := by
  have h1 := Fin.sum_univ_add (a := 512) (b := 256) f
  have h2 := Fin.sum_univ_add (a := 256) (b := 256) (fun k : Fin 512 => f (Fin.castAdd 256 k))
  rw [h1, h2]
  simp [f0, f1, f2, Fin.castAdd, Fin.natAdd, Fin.castLE]

end Bands

end RelEnc

end
-- ==== Proof.KI.BlocksHost.lean ====
/-
  The arrays the host writes before the region, read at an index.

  Before the kernel is called the host cuts bands of rows out of four weight matrices (a band of rows `r … r + n - 1` read
  at `(k, h)` is the matrix at `(r + k, h)`), takes the last row of the first-layer spatial matrix as a vector (the
  one-row band recast: entry `h` is the matrix at `(256, h)`), and lays the mask out as a column and as a row per batch
  element (entry `(b, i, 0)`, respectively `(b, 0, j)`, is the mask at `(b, i)`, respectively `(b, j)`).
-/
import proofs.«122816_j57561151701198_1_alg».proof.Proof.KI.Host
import proofs.«122816_j57561151701198_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ)

/-! ## Bands of rows -/

/-- Rows 0 to 127 of the first-layer spatial matrix. -/
theorem V_main_v0_apply (c : Dev nD) (k : Fin 128) (h : Fin 256) :
    (V m c main_v0 : S128x256.Idx → EReal) (ix2 k h) = ((m ((c : Thread nD τ).loc main_arg3)) : S257x256.Idx → EReal) (ix2 (RelEnc.r0 k) h) := by
  have e : (V m c main_v0 : S128x256.Idx → EReal)
      = extractStridedSlice S128x256 ![0, 0] ((m ((c : Thread nD τ).loc main_arg3)) : S257x256.Idx → EReal) slices_S257x256_S128x256_0_0 := by
    dsimp only [V, hostOps0]; after_results <;> rfl
  rw [e]
  refine extractStridedSlice_apply _ _ _ _ _ fun a => ?_
  match a with
  | ⟨0, _⟩ => show k.val = 0 + k.val; omega
  | ⟨1, _⟩ => show h.val = 0 + h.val; omega

/-- Rows 128 to 255 of the first-layer spatial matrix. -/
theorem V_main_v1_apply (c : Dev nD) (k : Fin 128) (h : Fin 256) :
    (V m c main_v1 : S128x256.Idx → EReal) (ix2 k h) = ((m ((c : Thread nD τ).loc main_arg3)) : S257x256.Idx → EReal) (ix2 (RelEnc.r1 k) h) := by
  have e : (V m c main_v1 : S128x256.Idx → EReal)
      = extractStridedSlice S128x256 ![128, 0] ((m ((c : Thread nD τ).loc main_arg3)) : S257x256.Idx → EReal) slices_S257x256_S128x256_128_0 := by
    dsimp only [V, hostOps0]; after_results <;> rfl
  rw [e]
  refine extractStridedSlice_apply _ _ _ _ _ fun a => ?_
  match a with
  | ⟨0, _⟩ => show 128 + k.val = 128 + k.val; omega
  | ⟨1, _⟩ => show h.val = 0 + h.val; omega

/-- The first half of the first-layer temporal matrix. -/
theorem V_main_v4_apply (c : Dev nD) (k : Fin 128) (h : Fin 256) :
    (V m c main_v4 : S128x256.Idx → EReal) (ix2 k h) = ((m ((c : Thread nD τ).loc main_arg7)) : S256x256.Idx → EReal) (ix2 (RelEnc.h0 k) h) := by
  have e : (V m c main_v4 : S128x256.Idx → EReal)
      = extractStridedSlice S128x256 ![0, 0] ((m ((c : Thread nD τ).loc main_arg7)) : S256x256.Idx → EReal) slices_S256x256_S128x256_0_0 := by
    dsimp only [V, hostOps0]; after_results <;> rfl
  rw [e]
  refine extractStridedSlice_apply _ _ _ _ _ fun a => ?_
  match a with
  | ⟨0, _⟩ => show k.val = 0 + k.val; omega
  | ⟨1, _⟩ => show h.val = 0 + h.val; omega

/-- The second half of the first-layer temporal matrix. -/
theorem V_main_v5_apply (c : Dev nD) (k : Fin 128) (h : Fin 256) :
    (V m c main_v5 : S128x256.Idx → EReal) (ix2 k h) = ((m ((c : Thread nD τ).loc main_arg7)) : S256x256.Idx → EReal) (ix2 (RelEnc.h1 k) h) := by
  have e : (V m c main_v5 : S128x256.Idx → EReal)
      = extractStridedSlice S128x256 ![128, 0] ((m ((c : Thread nD τ).loc main_arg7)) : S256x256.Idx → EReal) slices_S256x256_S128x256_128_0 := by
    dsimp only [V, hostOps0]; after_results <;> rfl
  rw [e]
  refine extractStridedSlice_apply _ _ _ _ _ fun a => ?_
  match a with
  | ⟨0, _⟩ => show 128 + k.val = 128 + k.val; omega
  | ⟨1, _⟩ => show h.val = 0 + h.val; omega

/-- The first half of the first-layer interaction matrix. -/
theorem V_main_v6_apply (c : Dev nD) (k : Fin 128) (h : Fin 256) :
    (V m c main_v6 : S128x256.Idx → EReal) (ix2 k h) = ((m ((c : Thread nD τ).loc main_arg11)) : S256x256.Idx → EReal) (ix2 (RelEnc.h0 k) h) := by
  have e : (V m c main_v6 : S128x256.Idx → EReal)
      = extractStridedSlice S128x256 ![0, 0] ((m ((c : Thread nD τ).loc main_arg11)) : S256x256.Idx → EReal) slices_S256x256_S128x256_0_0 := by
    dsimp only [V, hostOps0]; after_results <;> rfl
  rw [e]
  refine extractStridedSlice_apply _ _ _ _ _ fun a => ?_
  match a with
  | ⟨0, _⟩ => show k.val = 0 + k.val; omega
  | ⟨1, _⟩ => show h.val = 0 + h.val; omega

/-- The second half of the first-layer interaction matrix. -/
theorem V_main_v7_apply (c : Dev nD) (k : Fin 128) (h : Fin 256) :
    (V m c main_v7 : S128x256.Idx → EReal) (ix2 k h) = ((m ((c : Thread nD τ).loc main_arg11)) : S256x256.Idx → EReal) (ix2 (RelEnc.h1 k) h) := by
  have e : (V m c main_v7 : S128x256.Idx → EReal)
      = extractStridedSlice S128x256 ![128, 0] ((m ((c : Thread nD τ).loc main_arg11)) : S256x256.Idx → EReal) slices_S256x256_S128x256_128_0 := by
    dsimp only [V, hostOps0]; after_results <;> rfl
  rw [e]
  refine extractStridedSlice_apply _ _ _ _ _ fun a => ?_
  match a with
  | ⟨0, _⟩ => show 128 + k.val = 128 + k.val; omega
  | ⟨1, _⟩ => show h.val = 0 + h.val; omega

/-- The first third of the fusion matrix. -/
theorem V_main_v8_apply (c : Dev nD) (k : Fin 256) (h : Fin 256) :
    (V m c main_v8 : S256x256.Idx → EReal) (ix2 k h) = ((m ((c : Thread nD τ).loc main_arg15)) : S768x256.Idx → EReal) (ix2 (RelEnc.f0 k) h) := by
  have e : (V m c main_v8 : S256x256.Idx → EReal)
      = extractStridedSlice S256x256 ![0, 0] ((m ((c : Thread nD τ).loc main_arg15)) : S768x256.Idx → EReal) slices_S768x256_S256x256_0_0 := by
    dsimp only [V, hostOps0]; after_results <;> rfl
  rw [e]
  refine extractStridedSlice_apply _ _ _ _ _ fun a => ?_
  match a with
  | ⟨0, _⟩ => show k.val = 0 + k.val; omega
  | ⟨1, _⟩ => show h.val = 0 + h.val; omega

/-- The second third of the fusion matrix. -/
theorem V_main_v9_apply (c : Dev nD) (k : Fin 256) (h : Fin 256) :
    (V m c main_v9 : S256x256.Idx → EReal) (ix2 k h) = ((m ((c : Thread nD τ).loc main_arg15)) : S768x256.Idx → EReal) (ix2 (RelEnc.f1 k) h) := by
  have e : (V m c main_v9 : S256x256.Idx → EReal)
      = extractStridedSlice S256x256 ![256, 0] ((m ((c : Thread nD τ).loc main_arg15)) : S768x256.Idx → EReal) slices_S768x256_S256x256_256_0 := by
    dsimp only [V, hostOps0]; after_results <;> rfl
  rw [e]
  refine extractStridedSlice_apply _ _ _ _ _ fun a => ?_
  match a with
  | ⟨0, _⟩ => show 256 + k.val = 256 + k.val; omega
  | ⟨1, _⟩ => show h.val = 0 + h.val; omega

/-- The last third of the fusion matrix. -/
theorem V_main_v10_apply (c : Dev nD) (k : Fin 256) (h : Fin 256) :
    (V m c main_v10 : S256x256.Idx → EReal) (ix2 k h) = ((m ((c : Thread nD τ).loc main_arg15)) : S768x256.Idx → EReal) (ix2 (RelEnc.f2 k) h) := by
  have e : (V m c main_v10 : S256x256.Idx → EReal)
      = extractStridedSlice S256x256 ![512, 0] ((m ((c : Thread nD τ).loc main_arg15)) : S768x256.Idx → EReal) slices_S768x256_S256x256_512_0 := by
    dsimp only [V, hostOps0]; after_results <;> rfl
  rw [e]
  refine extractStridedSlice_apply _ _ _ _ _ fun a => ?_
  match a with
  | ⟨0, _⟩ => show 512 + k.val = 512 + k.val; omega
  | ⟨1, _⟩ => show h.val = 0 + h.val; omega

/-! ## The last row as a vector -/

/-- Row 256 of the first-layer spatial matrix, as a vector. -/
theorem V_main_v3_apply (c : Dev nD) (h : Fin 256) :
    (V m c main_v3 : S256.Idx → EReal) (ix1 h) = ((m ((c : Thread nD τ).loc main_arg3)) : S257x256.Idx → EReal) (ix2 RelEnc.r2 h) := by
  have e : (V m c main_v3 : S256.Idx → EReal)
      = shapeCast S256 (extractStridedSlice S1x256 ![256, 0] ((m ((c : Thread nD τ).loc main_arg3)) : S257x256.Idx → EReal)
          slices_S257x256_S1x256_256_0) shapeCasts_S1x256_S256 := by
    dsimp only [V, hostOps0]; after_results <;> rfl
  rw [e]
  refine (shapeCast_1a_a_apply _ _ h).trans ?_
  refine extractStridedSlice_apply _ _ _ _ _ fun a => ?_
  match a with
  | ⟨0, _⟩ => show 256 = 256 + 0; omega
  | ⟨1, _⟩ => show h.val = 0 + h.val; omega

/-! ## The mask as a column and as a row -/

/-- The mask with a trailing unit axis. -/
theorem V_main_v11_apply (c : Dev nD) (b : Fin 8) (i : Fin 96) :
    (V m c main_v11 : S8x96x1.Idx → EReal) (ix3 b i (0 : Fin 1)) = ((m ((c : Thread nD τ).loc main_arg2)) : S8x96.Idx → EReal) (ix2 b i) := by
  have e : (V m c main_v11 : S8x96x1.Idx → EReal)
      = broadcastInDim S8x96x1 ![0, 1] bcast_S8x96_S8x96x1_0_1 ((m ((c : Thread nD τ).loc main_arg2)) : S8x96.Idx → EReal) := by
    dsimp only [V, hostOps0]; after_results <;> rfl
  rw [e]
  refine broadcastInDim_apply _ _ _ _ _ fun a => ?_
  match a with
  | ⟨0, _⟩ => rfl
  | ⟨1, _⟩ => rfl

/-- The mask with a unit axis in the middle. -/
theorem V_main_v12_apply (c : Dev nD) (b : Fin 8) (j : Fin 96) :
    (V m c main_v12 : S8x1x96.Idx → EReal) (ix3 b (0 : Fin 1) j) = ((m ((c : Thread nD τ).loc main_arg2)) : S8x96.Idx → EReal) (ix2 b j) := by
  have e : (V m c main_v12 : S8x1x96.Idx → EReal)
      = broadcastInDim S8x1x96 ![0, 2] bcast_S8x96_S8x1x96_0_2 ((m ((c : Thread nD τ).loc main_arg2)) : S8x96.Idx → EReal) := by
    dsimp only [V, hostOps0]; after_results <;> rfl
  rw [e]
  refine broadcastInDim_apply _ _ _ _ _ fun a => ?_
  match a with
  | ⟨0, _⟩ => rfl
  | ⟨1, _⟩ => rfl

end Cert.KernelIdeal.Hand

end
-- ==== Proof.KI.BlocksIn.lean ====
/-
  The input windows' blocks at a grid point, read at an index of their arrays.

  Grid point `t = 3·b + it` has coordinates `(b, it)`. A window's block sits at block index × block size on every axis, so
  an entry of a block is the array's entry at that offset plus the entry's own coordinate: the features' tile rows are
  rows `32·it + p` of batch element `b`, their full rows are rows `q` of it, and likewise for the distances and the two
  layouts of the mask; every weight block is its whole array (block index 0 on every axis).
-/
import proofs.«122816_j57561151701198_1_alg».proof.Proof.KI.Host
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The index maps over the grid -/

/-- The five windows that move with the grid point: batch element `t / 3` on the first axis, and the tile `t % 3` on the
    second axis for the windows cut along the rows `i`. -/
theorem idx_moving : ∀ t : Fin cfg0.N,
    (win0_0.index t (0 : Fin 3) = t.val / 3 ∧ win0_0.index t (1 : Fin 3) = t.val % 3 ∧ win0_0.index t (2 : Fin 3) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0)
    ∧ (win0_3.index t (0 : Fin 3) = t.val / 3 ∧ win0_3.index t (1 : Fin 3) = t.val % 3 ∧ win0_3.index t (2 : Fin 3) = 0)
    ∧ (win0_4.index t (0 : Fin 3) = t.val / 3 ∧ win0_4.index t (1 : Fin 3) = 0 ∧ win0_4.index t (2 : Fin 3) = 0) :=
  (by decide +kernel : ∀ t : Fin grid0.N, _)

/-! ## The blocks that move -/

/-- The features' tile: row `p` of the block is row `32·it + p` of batch element `b`. -/
theorem blk0_apply (c : Dev nD) (t : Fin cfg0.N) (b : Fin 8) (it : Fin 3) (ht : t.val = 3 * b.val + it.val)
    (p : Fin 32) (k : Fin 128) :
    (iblk m c 0 t : Vec Ideal S1x32x128 .f32) (ix3 (0 : Fin 1) p k)
      = ((m ((c : Thread nD τ).loc main_arg0)) : S8x96x128.Idx → EReal) (ix3 b ⟨32 * it.val + p.val, by omega⟩ k) := by
  obtain ⟨⟨e0, e1, e2⟩, -⟩ := idx_moving t
  unfold iblk
  rw [View.read_apply]
  show V m c main_arg0 _ = _
  rw [V_main_arg0]
  congr 1
  funext a
  apply Fin.ext
  match a with
  | ⟨0, _⟩ => show win0_0.index t (0 : Fin 3) * 1 + 1 * 0 = b.val; rw [e0]; omega
  | ⟨1, _⟩ => show win0_0.index t (1 : Fin 3) * 32 + 1 * p.val = 32 * it.val + p.val; rw [e1]; omega
  | ⟨2, _⟩ => show win0_0.index t (2 : Fin 3) * 128 + 1 * k.val = k.val; rw [e2]; omega

/-- The features' full rows: row `q` of the block is row `q` of batch element `b`. -/
theorem blk1_apply (c : Dev nD) (t : Fin cfg0.N) (b : Fin 8) (it : Fin 3) (ht : t.val = 3 * b.val + it.val)
    (q : Fin 96) (k : Fin 128) :
    (iblk m c 1 t : Vec Ideal S1x96x128 .f32) (ix3 (0 : Fin 1) q k)
      = ((m ((c : Thread nD τ).loc main_arg0)) : S8x96x128.Idx → EReal) (ix3 b q k) := by
  obtain ⟨-, ⟨e0, e1, e2⟩, -⟩ := idx_moving t
  unfold iblk
  rw [View.read_apply]
  show V m c main_arg0 _ = _
  rw [V_main_arg0]
  congr 1
  funext a
  apply Fin.ext
  match a with
  | ⟨0, _⟩ => show win0_1.index t (0 : Fin 3) * 1 + 1 * 0 = b.val; rw [e0]; omega
  | ⟨1, _⟩ => show win0_1.index t (1 : Fin 3) * 96 + 1 * q.val = q.val; rw [e1]; omega
  | ⟨2, _⟩ => show win0_1.index t (2 : Fin 3) * 128 + 1 * k.val = k.val; rw [e2]; omega

/-- The distances' tile: entry `(p, q)` of the block is the distance of rows `32·it + p` and `q` of batch element `b`. -/
theorem blk2_apply (c : Dev nD) (t : Fin cfg0.N) (b : Fin 8) (it : Fin 3) (ht : t.val = 3 * b.val + it.val)
    (p : Fin 32) (q : Fin 96) :
    (iblk m c 2 t : Vec Ideal S1x32x96 .f32) (ix3 (0 : Fin 1) p q)
      = ((m ((c : Thread nD τ).loc main_arg1)) : S8x96x96.Idx → EReal) (ix3 b ⟨32 * it.val + p.val, by omega⟩ q) := by
  obtain ⟨-, -, ⟨e0, e1, e2⟩, -⟩ := idx_moving t
  unfold iblk
  rw [View.read_apply]
  show V m c main_arg1 _ = _
  rw [V_main_arg1]
  congr 1
  funext a
  apply Fin.ext
  match a with
  | ⟨0, _⟩ => show win0_2.index t (0 : Fin 3) * 1 + 1 * 0 = b.val; rw [e0]; omega
  | ⟨1, _⟩ => show win0_2.index t (1 : Fin 3) * 32 + 1 * p.val = 32 * it.val + p.val; rw [e1]; omega
  | ⟨2, _⟩ => show win0_2.index t (2 : Fin 3) * 96 + 1 * q.val = q.val; rw [e2]; omega

/-- The mask column's tile: entry `p` of the block is the column's entry at row `32·it + p` of batch element `b`. -/
theorem blk3_apply (c : Dev nD) (t : Fin cfg0.N) (b : Fin 8) (it : Fin 3) (ht : t.val = 3 * b.val + it.val)
    (p : Fin 32) :
    (iblk m c 3 t : Vec Ideal S1x32x1 .f32) (ix3 (0 : Fin 1) p (0 : Fin 1))
      = (V m c main_v11 : S8x96x1.Idx → EReal) (ix3 b ⟨32 * it.val + p.val, by omega⟩ (0 : Fin 1)) := by
  obtain ⟨-, -, -, ⟨e0, e1, e2⟩, -⟩ := idx_moving t
  unfold iblk
  rw [View.read_apply]
  show V m c main_v11 _ = V m c main_v11 _
  congr 1
  funext a
  apply Fin.ext
  match a with
  | ⟨0, _⟩ => show win0_3.index t (0 : Fin 3) * 1 + 1 * 0 = b.val; rw [e0]; omega
  | ⟨1, _⟩ => show win0_3.index t (1 : Fin 3) * 32 + 1 * p.val = 32 * it.val + p.val; rw [e1]; omega
  | ⟨2, _⟩ => show win0_3.index t (2 : Fin 3) * 1 + 1 * 0 = 0; rw [e2]

/-- The mask row: entry `q` of the block is the row's entry `q` of batch element `b`. -/
theorem blk4_apply (c : Dev nD) (t : Fin cfg0.N) (b : Fin 8) (it : Fin 3) (ht : t.val = 3 * b.val + it.val)
    (q : Fin 96) :
    (iblk m c 4 t : Vec Ideal S1x1x96 .f32) (ix3 (0 : Fin 1) (0 : Fin 1) q)
      = (V m c main_v12 : S8x1x96.Idx → EReal) (ix3 b (0 : Fin 1) q) := by
  obtain ⟨-, -, -, -, e0, e1, e2⟩ := idx_moving t
  unfold iblk
  rw [View.read_apply]
  show V m c main_v12 _ = V m c main_v12 _
  congr 1
  funext a
  apply Fin.ext
  match a with
  | ⟨0, _⟩ => show win0_4.index t (0 : Fin 3) * 1 + 1 * 0 = b.val; rw [e0]; omega
  | ⟨1, _⟩ => show win0_4.index t (1 : Fin 3) * 1 + 1 * 0 = 0; rw [e1]
  | ⟨2, _⟩ => show win0_4.index t (2 : Fin 3) * 96 + 1 * q.val = q.val; rw [e2]; omega

/-! ## The whole-array blocks -/

theorem blk5_apply (c : Dev nD) (t : Fin cfg0.N) (k : Fin 128) (h : Fin 256) :
    (iblk m c 5 t : Vec Ideal S128x256 .f32) (ix2 k h) = (V m c main_v0 : S128x256.Idx → EReal) (ix2 k h) := by
  unfold iblk
  rw [View.read_apply]
  show V m c main_v0 _ = V m c main_v0 _
  congr 1
  funext a
  apply Fin.ext
  match a with
  | ⟨0, _⟩ => show 0 * 128 + 1 * k.val = k.val; omega
  | ⟨1, _⟩ => show 0 * 256 + 1 * h.val = h.val; omega

theorem blk6_apply (c : Dev nD) (t : Fin cfg0.N) (k : Fin 128) (h : Fin 256) :
    (iblk m c 6 t : Vec Ideal S128x256 .f32) (ix2 k h) = (V m c main_v1 : S128x256.Idx → EReal) (ix2 k h) := by
  unfold iblk
  rw [View.read_apply]
  show V m c main_v1 _ = V m c main_v1 _
  congr 1
  funext a
  apply Fin.ext
  match a with
  | ⟨0, _⟩ => show 0 * 128 + 1 * k.val = k.val; omega
  | ⟨1, _⟩ => show 0 * 256 + 1 * h.val = h.val; omega

theorem blk7_apply (c : Dev nD) (t : Fin cfg0.N) (h : Fin 256) :
    (iblk m c 7 t : Vec Ideal S256 .f32) (ix1 h) = (V m c main_v3 : S256.Idx → EReal) (ix1 h) := by
  unfold iblk
  rw [View.read_apply]
  show V m c main_v3 _ = V m c main_v3 _
  congr 1
  funext a
  apply Fin.ext
  match a with
  | ⟨0, _⟩ => show 0 * 256 + 1 * h.val = h.val; omega

theorem blk8_apply (c : Dev nD) (t : Fin cfg0.N) (h : Fin 256) :
    (iblk m c 8 t : Vec Ideal S256 .f32) (ix1 h) = ((m ((c : Thread nD τ).loc main_arg4)) : S256.Idx → EReal) (ix1 h) := by
  unfold iblk
  rw [View.read_apply]
  show V m c main_arg4 _ = _
  rw [V_main_arg4]
  congr 1
  funext a
  apply Fin.ext
  match a with
  | ⟨0, _⟩ => show 0 * 256 + 1 * h.val = h.val; omega

theorem blk9_apply (c : Dev nD) (t : Fin cfg0.N) (k : Fin 256) (h : Fin 256) :
    (iblk m c 9 t : Vec Ideal S256x256 .f32) (ix2 k h) = ((m ((c : Thread nD τ).loc main_arg5)) : S256x256.Idx → EReal) (ix2 k h) := by
  unfold iblk
  rw [View.read_apply]
  show V m c main_arg5 _ = _
  rw [V_main_arg5]
  congr 1
  funext a
  apply Fin.ext
  match a with
  | ⟨0, _⟩ => show 0 * 256 + 1 * k.val = k.val; omega
  | ⟨1, _⟩ => show 0 * 256 + 1 * h.val = h.val; omega

theorem blk10_apply (c : Dev nD) (t : Fin cfg0.N) (h : Fin 256) :
    (iblk m c 10 t : Vec Ideal S256 .f32) (ix1 h) = ((m ((c : Thread nD τ).loc main_arg6)) : S256.Idx → EReal) (ix1 h) := by
  unfold iblk
  rw [View.read_apply]
  show V m c main_arg6 _ = _
  rw [V_main_arg6]
  congr 1
  funext a
  apply Fin.ext
  match a with
  | ⟨0, _⟩ => show 0 * 256 + 1 * h.val = h.val; omega

theorem blk11_apply (c : Dev nD) (t : Fin cfg0.N) (k : Fin 128) (h : Fin 256) :
    (iblk m c 11 t : Vec Ideal S128x256 .f32) (ix2 k h) = (V m c main_v4 : S128x256.Idx → EReal) (ix2 k h) := by
  unfold iblk
  rw [View.read_apply]
  show V m c main_v4 _ = V m c main_v4 _
  congr 1
  funext a
  apply Fin.ext
  match a with
  | ⟨0, _⟩ => show 0 * 128 + 1 * k.val = k.val; omega
  | ⟨1, _⟩ => show 0 * 256 + 1 * h.val = h.val; omega

theorem blk12_apply (c : Dev nD) (t : Fin cfg0.N) (k : Fin 128) (h : Fin 256) :
    (iblk m c 12 t : Vec Ideal S128x256 .f32) (ix2 k h) = (V m c main_v5 : S128x256.Idx → EReal) (ix2 k h) := by
  unfold iblk
  rw [View.read_apply]
  show V m c main_v5 _ = V m c main_v5 _
  congr 1
  funext a
  apply Fin.ext
  match a with
  | ⟨0, _⟩ => show 0 * 128 + 1 * k.val = k.val; omega
  | ⟨1, _⟩ => show 0 * 256 + 1 * h.val = h.val; omega

theorem blk13_apply (c : Dev nD) (t : Fin cfg0.N) (h : Fin 256) :
    (iblk m c 13 t : Vec Ideal S256 .f32) (ix1 h) = ((m ((c : Thread nD τ).loc main_arg8)) : S256.Idx → EReal) (ix1 h) := by
  unfold iblk
  rw [View.read_apply]
  show V m c main_arg8 _ = _
  rw [V_main_arg8]
  congr 1
  funext a
  apply Fin.ext
  match a with
  | ⟨0, _⟩ => show 0 * 256 + 1 * h.val = h.val; omega

theorem blk14_apply (c : Dev nD) (t : Fin cfg0.N) (k : Fin 256) (h : Fin 256) :
    (iblk m c 14 t : Vec Ideal S256x256 .f32) (ix2 k h) = ((m ((c : Thread nD τ).loc main_arg9)) : S256x256.Idx → EReal) (ix2 k h) := by
  unfold iblk
  rw [View.read_apply]
  show V m c main_arg9 _ = _
  rw [V_main_arg9]
  congr 1
  funext a
  apply Fin.ext
  match a with
  | ⟨0, _⟩ => show 0 * 256 + 1 * k.val = k.val; omega
  | ⟨1, _⟩ => show 0 * 256 + 1 * h.val = h.val; omega

theorem blk15_apply (c : Dev nD) (t : Fin cfg0.N) (h : Fin 256) :
    (iblk m c 15 t : Vec Ideal S256 .f32) (ix1 h) = ((m ((c : Thread nD τ).loc main_arg10)) : S256.Idx → EReal) (ix1 h) := by
  unfold iblk
  rw [View.read_apply]
  show V m c main_arg10 _ = _
  rw [V_main_arg10]
  congr 1
  funext a
  apply Fin.ext
  match a with
  | ⟨0, _⟩ => show 0 * 256 + 1 * h.val = h.val; omega

theorem blk16_apply (c : Dev nD) (t : Fin cfg0.N) (k : Fin 128) (h : Fin 256) :
    (iblk m c 16 t : Vec Ideal S128x256 .f32) (ix2 k h) = (V m c main_v6 : S128x256.Idx → EReal) (ix2 k h) := by
  unfold iblk
  rw [View.read_apply]
  show V m c main_v6 _ = V m c main_v6 _
  congr 1
  funext a
  apply Fin.ext
  match a with
  | ⟨0, _⟩ => show 0 * 128 + 1 * k.val = k.val; omega
  | ⟨1, _⟩ => show 0 * 256 + 1 * h.val = h.val; omega

theorem blk17_apply (c : Dev nD) (t : Fin cfg0.N) (k : Fin 128) (h : Fin 256) :
    (iblk m c 17 t : Vec Ideal S128x256 .f32) (ix2 k h) = (V m c main_v7 : S128x256.Idx → EReal) (ix2 k h) := by
  unfold iblk
  rw [View.read_apply]
  show V m c main_v7 _ = V m c main_v7 _
  congr 1
  funext a
  apply Fin.ext
  match a with
  | ⟨0, _⟩ => show 0 * 128 + 1 * k.val = k.val; omega
  | ⟨1, _⟩ => show 0 * 256 + 1 * h.val = h.val; omega

theorem blk18_apply (c : Dev nD) (t : Fin cfg0.N) (h : Fin 256) :
    (iblk m c 18 t : Vec Ideal S256 .f32) (ix1 h) = ((m ((c : Thread nD τ).loc main_arg12)) : S256.Idx → EReal) (ix1 h) := by
  unfold iblk
  rw [View.read_apply]
  show V m c main_arg12 _ = _
  rw [V_main_arg12]
  congr 1
  funext a
  apply Fin.ext
  match a with
  | ⟨0, _⟩ => show 0 * 256 + 1 * h.val = h.val; omega

theorem blk19_apply (c : Dev nD) (t : Fin cfg0.N) (k : Fin 256) (h : Fin 256) :
    (iblk m c 19 t : Vec Ideal S256x256 .f32) (ix2 k h) = ((m ((c : Thread nD τ).loc main_arg13)) : S256x256.Idx → EReal) (ix2 k h) := by
  unfold iblk
  rw [View.read_apply]
  show V m c main_arg13 _ = _
  rw [V_main_arg13]
  congr 1
  funext a
  apply Fin.ext
  match a with
  | ⟨0, _⟩ => show 0 * 256 + 1 * k.val = k.val; omega
  | ⟨1, _⟩ => show 0 * 256 + 1 * h.val = h.val; omega

theorem blk20_apply (c : Dev nD) (t : Fin cfg0.N) (h : Fin 256) :
    (iblk m c 20 t : Vec Ideal S256 .f32) (ix1 h) = ((m ((c : Thread nD τ).loc main_arg14)) : S256.Idx → EReal) (ix1 h) := by
  unfold iblk
  rw [View.read_apply]
  show V m c main_arg14 _ = _
  rw [V_main_arg14]
  congr 1
  funext a
  apply Fin.ext
  match a with
  | ⟨0, _⟩ => show 0 * 256 + 1 * h.val = h.val; omega

theorem blk21_apply (c : Dev nD) (t : Fin cfg0.N) (k : Fin 256) (h : Fin 256) :
    (iblk m c 21 t : Vec Ideal S256x256 .f32) (ix2 k h) = (V m c main_v8 : S256x256.Idx → EReal) (ix2 k h) := by
  unfold iblk
  rw [View.read_apply]
  show V m c main_v8 _ = V m c main_v8 _
  congr 1
  funext a
  apply Fin.ext
  match a with
  | ⟨0, _⟩ => show 0 * 256 + 1 * k.val = k.val; omega
  | ⟨1, _⟩ => show 0 * 256 + 1 * h.val = h.val; omega

theorem blk22_apply (c : Dev nD) (t : Fin cfg0.N) (k : Fin 256) (h : Fin 256) :
    (iblk m c 22 t : Vec Ideal S256x256 .f32) (ix2 k h) = (V m c main_v9 : S256x256.Idx → EReal) (ix2 k h) := by
  unfold iblk
  rw [View.read_apply]
  show V m c main_v9 _ = V m c main_v9 _
  congr 1
  funext a
  apply Fin.ext
  match a with
  | ⟨0, _⟩ => show 0 * 256 + 1 * k.val = k.val; omega
  | ⟨1, _⟩ => show 0 * 256 + 1 * h.val = h.val; omega

theorem blk23_apply (c : Dev nD) (t : Fin cfg0.N) (k : Fin 256) (h : Fin 256) :
    (iblk m c 23 t : Vec Ideal S256x256 .f32) (ix2 k h) = (V m c main_v10 : S256x256.Idx → EReal) (ix2 k h) := by
  unfold iblk
  rw [View.read_apply]
  show V m c main_v10 _ = V m c main_v10 _
  congr 1
  funext a
  apply Fin.ext
  match a with
  | ⟨0, _⟩ => show 0 * 256 + 1 * k.val = k.val; omega
  | ⟨1, _⟩ => show 0 * 256 + 1 * h.val = h.val; omega

theorem blk24_apply (c : Dev nD) (t : Fin cfg0.N) (h : Fin 256) :
    (iblk m c 24 t : Vec Ideal S256 .f32) (ix1 h) = ((m ((c : Thread nD τ).loc main_arg16)) : S256.Idx → EReal) (ix1 h) := by
  unfold iblk
  rw [View.read_apply]
  show V m c main_arg16 _ = _
  rw [V_main_arg16]
  congr 1
  funext a
  apply Fin.ext
  match a with
  | ⟨0, _⟩ => show 0 * 256 + 1 * h.val = h.val; omega

end Cert.KernelIdeal.Hand

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KI.PayloadLayout.lean ====
/-
  Layout operations read at one index, at the sizes of the relation encoder's body.

  The body works on pairs (p, q) of a block of 32 rows and all 96 rows. It flattens the two pair axes to one axis of
  3072 rows, the pair (p, q) at row p * 96 + q, and back; it inserts unit axes and broadcasts along them. Each lemma
  here says which entry of its operand one such operation reads at an index written by its coordinates. A change of
  float format is the identity on the extended reals.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx
/-- The flat row of the pair (p, q). -/
abbrev row (p : Fin 32) (q : Fin 96) : Fin 3072 := ⟨p.val * 96 + q.val, by omega⟩

section Layout
variable {α : Type}

theorem flat_apply {n : ℕ} (x : (⟨3, ![32, 96, n]⟩ : Shape).Idx → α)
    (h : (⟨3, ![32, 96, n]⟩ : Shape).ShapeCasts ⟨2, ![3072, n]⟩) (p : Fin 32) (q : Fin 96) (k : Fin n) :
    shapeCast ⟨2, ![3072, n]⟩ x h (ix2 (row p q) k) = x (ix3 p q k) :=
  shapeCast_apply x h _ _ (by
    rw [Shape.rowMajor_val_three, Shape.rowMajor_val_two]
    rfl)

theorem unflat_apply {n : ℕ} (x : (⟨2, ![3072, n]⟩ : Shape).Idx → α)
    (h : (⟨2, ![3072, n]⟩ : Shape).ShapeCasts ⟨3, ![32, 96, n]⟩) (p : Fin 32) (q : Fin 96) (k : Fin n) :
    shapeCast ⟨3, ![32, 96, n]⟩ x h (ix3 p q k) = x (ix2 (row p q) k) :=
  shapeCast_apply x h _ _ (by
    rw [Shape.rowMajor_val_three, Shape.rowMajor_val_two]
    rfl)

/-- [a, c] viewed [a, 1, c]. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- [a, b] viewed [a, b, 1]. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [c] viewed [1, 1, c]. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

theorem val_eq_ite {n : ℕ} (i : Fin n) : i.val = if n = 1 then 0 else i.val := by
  split
  · have := i.isLt; omega
  · rfl

/-- [a, 1, c] broadcast to [a, b, c]. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => exact val_eq_ite i
  | ⟨1, _⟩ => rfl
  | ⟨2, _⟩ => exact val_eq_ite k

/-- [1, b, c] broadcast to [a, b, c]. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ => exact val_eq_ite j
  | ⟨2, _⟩ => exact val_eq_ite k

/-- [1, 1, c] broadcast to [a, b, c]. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ => exact val_eq_ite k

/-- [a, b, 1] broadcast to [a, b, c]. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ => exact val_eq_ite i
  | ⟨1, _⟩ => exact val_eq_ite j
  | ⟨2, _⟩ => rfl

/-- [a, 1] broadcast to [a, b]. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ => exact val_eq_ite i
  | ⟨1, _⟩ => rfl

end Layout

/-- The change of format from f32 to bf16 is the identity on the extended reals. -/
theorem trunc_apply {s : Shape} (a : FVec Ideal s .f32) (h : FTy.bf16.bits < FTy.f32.bits) (i : s.Idx) :
    (truncf .bf16 a h : FVec Ideal s .bf16) i = a i := rfl

/-- A weight block after its change of format. -/
theorem wcast_apply {m n : ℕ} (w : Vec Ideal ⟨2, ![m, n]⟩ .f32) (hc : (⟨2, ![m, n]⟩ : Shape).ShapeCasts ⟨2, ![m, n]⟩)
    (hb : FTy.bf16.bits < FTy.f32.bits) (j : (⟨2, ![m, n]⟩ : Shape).Idx) :
    (truncf .bf16 (shapeCast ⟨2, ![m, n]⟩ w hc) hb : FVec Ideal ⟨2, ![m, n]⟩ .bf16) j = w j := by
  rw [shapeCast_self]; rfl

end Cert.KernelIdeal.Hand

end
-- ==== Proof.KI.PayloadFirst.lean ====
/-
  The first part of the relation encoder's body, read at one index.

  The feature rows of the block (32 rows p) and of the whole sequence (96 rows q), cast and broadcast over the pair
  axes, read at the pair (p, q) the row p and the row q; flattened, they read the same rows at the flat row
  p * 96 + q. The mask columns, the distances and the distance row of the first spatial layer read their entries. The
  spatial branch's first-layer products are the two sums over the 128 features.
-/
import proofs.«122816_j57561151701198_1_alg».proof.Proof.KI.OutBlock
import proofs.«122816_j57561151701198_1_alg».proof.Proof.LibPlainDot
import proofs.«122816_j57561151701198_1_alg».proof.Proof.KI.PayloadLayout

open scoped BigOperators

noncomputable section

namespace Cert.KernelIdeal.Hand

open Idealize.ShloMosaic Idealize.ShloMosaic.ValueIdx Idealize.SL.Sem Cert.KernelIdeal Cert.KernelIdeal.Gen

/-! ## The feature blocks, the distances and the mask, cast and broadcast -/

theorem pay2_apply (x3 : Vec Ideal S1x32x1 .f32) (p : Fin 32) :
    k0_pay2 (F := Ideal) x3 (ix2 p (0 : Fin 1)) = x3 (ix3 0 p 0) := by
  unfold k0_pay2
  exact shapeCast_1ab_ab_apply x3 _ p 0

theorem pay3_apply (x4 : Vec Ideal S1x1x96 .f32) (q : Fin 96) :
    k0_pay3 (F := Ideal) x4 (ix2 (0 : Fin 1) q) = x4 (ix3 0 0 q) := by
  unfold k0_pay3
  exact shapeCast_1ab_ab_apply x4 _ 0 q

theorem pay4_apply (x0 : Vec Ideal S1x32x128 .f32) (p : Fin 32) (q : Fin 96) (k : Fin 128) :
    k0_pay4 (F := Ideal) x0 (ix3 p q k) = x0 (ix3 0 p k) := by
  unfold k0_pay4
  refine (broadcastTo_a1c_abc_apply _ _ p q k).trans ?_
  rw [shapeCast_self]
  refine (shapeCast_ac_a1c_apply _ _ p 0 k).trans ?_
  refine (trunc_apply _ _ _).trans ?_
  exact shapeCast_1ab_ab_apply x0 _ p k

theorem pay5_apply (x1 : Vec Ideal S1x96x128 .f32) (p : Fin 32) (q : Fin 96) (k : Fin 128) :
    k0_pay5 (F := Ideal) x1 (ix3 p q k) = x1 (ix3 0 q k) := by
  unfold k0_pay5
  refine (broadcastTo_1bc_abc_apply _ _ p q k).trans ?_
  rw [shapeCast_self]
  refine (shapeCast_ab_1ab_apply _ _ 0 q k).trans ?_
  refine (trunc_apply _ _ _).trans ?_
  exact shapeCast_1ab_ab_apply x1 _ q k

theorem pay6_apply (x0 : Vec Ideal S1x32x128 .f32) (p : Fin 32) (q : Fin 96) (k : Fin 128) :
    k0_pay6 (F := Ideal) x0 (ix2 (row p q) k) = x0 (ix3 0 p k) := by
  unfold k0_pay6
  exact (flat_apply _ _ p q k).trans (pay4_apply x0 p q k)

theorem pay7_apply (x1 : Vec Ideal S1x96x128 .f32) (p : Fin 32) (q : Fin 96) (k : Fin 128) :
    k0_pay7 (F := Ideal) x1 (ix2 (row p q) k) = x1 (ix3 0 q k) := by
  unfold k0_pay7
  exact (flat_apply _ _ p q k).trans (pay5_apply x1 p q k)

theorem pay9_apply (x2 : Vec Ideal S1x32x96 .f32) (p : Fin 32) (q : Fin 96) :
    k0_pay9 (F := Ideal) x2 (ix3 p q (0 : Fin 1)) = x2 (ix3 0 p q) := by
  unfold k0_pay9
  refine (shapeCast_ab_ab1_apply _ _ p q 0).trans ?_
  exact shapeCast_1ab_ab_apply x2 _ p q

theorem pay10_apply (x7 : Vec Ideal S256 .f32) (h : Fin 256) :
    k0_pay10 (F := Ideal) x7 (ix3 (0 : Fin 1) (0 : Fin 1) h) = x7 (ix1 h) := by
  unfold k0_pay10
  refine (shapeCast_c_11c_apply _ _ 0 0 h).trans ?_
  rw [shapeCast_self]

/-! ## The spatial branch's first-layer products -/

theorem pay8_apply (x0 : Vec Ideal S1x32x128 .f32) (x1 : Vec Ideal S1x96x128 .f32) (x5 x6 : Vec Ideal S128x256 .f32)
    (p : Fin 32) (q : Fin 96) (h : Fin 256) :
    k0_pay8 (F := Ideal) x0 x1 x5 x6 (ix3 p q h)
      = (∑ k : Fin 128, x0 (ix3 0 p k) * x5 (ix2 k h)) + (∑ k : Fin 128, x1 (ix3 0 q k) * x6 (ix2 k h)) := by
  unfold k0_pay8
  refine (unflat_apply _ _ p q h).trans ?_
  refine (addf_apply _ _ _).trans ?_
  refine congrArg₂ (· + ·) ?_ ?_
  · refine (PlainDot.matmul_zero_apply dot_S3072x128_S128x256_S3072x256_1_0_0_1_n_n rfl rfl rfl rfl rfl rfl rfl rfl
      none _ _ (row p q) h).trans ?_
    refine Finset.sum_congr rfl fun k _ => ?_
    exact congrArg₂ (· * ·) (pay6_apply x0 p q k) (wcast_apply x5 _ _ _)
  · refine (PlainDot.matmul_zero_apply dot_S3072x128_S128x256_S3072x256_1_0_0_1_n_n rfl rfl rfl rfl rfl rfl rfl rfl
      none _ _ (row p q) h).trans ?_
    refine Finset.sum_congr rfl fun k _ => ?_
    exact congrArg₂ (· * ·) (pay7_apply x1 p q k) (wcast_apply x6 _ _ _)

end Cert.KernelIdeal.Hand

end
-- ==== Proof.KI.PayloadBranches.lean ====
/-
  The three branches of the relation encoder's body, read at one index, over the values they are given.

  Each branch adds its first-layer bias, takes the maximum with zero, multiplies by its second-layer matrix and adds
  its second-layer bias (the temporal branch's product and its bias row are read separately and then added). At the
  flat row p * 96 + q and the column g this is the sum over the 256 hidden positions of the hidden entry times the
  weight, plus the bias. The fusion layer's three weight blocks only change format.
-/
import proofs.«122816_j57561151701198_1_alg».proof.Proof.KI.OutBlock
import proofs.«122816_j57561151701198_1_alg».proof.Proof.LibPlainDot
import proofs.«122816_j57561151701198_1_alg».proof.Proof.KI.PayloadLayout

open scoped BigOperators

noncomputable section

namespace Cert.KernelIdeal.Hand

open Idealize.ShloMosaic Idealize.ShloMosaic.ValueIdx Idealize.SL.Sem Cert.KernelIdeal Cert.KernelIdeal.Gen

/-! ## The three branches -/

theorem pay11_apply (x8 : Vec Ideal S256 .f32) (v32 : FVec Ideal S32x96x256 .f32) (v33 : FVec Ideal S32x96x1 .f32)
    (v34 : FVec Ideal S1x1x256 .f32) (x9 : Vec Ideal S256x256 .f32) (x10 : Vec Ideal S256 .f32)
    (p : Fin 32) (q : Fin 96) (g : Fin 256) :
    k0_pay11 (F := Ideal) x8 v32 v33 v34 x9 x10 (ix2 (row p q) g)
      = (∑ h : Fin 256,
            max (((v32 (ix3 p q h)) + v33 (ix3 p q (0 : Fin 1)) * v34 (ix3 (0 : Fin 1) (0 : Fin 1) h)) + x8 (ix1 h)) 0
              * x9 (ix2 h g))
          + x10 (ix1 g) := by
  unfold k0_pay11
  refine (trunc_apply _ _ _).trans ?_
  refine (addf_apply _ _ _).trans ?_
  refine congrArg₂ (· + ·) ?_ ?_
  · refine (PlainDot.matmul_zero_apply dot_S3072x256_S256x256_S3072x256_1_0_0_1_n_n rfl rfl rfl rfl rfl rfl rfl rfl
      none _ _ (row p q) g).trans ?_
    refine Finset.sum_congr rfl fun h _ => ?_
    refine congrArg₂ (· * ·) ?_ rfl
    refine (flat_apply _ _ p q h).trans ?_
    refine (trunc_apply _ _ _).trans ?_
    refine (maximumf_apply _ _ _).trans ?_
    refine congrArg₂ max ?_ Ideal.ofBits_zero_f32
    refine (addf_apply _ _ _).trans ?_
    refine congrArg₂ (· + ·) ?_ ?_
    · refine (addf_apply _ _ _).trans ?_
      refine congrArg₂ (· + ·) rfl ?_
      refine (mulf_apply _ _ _).trans ?_
      exact congrArg₂ (· * ·) (broadcastTo_ab1_abc_apply _ _ p q h) (broadcastTo_11c_abc_apply _ _ p q h)
    · refine (broadcastTo_11c_abc_apply _ _ p q h).trans ?_
      exact shapeCast_c_11c_apply _ _ 0 0 h
  · refine (broadcastTo_1b_ab_apply _ _ (row p q) g).trans ?_
    exact shapeCast_a_1a_apply _ _ 0 g

theorem pay12_apply (v18 v19 : FVec Ideal S3072x128 .bf16) (x11 x12 : Vec Ideal S128x256 .f32) (x13 : Vec Ideal S256 .f32)
    (x14 : Vec Ideal S256x256 .f32) (p : Fin 32) (q : Fin 96) (g : Fin 256) :
    k0_pay12 (F := Ideal) v18 v19 x11 x12 x13 x14 (ix2 (row p q) g)
      = ∑ h : Fin 256,
          max ((((∑ k : Fin 128, v18 (ix2 (row p q) k) * x11 (ix2 k h))
                  + (∑ k : Fin 128, v19 (ix2 (row p q) k) * x12 (ix2 k h))) + x13 (ix1 h))) 0
            * x14 (ix2 h g) := by
  unfold k0_pay12
  refine (PlainDot.matmul_zero_apply dot_S3072x256_S256x256_S3072x256_1_0_0_1_n_n rfl rfl rfl rfl rfl rfl rfl rfl
    none _ _ (row p q) g).trans ?_
  refine Finset.sum_congr rfl fun h _ => ?_
  refine congrArg₂ (· * ·) ?_ rfl
  refine (flat_apply _ _ p q h).trans ?_
  refine (trunc_apply _ _ _).trans ?_
  refine (maximumf_apply _ _ _).trans ?_
  refine congrArg₂ max ?_ Ideal.ofBits_zero_f32
  refine (addf_apply _ _ _).trans ?_
  refine congrArg₂ (· + ·) ?_ ?_
  · refine (unflat_apply _ _ p q h).trans ?_
    refine (addf_apply _ _ _).trans ?_
    refine congrArg₂ (· + ·) ?_ ?_
    · refine (PlainDot.matmul_zero_apply dot_S3072x128_S128x256_S3072x256_1_0_0_1_n_n rfl rfl rfl rfl rfl rfl rfl rfl
        none _ _ (row p q) h).trans ?_
      refine Finset.sum_congr rfl fun k _ => ?_
      exact congrArg₂ (· * ·) rfl (wcast_apply x11 _ _ _)
    · refine (PlainDot.matmul_zero_apply dot_S3072x128_S128x256_S3072x256_1_0_0_1_n_n rfl rfl rfl rfl rfl rfl rfl rfl
        none _ _ (row p q) h).trans ?_
      refine Finset.sum_congr rfl fun k _ => ?_
      exact congrArg₂ (· * ·) rfl (wcast_apply x12 _ _ _)
  · refine (broadcastTo_11c_abc_apply _ _ p q h).trans ?_
    exact shapeCast_c_11c_apply _ _ 0 0 h

theorem pay13_apply (x15 : Vec Ideal S256 .f32) (r : Fin 3072) (g : Fin 256) :
    k0_pay13 (F := Ideal) x15 (ix2 r g) = x15 (ix1 g) := by
  unfold k0_pay13
  refine (broadcastTo_1b_ab_apply _ _ r g).trans ?_
  exact shapeCast_a_1a_apply _ _ 0 g

theorem pay14_apply (v75 v77 : FVec Ideal S3072x256 .f32) (j : S3072x256.Idx) :
    k0_pay14 (F := Ideal) v75 v77 j = v75 j + v77 j := rfl

theorem pay15_apply (v14 v17 : FVec Ideal S32x96x128 .bf16) (x16 x17 : Vec Ideal S128x256 .f32) (x18 : Vec Ideal S256 .f32)
    (x19 : Vec Ideal S256x256 .f32) (x20 : Vec Ideal S256 .f32) (p : Fin 32) (q : Fin 96) (g : Fin 256) :
    k0_pay15 (F := Ideal) v14 v17 x16 x17 x18 x19 x20 (ix2 (row p q) g)
      = (∑ h : Fin 256,
            max ((((∑ k : Fin 128, (v14 (ix3 p q k) * v17 (ix3 p q k)) * x16 (ix2 k h))
                    + (∑ k : Fin 128, (v14 (ix3 p q k) + v17 (ix3 p q k)) * x17 (ix2 k h))) + x18 (ix1 h))) 0
              * x19 (ix2 h g))
          + x20 (ix1 g) := by
  unfold k0_pay15
  refine (trunc_apply _ _ _).trans ?_
  refine (addf_apply _ _ _).trans ?_
  refine congrArg₂ (· + ·) ?_ ?_
  · refine (PlainDot.matmul_zero_apply dot_S3072x256_S256x256_S3072x256_1_0_0_1_n_n rfl rfl rfl rfl rfl rfl rfl rfl
      none _ _ (row p q) g).trans ?_
    refine Finset.sum_congr rfl fun h _ => ?_
    refine congrArg₂ (· * ·) ?_ rfl
    refine (flat_apply _ _ p q h).trans ?_
    refine (trunc_apply _ _ _).trans ?_
    refine (maximumf_apply _ _ _).trans ?_
    refine congrArg₂ max ?_ Ideal.ofBits_zero_f32
    refine (addf_apply _ _ _).trans ?_
    refine congrArg₂ (· + ·) ?_ ?_
    · refine (unflat_apply _ _ p q h).trans ?_
      refine (addf_apply _ _ _).trans ?_
      refine congrArg₂ (· + ·) ?_ ?_
      · refine (PlainDot.matmul_zero_apply dot_S3072x128_S128x256_S3072x256_1_0_0_1_n_n rfl rfl rfl rfl rfl rfl rfl rfl
          none _ _ (row p q) h).trans ?_
        refine Finset.sum_congr rfl fun k _ => ?_
        refine congrArg₂ (· * ·) ?_ (wcast_apply x16 _ _ _)
        exact (flat_apply _ _ p q k).trans (mulf_apply _ _ _)
      · refine (PlainDot.matmul_zero_apply dot_S3072x128_S128x256_S3072x256_1_0_0_1_n_n rfl rfl rfl rfl rfl rfl rfl rfl
          none _ _ (row p q) h).trans ?_
        refine Finset.sum_congr rfl fun k _ => ?_
        refine congrArg₂ (· * ·) ?_ (wcast_apply x17 _ _ _)
        exact (flat_apply _ _ p q k).trans (addf_apply _ _ _)
    · refine (broadcastTo_11c_abc_apply _ _ p q h).trans ?_
      exact shapeCast_c_11c_apply _ _ 0 0 h
  · refine (broadcastTo_1b_ab_apply _ _ (row p q) g).trans ?_
    exact shapeCast_a_1a_apply _ _ 0 g

theorem pay16_apply (x21 : Vec Ideal S256x256 .f32) (j : S256x256.Idx) : k0_pay16 (F := Ideal) x21 j = x21 j := by
  unfold k0_pay16
  exact wcast_apply x21 _ _ j

theorem pay17_apply (x22 : Vec Ideal S256x256 .f32) (j : S256x256.Idx) : k0_pay17 (F := Ideal) x22 j = x22 j := by
  unfold k0_pay17
  exact wcast_apply x22 _ _ j

theorem pay18_apply (x23 : Vec Ideal S256x256 .f32) (j : S256x256.Idx) : k0_pay18 (F := Ideal) x23 j = x23 j := by
  unfold k0_pay18
  exact wcast_apply x23 _ _ j

end Cert.KernelIdeal.Hand

end
-- ==== Proof.KI.Payload.lean ====
/-
  The value the relation encoder's body stores, read at one index: the encoder's output entry.

  The fusion layer multiplies the three branches' rows by the three bands of its matrix, adds the bias and multiplies
  by the product of the two mask entries. With the branches read as the encoder's spatial, temporal and interaction
  rows, the stored value at the pair (p, q) and the output position o is the encoder's cell for the feature rows p and
  q, their distance and their mask entries.
-/
import proofs.«122816_j57561151701198_1_alg».proof.Proof.KI.OutBlock
import proofs.«122816_j57561151701198_1_alg».proof.Proof.Spec
import proofs.«122816_j57561151701198_1_alg».proof.Proof.LibPlainDot
import proofs.«122816_j57561151701198_1_alg».proof.Proof.KI.PayloadFirst
import proofs.«122816_j57561151701198_1_alg».proof.Proof.KI.PayloadBranches

open scoped BigOperators

noncomputable section

namespace Cert.KernelIdeal.Hand

open Idealize.ShloMosaic Idealize.ShloMosaic.ValueIdx Idealize.SL.Sem Cert.KernelIdeal Cert.KernelIdeal.Gen

/-! ## The fusion layer, the bias and the mask -/

theorem pay1_apply (v9 : FVec Ideal S32x1 .f32) (v11 : FVec Ideal S1x96 .f32) (v53 v79 v109 : FVec Ideal S3072x256 .bf16)
    (v112 v115 v118 : FVec Ideal S256x256 .bf16) (x24 : Vec Ideal S256 .f32) (p : Fin 32) (q : Fin 96) (o : Fin 256) :
    k0_pay1 (F := Ideal) v9 v11 v53 v79 v109 v112 v115 v118 x24 (ix4 (0 : Fin 1) p q o)
      = ((((∑ g : Fin 256, v53 (ix2 (row p q) g) * v112 (ix2 g o))
            + (∑ g : Fin 256, v79 (ix2 (row p q) g) * v115 (ix2 g o)))
            + (∑ g : Fin 256, v109 (ix2 (row p q) g) * v118 (ix2 g o))) + x24 (ix1 o))
          * (v9 (ix2 p (0 : Fin 1)) * v11 (ix2 (0 : Fin 1) q)) := by
  unfold k0_pay1
  refine (shapeCast_abc_1abc_apply _ _ 0 p q o).trans ?_
  refine (mulf_apply _ _ _).trans ?_
  refine congrArg₂ (· * ·) ?_ ?_
  · refine (addf_apply _ _ _).trans ?_
    refine congrArg₂ (· + ·) ?_ ?_
    · refine (unflat_apply _ _ p q o).trans ?_
      refine (addf_apply _ _ _).trans ?_
      refine congrArg₂ (· + ·) ?_ ?_
      · refine (addf_apply _ _ _).trans ?_
        refine congrArg₂ (· + ·) ?_ ?_
        · exact PlainDot.matmul_zero_apply dot_S3072x256_S256x256_S3072x256_1_0_0_1_n_n rfl rfl rfl rfl rfl rfl rfl rfl
            none _ _ (row p q) o
        · exact PlainDot.matmul_zero_apply dot_S3072x256_S256x256_S3072x256_1_0_0_1_n_n rfl rfl rfl rfl rfl rfl rfl rfl
            none _ _ (row p q) o
      · exact PlainDot.matmul_zero_apply dot_S3072x256_S256x256_S3072x256_1_0_0_1_n_n rfl rfl rfl rfl rfl rfl rfl rfl
          none _ _ (row p q) o
    · refine (broadcastTo_11c_abc_apply _ _ p q o).trans ?_
      exact shapeCast_c_11c_apply _ _ 0 0 o
  · refine (broadcastTo_ab1_abc_apply _ _ p q o).trans ?_
    refine (shapeCast_ab_ab1_apply _ _ p q 0).trans ?_
    refine (mulf_apply _ _ _).trans ?_
    exact congrArg₂ (· * ·) (broadcastTo_a1_ab_apply _ _ p q) (broadcastTo_1b_ab_apply _ _ p q)

/-! ## The three branches as the encoder's -/

theorem spatial_apply (x0 : Vec Ideal S1x32x128 .f32) (x1 : Vec Ideal S1x96x128 .f32) (x2 : Vec Ideal S1x32x96 .f32)
    (x5 x6 : Vec Ideal S128x256 .f32) (x7 x8 : Vec Ideal S256 .f32) (x9 : Vec Ideal S256x256 .f32) (x10 : Vec Ideal S256 .f32)
    (p : Fin 32) (q : Fin 96) (g : Fin 256) :
    k0_pay11 (F := Ideal) x8 (k0_pay8 x0 x1 x5 x6) (k0_pay9 x2) (k0_pay10 x7) x9 x10 (ix2 (row p q) g)
      = RelEnc.spatial (fun k => x0 (ix3 0 p k)) (fun k => x1 (ix3 0 q k)) (x2 (ix3 0 p q))
          (fun k h => x5 (ix2 k h)) (fun k h => x6 (ix2 k h)) (fun h => x7 (ix1 h)) (fun h => x8 (ix1 h))
          (fun h g => x9 (ix2 h g)) (fun g => x10 (ix1 g)) g := by
  refine (pay11_apply _ _ _ _ _ _ p q g).trans ?_
  unfold RelEnc.spatial
  refine congrArg₂ (· + ·) ?_ rfl
  refine Finset.sum_congr rfl fun h _ => ?_
  refine congrArg₂ (· * ·) ?_ rfl
  unfold RelEnc.hidS
  refine congrArg₂ max ?_ rfl
  refine congrArg₂ (· + ·) ?_ rfl
  exact congrArg₂ (· + ·) (pay8_apply x0 x1 x5 x6 p q h) (congrArg₂ (· * ·) (pay9_apply x2 p q) (pay10_apply x7 h))

theorem temporal_apply (x0 : Vec Ideal S1x32x128 .f32) (x1 : Vec Ideal S1x96x128 .f32)
    (x11 x12 : Vec Ideal S128x256 .f32) (x13 : Vec Ideal S256 .f32) (x14 : Vec Ideal S256x256 .f32) (x15 : Vec Ideal S256 .f32)
    (p : Fin 32) (q : Fin 96) (g : Fin 256) :
    k0_pay14 (F := Ideal) (k0_pay12 (k0_pay6 x0) (k0_pay7 x1) x11 x12 x13 x14) (k0_pay13 x15) (ix2 (row p q) g)
      = RelEnc.temporal (fun k => x0 (ix3 0 p k)) (fun k => x1 (ix3 0 q k))
          (fun k h => x11 (ix2 k h)) (fun k h => x12 (ix2 k h)) (fun h => x13 (ix1 h))
          (fun h g => x14 (ix2 h g)) (fun g => x15 (ix1 g)) g := by
  refine (pay14_apply _ _ _).trans ?_
  unfold RelEnc.temporal
  refine congrArg₂ (· + ·) ?_ (pay13_apply x15 (row p q) g)
  refine (pay12_apply _ _ _ _ _ _ p q g).trans ?_
  refine Finset.sum_congr rfl fun h _ => ?_
  refine congrArg₂ (· * ·) ?_ rfl
  unfold RelEnc.hidT
  refine congrArg₂ max ?_ rfl
  refine congrArg₂ (· + ·) ?_ rfl
  refine congrArg₂ (· + ·) ?_ ?_
  · exact Finset.sum_congr rfl fun k _ => congrArg₂ (· * ·) (pay6_apply x0 p q k) rfl
  · exact Finset.sum_congr rfl fun k _ => congrArg₂ (· * ·) (pay7_apply x1 p q k) rfl

theorem interaction_apply (x0 : Vec Ideal S1x32x128 .f32) (x1 : Vec Ideal S1x96x128 .f32)
    (x16 x17 : Vec Ideal S128x256 .f32) (x18 : Vec Ideal S256 .f32) (x19 : Vec Ideal S256x256 .f32) (x20 : Vec Ideal S256 .f32)
    (p : Fin 32) (q : Fin 96) (g : Fin 256) :
    k0_pay15 (F := Ideal) (k0_pay4 x0) (k0_pay5 x1) x16 x17 x18 x19 x20 (ix2 (row p q) g)
      = RelEnc.interaction (fun k => x0 (ix3 0 p k)) (fun k => x1 (ix3 0 q k))
          (fun k h => x16 (ix2 k h)) (fun k h => x17 (ix2 k h)) (fun h => x18 (ix1 h))
          (fun h g => x19 (ix2 h g)) (fun g => x20 (ix1 g)) g := by
  refine (pay15_apply _ _ _ _ _ _ _ p q g).trans ?_
  unfold RelEnc.interaction
  refine congrArg₂ (· + ·) ?_ rfl
  refine Finset.sum_congr rfl fun h _ => ?_
  refine congrArg₂ (· * ·) ?_ rfl
  unfold RelEnc.hidI
  refine congrArg₂ max ?_ rfl
  refine congrArg₂ (· + ·) ?_ rfl
  refine congrArg₂ (· + ·) ?_ ?_
  · exact Finset.sum_congr rfl fun k _ =>
      congrArg₂ (· * ·) (congrArg₂ (· * ·) (pay4_apply x0 p q k) (pay5_apply x1 p q k)) rfl
  · exact Finset.sum_congr rfl fun k _ =>
      congrArg₂ (· * ·) (congrArg₂ (· + ·) (pay4_apply x0 p q k) (pay5_apply x1 p q k)) rfl

/-! ## The stored value at an index -/

/-- The value the body stores, at the pair (p, q) and output position o, is the encoder's output entry for the feature
    rows p and q, their distance and their mask entries. -/
theorem outBlk_apply (x0 : Vec Ideal S1x32x128 .f32) (x1 : Vec Ideal S1x96x128 .f32) (x2 : Vec Ideal S1x32x96 .f32)
    (x3 : Vec Ideal S1x32x1 .f32) (x4 : Vec Ideal S1x1x96 .f32) (x5 x6 : Vec Ideal S128x256 .f32) (x7 x8 : Vec Ideal S256 .f32)
    (x9 : Vec Ideal S256x256 .f32) (x10 : Vec Ideal S256 .f32) (x11 x12 : Vec Ideal S128x256 .f32) (x13 : Vec Ideal S256 .f32)
    (x14 : Vec Ideal S256x256 .f32) (x15 : Vec Ideal S256 .f32) (x16 x17 : Vec Ideal S128x256 .f32) (x18 : Vec Ideal S256 .f32)
    (x19 : Vec Ideal S256x256 .f32) (x20 : Vec Ideal S256 .f32) (x21 x22 x23 : Vec Ideal S256x256 .f32) (x24 : Vec Ideal S256 .f32)
    (p : Fin 32) (q : Fin 96) (o : Fin 256) :
    outBlk (F := Ideal) x0 x1 x2 x3 x4 x5 x6 x7 x8 x9 x10 x11 x12 x13 x14 x15 x16 x17 x18 x19 x20 x21 x22 x23 x24 (ix4 (0 : Fin 1) p q o)
      = RelEnc.cell (fun k => x0 (ix3 0 p k)) (fun k => x1 (ix3 0 q k)) (x2 (ix3 0 p q)) (x3 (ix3 0 p 0)) (x4 (ix3 0 0 q))
          (fun k h => x5 (ix2 k h)) (fun k h => x6 (ix2 k h)) (fun h => x7 (ix1 h)) (fun h => x8 (ix1 h))
          (fun h g => x9 (ix2 h g)) (fun g => x10 (ix1 g))
          (fun k h => x11 (ix2 k h)) (fun k h => x12 (ix2 k h)) (fun h => x13 (ix1 h))
          (fun h g => x14 (ix2 h g)) (fun g => x15 (ix1 g))
          (fun k h => x16 (ix2 k h)) (fun k h => x17 (ix2 k h)) (fun h => x18 (ix1 h))
          (fun h g => x19 (ix2 h g)) (fun g => x20 (ix1 g))
          (fun g o => x21 (ix2 g o)) (fun g o => x22 (ix2 g o)) (fun g o => x23 (ix2 g o)) (fun o => x24 (ix1 o)) o := by
  unfold outBlk
  refine (pay1_apply _ _ _ _ _ _ _ _ x24 p q o).trans ?_
  unfold RelEnc.cell
  refine congrArg₂ (· * ·) ?_ (congrArg₂ (· * ·) (pay2_apply x3 p) (pay3_apply x4 q))
  refine congrArg₂ (· + ·) ?_ rfl
  refine congrArg₂ (· + ·) (congrArg₂ (· + ·) ?_ ?_) ?_
  · exact Finset.sum_congr rfl fun g _ =>
      congrArg₂ (· * ·) (spatial_apply x0 x1 x2 x5 x6 x7 x8 x9 x10 p q g) (pay16_apply x21 _)
  · exact Finset.sum_congr rfl fun g _ =>
      congrArg₂ (· * ·) (temporal_apply x0 x1 x11 x12 x13 x14 x15 p q g) (pay17_apply x22 _)
  · exact Finset.sum_congr rfl fun g _ =>
      congrArg₂ (· * ·) (interaction_apply x0 x1 x16 x17 x18 x19 x20 p q g) (pay18_apply x23 _)

end Cert.KernelIdeal.Hand

end
-- ==== Proof.KI.Blocks.lean ====
/-
  The output block at a grid point, entry by entry, from the whole argument arrays.

  Grid point `t = 3·b + it` works on batch element `b` and on the rows `32·it … 32·it + 31` of the pair axis `i`. Its
  input blocks are read off the arrays as the region finds them: the features' rows `i` of the tile and all rows `j`, the
  tile's distances, the mask at the tile's `i` and at all `j`, and the whole weight blocks — the bands of rows the host
  cut out of the first-layer and fusion matrices, and the matrices and bias vectors passed as they are. So entry
  `(p, q, o)` of the block the body stores is entry `(b, 32·it + p, q, o)` of the encoder's result.
-/
import proofs.«122816_j57561151701198_1_alg».proof.Proof.KI.Data
import proofs.«122816_j57561151701198_1_alg».proof.Proof.KI.BlocksHost
import proofs.«122816_j57561151701198_1_alg».proof.Proof.KI.BlocksIn
import proofs.«122816_j57561151701198_1_alg».proof.Proof.KI.Payload
import proofs.«122816_j57561151701198_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The stored block at an index -/

theorem zeros1 : (![0] : Fin 1 → Nat) = fun _ => 0 := funext fun a => by match a with | ⟨0, _⟩ => rfl
theorem zeros2 : (![0, 0] : Fin 2 → Nat) = fun _ => 0 := funext fun a => by match a with | ⟨0, _⟩ => rfl | ⟨1, _⟩ => rfl
theorem zeros3 : (![0, 0, 0] : Fin 3 → Nat) = fun _ => 0 :=
  funext fun a => by match a with | ⟨0, _⟩ => rfl | ⟨1, _⟩ => rfl | ⟨2, _⟩ => rfl
theorem zeros4 : (![0, 0, 0, 0] : Fin 4 → Nat) = fun _ => 0 :=
  funext fun a => by match a with | ⟨0, _⟩ => rfl | ⟨1, _⟩ => rfl | ⟨2, _⟩ => rfl | ⟨3, _⟩ => rfl

/-- The body loads every input block whole and stores the output block whole, so what it leaves at `(p, q, o)` is the
    encoder's entry for rows `p` and `q` of the loaded blocks. -/
theorem out_apply (x0 : Vec Ideal S1x32x128 .f32) (x1 : Vec Ideal S1x96x128 .f32) (x2 : Vec Ideal S1x32x96 .f32)
    (x3 : Vec Ideal S1x32x1 .f32) (x4 : Vec Ideal S1x1x96 .f32) (x5 x6 : Vec Ideal S128x256 .f32) (x7 x8 : Vec Ideal S256 .f32)
    (x9 : Vec Ideal S256x256 .f32) (x10 : Vec Ideal S256 .f32) (x11 x12 : Vec Ideal S128x256 .f32) (x13 : Vec Ideal S256 .f32)
    (x14 : Vec Ideal S256x256 .f32) (x15 : Vec Ideal S256 .f32) (x16 x17 : Vec Ideal S128x256 .f32) (x18 : Vec Ideal S256 .f32)
    (x19 : Vec Ideal S256x256 .f32) (x20 : Vec Ideal S256 .f32) (x21 x22 x23 : Vec Ideal S256x256 .f32) (x24 : Vec Ideal S256 .f32)
    (p : Fin 32) (q : Fin 96) (o : Fin 256) :
    out0_25 (F := Ideal) x0 x1 x2 x3 x4 x5 x6 x7 x8 x9 x10 x11 x12 x13 x14 x15 x16 x17 x18 x19 x20 x21 x22 x23 x24 (ix4 (0 : Fin 1) p q o)
      = RelEnc.cell (fun k => x0 (ix3 0 p k)) (fun k => x1 (ix3 0 q k)) (x2 (ix3 0 p q)) (x3 (ix3 0 p 0)) (x4 (ix3 0 0 q))
          (fun k h => x5 (ix2 k h)) (fun k h => x6 (ix2 k h)) (fun h => x7 (ix1 h)) (fun h => x8 (ix1 h))
          (fun h g => x9 (ix2 h g)) (fun g => x10 (ix1 g))
          (fun k h => x11 (ix2 k h)) (fun k h => x12 (ix2 k h)) (fun h => x13 (ix1 h))
          (fun h g => x14 (ix2 h g)) (fun g => x15 (ix1 g))
          (fun k h => x16 (ix2 k h)) (fun k h => x17 (ix2 k h)) (fun h => x18 (ix1 h))
          (fun h g => x19 (ix2 h g)) (fun g => x20 (ix1 g))
          (fun g o => x21 (ix2 g o)) (fun g o => x22 (ix2 g o)) (fun g o => x23 (ix2 g o)) (fun o => x24 (ix1 o)) o := by
  unfold out0_25
  rw [View.canon_unit_zero zeros4]
  simp only [View.ld_unit_zero (S := S1x32x128) zeros3, View.ld_unit_zero (S := S1x96x128) zeros3,
    View.ld_unit_zero (S := S1x32x96) zeros3, View.ld_unit_zero (S := S1x32x1) zeros3, View.ld_unit_zero (S := S1x1x96) zeros3,
    View.ld_unit_zero (S := S128x256) zeros2, View.ld_unit_zero (S := S256) zeros1, View.ld_unit_zero (S := S256x256) zeros2]
  exact outBlk_apply x0 x1 x2 x3 x4 x5 x6 x7 x8 x9 x10 x11 x12 x13 x14 x15 x16 x17 x18 x19 x20 x21 x22 x23 x24 p q o

/-- An entry of the encoder's output row depends on its data only through their values. -/
theorem cell_congr {fi fi' : Fin 128 → EReal} {fj fj' : Fin 128 → EReal} {d d' : EReal} {mi mi' : EReal} {mj mj' : EReal} {ws1i ws1i' : Fin 128 → Fin 256 → EReal} {ws1j ws1j' : Fin 128 → Fin 256 → EReal} {ws1d ws1d' : Fin 256 → EReal} {bs1 bs1' : Fin 256 → EReal} {ws2 ws2' : Fin 256 → Fin 256 → EReal} {bs2 bs2' : Fin 256 → EReal} {wt1i wt1i' : Fin 128 → Fin 256 → EReal} {wt1j wt1j' : Fin 128 → Fin 256 → EReal} {bt1 bt1' : Fin 256 → EReal} {wt2 wt2' : Fin 256 → Fin 256 → EReal} {bt2 bt2' : Fin 256 → EReal} {wi1m wi1m' : Fin 128 → Fin 256 → EReal} {wi1a wi1a' : Fin 128 → Fin 256 → EReal} {bi1 bi1' : Fin 256 → EReal} {wi2 wi2' : Fin 256 → Fin 256 → EReal} {bi2 bi2' : Fin 256 → EReal} {wfs wfs' : Fin 256 → Fin 256 → EReal} {wft wft' : Fin 256 → Fin 256 → EReal} {wfi wfi' : Fin 256 → Fin 256 → EReal} {bf bf' : Fin 256 → EReal}
    (e0 : fi = fi') (e1 : fj = fj') (e2 : d = d') (e3 : mi = mi') (e4 : mj = mj') (e5 : ws1i = ws1i') (e6 : ws1j = ws1j') (e7 : ws1d = ws1d') (e8 : bs1 = bs1') (e9 : ws2 = ws2') (e10 : bs2 = bs2') (e11 : wt1i = wt1i') (e12 : wt1j = wt1j') (e13 : bt1 = bt1') (e14 : wt2 = wt2') (e15 : bt2 = bt2') (e16 : wi1m = wi1m') (e17 : wi1a = wi1a') (e18 : bi1 = bi1') (e19 : wi2 = wi2') (e20 : bi2 = bi2') (e21 : wfs = wfs') (e22 : wft = wft') (e23 : wfi = wfi') (e24 : bf = bf') (o : Fin 256) :
    RelEnc.cell fi fj d mi mj ws1i ws1j ws1d bs1 ws2 bs2 wt1i wt1j bt1 wt2 bt2 wi1m wi1a bi1 wi2 bi2 wfs wft wfi bf o = RelEnc.cell fi' fj' d' mi' mj' ws1i' ws1j' ws1d' bs1' ws2' bs2' wt1i' wt1j' bt1' wt2' bt2' wi1m' wi1a' bi1' wi2' bi2' wfs' wft' wfi' bf' o := by
  subst e0 e1 e2 e3 e4 e5 e6 e7 e8 e9 e10 e11 e12 e13 e14 e15 e16 e17 e18 e19 e20 e21 e22 e23 e24
  rfl

/-- Entry `(p, q, o)` of what the body stores at point `t = 3·b + it` is the encoder's entry `(b, 32·it + p, q, o)`. -/
theorem blk_out (c : Dev nD) (t : Fin cfg0.N) (b : Fin 8) (it : Fin 3) (ht : t.val = 3 * b.val + it.val)
    (p : Fin 32) (q : Fin 96) (o : Fin 256) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix4 (0 : Fin 1) p q o)
      = RelEnc.Gat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
          b ⟨32 * it.val + p.val, by omega⟩ q o := by
  refine (out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t) (iblk m c 22 t)
    (iblk m c 23 t) (iblk m c 24 t) p q o).trans ?_
  unfold RelEnc.Gat
  exact cell_congr
    (funext fun k => blk0_apply m c t b it ht p k)
    (funext fun k => blk1_apply m c t b it ht q k)
    (blk2_apply m c t b it ht p q)
    ((blk3_apply m c t b it ht p).trans (V_main_v11_apply m c b ⟨32 * it.val + p.val, by omega⟩))
    ((blk4_apply m c t b it ht q).trans (V_main_v12_apply m c b q))
    (funext fun k => funext fun h => (blk5_apply m c t k h).trans (V_main_v0_apply m c k h))
    (funext fun k => funext fun h => (blk6_apply m c t k h).trans (V_main_v1_apply m c k h))
    (funext fun h => (blk7_apply m c t h).trans (V_main_v3_apply m c h))
    (funext fun h => blk8_apply m c t h)
    (funext fun h => funext fun g => blk9_apply m c t h g)
    (funext fun g => blk10_apply m c t g)
    (funext fun k => funext fun h => (blk11_apply m c t k h).trans (V_main_v4_apply m c k h))
    (funext fun k => funext fun h => (blk12_apply m c t k h).trans (V_main_v5_apply m c k h))
    (funext fun h => blk13_apply m c t h)
    (funext fun h => funext fun g => blk14_apply m c t h g)
    (funext fun g => blk15_apply m c t g)
    (funext fun k => funext fun h => (blk16_apply m c t k h).trans (V_main_v6_apply m c k h))
    (funext fun k => funext fun h => (blk17_apply m c t k h).trans (V_main_v7_apply m c k h))
    (funext fun h => blk18_apply m c t h)
    (funext fun h => funext fun g => blk19_apply m c t h g)
    (funext fun g => blk20_apply m c t g)
    (funext fun g => funext fun o' => (blk21_apply m c t g o').trans (V_main_v8_apply m c g o'))
    (funext fun g => funext fun o' => (blk22_apply m c t g o').trans (V_main_v9_apply m c g o'))
    (funext fun g => funext fun o' => (blk23_apply m c t g o').trans (V_main_v10_apply m c g o'))
    (funext fun o' => blk24_apply m c t o')
    o

end Cert.KernelIdeal.Hand

end
-- ==== Proof.KI.Run.lean ====
/-
  The run of the kernel program, and its frame.

  The features' buffer is dealt in halves to the two windows on it. With the body obligation, the frame run for windows
  that share an array gives: @main terminates, every window's array ends at the proof data's final contents, every
  other buffer as found; in particular every argument array ends as launched.
-/
import proofs.«122816_j57561151701198_1_alg».proof.Proof.KI.Data
import proofs.«122816_j57561151701198_1_alg».proof.Proof.LibSharedFrame
import proofs.«122816_j57561151701198_1_alg».proof.Proof.LibSharePair

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The features' buffer, held whole when the region is entered, is dealt in halves to the two windows on it; every other
    window's array is a buffer of its own. -/
theorem hsplit (c : Dev nD) :
    (Pipeline.arrBufs spec0 c (V m c) : sProp 𝕄) ⊢ (dats m 0 c).arrays ((dats m 0 c).arrAt · 0) :=
  Pipeline.arrays_split_pair (dats m 0 c) 0 1 (by decide) rfl (by decide) arr_whole0 (share_0 m c) (share_1 m c)
    (share_rest m c) (V m c) _ (fun w => A_eq m c w)

/-! ## The run and the frame -/

set_option backward.isDefEq.respectTransparency.types false in
/-- Every weakly fair execution of @main terminates, every window's array at the proof data's final contents and every
    other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The frame: the program runs to the end, nothing faulting, its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Hand

end
-- ==== Proof.KI.Value.lean ====
/-
  The kernel's result array, whole.

  The output window's block at grid point `t = 3·b + it` is rows `32·it … 32·it + 31` of batch element `b` of the result
  array, all of the last two axes; the twenty-four blocks tile the array. At every point the block written back is the
  encoder's result restricted to the block, so the array ends at the encoder's result, and the run of the idealized
  kernel program ends with its result array at the encoder's function of its argument arrays, the arguments unchanged.
-/
import proofs.«122816_j57561151701198_1_alg».proof.Proof.KI.Blocks
import proofs.«122816_j57561151701198_1_alg».proof.Proof.KI.Run
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The output window's block index at a grid point: the point's batch element, its tile of rows, and the whole of the
    last two axes. -/
theorem out_index : ∀ t : Fin cfg0.N, win0_25.index t (0 : Fin 4) = t.val / 3 ∧ win0_25.index t (1 : Fin 4) = t.val % 3
    ∧ win0_25.index t (2 : Fin 4) = 0 ∧ win0_25.index t (3 : Fin 4) = 0 :=
  (by decide +kernel : ∀ t : Fin grid0.N, _)

/-- No block of the output window is cut at the array's end: what is written back is the stored block, entry by entry. -/
theorem cut_out {α : Type} (t : Fin cfg0.N) (X : S1x32x96x256.Idx → α) (p : Fin 32) (q : Fin 96) (o : Fin 256) :
    (cfg0.win 25).cut (cfg0.grid.coords t) X (ix4 (0 : Fin 1) p q o) = X (ix4 (0 : Fin 1) p q o) := by
  show X ((cfg0.win 25).xinj (cfg0.grid.coords t) (ix4 (0 : Fin 1) p q o)) = _
  refine congrArg X (funext fun a => ?_)
  match a with
  | ⟨0, _⟩ => rfl
  | ⟨1, _⟩ => rfl
  | ⟨2, _⟩ => rfl
  | ⟨3, _⟩ => rfl

/-- Entry `(0, p, q, o)` of the block at point `t` sits in the result array at `(t / 3, 32·(t % 3) + p, q, o)`: on each
    axis the block index times the block's extent plus the coordinate inside the block. -/
theorem emb_out (t : Fin cfg0.N) (p : Fin 32) (q : Fin 96) (o : Fin 256) (hb : t.val / 3 < 8)
    (hi : 32 * (t.val % 3) + p.val < 96) :
    ((cfg0.win 25).blk t).view.emb (ix4 (0 : Fin 1) p q o)
      = ix4 (⟨t.val / 3, hb⟩ : Fin 8) (⟨32 * (t.val % 3) + p.val, hi⟩ : Fin 96) q o := by
  obtain ⟨e0, e1, e2, e3⟩ := out_index t
  funext a
  apply Fin.ext
  match a with
  | ⟨0, _⟩ => show win0_25.index t (0 : Fin 4) * 1 + 1 * 0 = t.val / 3; omega
  | ⟨1, _⟩ => show win0_25.index t (1 : Fin 4) * 32 + 1 * p.val = 32 * (t.val % 3) + p.val; omega
  | ⟨2, _⟩ => show win0_25.index t (2 : Fin 4) * 96 + 1 * q.val = q.val; omega
  | ⟨3, _⟩ => show win0_25.index t (3 : Fin 4) * 256 + 1 * o.val = o.val; omega

/-- What point `t` writes back is its block of the encoder's result: the stored entry `(0, p, q, o)` is the encoder's
    entry `(t / 3, 32·(t % 3) + p, q, o)`, which is where that entry of the block sits in the array. -/
theorem flushed_out (c : Dev nD) (t : Fin cfg0.N) :
    (dats (F := Ideal) m 0 c).flushed 25 t
      = ((cfg0.win 25).blk t).view.read (Elt Ideal) (RelEnc.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show (cfg0.win 25).cut (cfg0.grid.coords t) ((dats m 0 c).after 25 t) = _
  rw [after0_25]
  have hN : t.val < 24 := lt_of_lt_of_eq t.isLt N_0
  funext (y : S1x32x96x256.Idx)
  obtain ⟨p, q, o, rfl⟩ : ∃ (p : Fin 32) (q : Fin 96) (o : Fin 256), y = ix4 (0 : Fin 1) p q o :=
    ⟨y 1, y 2, y 3, funext fun a => by
      match a with
      | ⟨0, _⟩ => exact Subsingleton.elim (α := Fin 1) _ _
      | ⟨1, _⟩ => rfl
      | ⟨2, _⟩ => rfl
      | ⟨3, _⟩ => rfl⟩
  rw [cut_out, blk_out m c t ⟨t.val / 3, by omega⟩ ⟨t.val % 3, by omega⟩ (by show t.val = 3 * (t.val / 3) + t.val % 3; omega) p q o,
    View.read_apply, emb_out t p q o (by omega) (by omega), cast_eq, RelEnc.G_ix4]

/-- An index of the result array is in the block of point `t` iff each coordinate is in the block's range on its axis. -/
theorem mem_blk_out (t : Fin cfg0.N) (i : S8x96x96x256.Idx) :
    i ∈ ((cfg0.win 25).blk t).view.set ↔ ∀ a : Fin 4, win0_25.index t a * S1x32x96x256.size a ≤ (i a).val
      ∧ (i a).val < win0_25.index t a * S1x32x96x256.size a + S1x32x96x256.size a := by
  show i ∈ ((View.whole main_v13).slice (win0_25.rect t)).set ↔ _
  rw [View.set_slice_whole, Rect.mem_set_unit]
  exact Iff.rfl

/-- The twenty-four blocks tile the array: index `(b, r, j, o)` lies in the block of point `3·b + r / 32`. -/
theorem cover_out (i : S8x96x96x256.Idx) :
    ∃ t : Fin cfg0.N, (cfg0.win 25).flush t = true ∧ i ∈ ((cfg0.win 25).blk t).view.set := by
  have h0 : (i 0).val < 8 := (i 0).isLt
  have h1 : (i 1).val < 96 := (i 1).isLt
  have h2 : (i 2).val < 96 := (i 2).isLt
  have h3 : (i 3).val < 256 := (i 3).isLt
  obtain ⟨t, ht⟩ : ∃ t : Fin cfg0.N, t.val = 3 * (i 0).val + (i 1).val / 32 :=
    ⟨⟨3 * (i 0).val + (i 1).val / 32, lt_of_lt_of_eq (by omega : 3 * (i 0).val + (i 1).val / 32 < 24) N_0.symm⟩, rfl⟩
  obtain ⟨e0, e1, e2, e3⟩ := out_index t
  refine ⟨t, flush0_25 t, ?_⟩
  rw [mem_blk_out]
  intro a
  match a with
  | ⟨0, _⟩ => show win0_25.index t (0 : Fin 4) * 1 ≤ (i 0).val ∧ (i 0).val < win0_25.index t (0 : Fin 4) * 1 + 1; omega
  | ⟨1, _⟩ => show win0_25.index t (1 : Fin 4) * 32 ≤ (i 1).val ∧ (i 1).val < win0_25.index t (1 : Fin 4) * 32 + 32; omega
  | ⟨2, _⟩ => show win0_25.index t (2 : Fin 4) * 96 ≤ (i 2).val ∧ (i 2).val < win0_25.index t (2 : Fin 4) * 96 + 96; omega
  | ⟨3, _⟩ => show win0_25.index t (3 : Fin 4) * 256 ≤ (i 3).val ∧ (i 3).val < win0_25.index t (3 : Fin 4) * 256 + 256; omega

/-- After the last point the result array holds the encoder's result. -/
theorem final25 (c : Dev nD) :
    (dats (F := Ideal) m 0 c).arrAt 25 cfg0.N
      = RelEnc.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  exact (dats (F := Ideal) m 0 c).arrAt_eq_of_cover 25 _ (fun t _ => flushed_out m c t) cover_out

/-- The idealized kernel program runs to the end with its result at the encoder's function of the arguments, which it
    leaves unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v13)
          = RelEnc.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).1 25).trans (final25 m c), args_kept m r h c⟩) (run_main m ρ)

end Cert.KernelIdeal.Hand

end
-- ==== Proof.RefG.lean ====
import proofs.«122816_j57561151701198_1_alg».proof.Proof.Gen.ReferenceIdeal.Read
import proofs.«122816_j57561151701198_1_alg».proof.Proof.Spec

open scoped BigOperators

noncomputable section

namespace Cert.ReferenceIdeal.RefG

open Cert.ReferenceIdeal Cert.ReferenceIdeal.Gen Cert.ReferenceIdeal.Read Idealize.ShloMosaic Idealize.ShloMosaic.ValueIdx RelEnc

variable (x0 : (⟨S8x96x128, .f32⟩ : BufTy).Contents (Elt Ideal)) (x1 : (⟨S8x96x96, .f32⟩ : BufTy).Contents (Elt Ideal))
  (x2 : (⟨S8x96, .f32⟩ : BufTy).Contents (Elt Ideal)) (x3 : (⟨S257x256, .f32⟩ : BufTy).Contents (Elt Ideal))
  (w w' : (⟨S256x256, .f32⟩ : BufTy).Contents (Elt Ideal)) (c c' : (⟨S256, .f32⟩ : BufTy).Contents (Elt Ideal))
  (b : Fin 8) (i j : Fin 96)

/-! ## The broadcast operands at an index -/

/-- The first position's feature row, repeated along the second position. -/
theorem v1_at (k : Fin 128) : val_main_v1 (F := Ideal) x0 (ix4 b i j k) = x0 (ix3 b i k) := by
  rw [val_main_v1_apply, val_main_v0_apply]
  exact congrArg x0 (funext fun a => Fin.ext (by match a with | ⟨0, _⟩ => rfl | ⟨1, _⟩ => rfl | ⟨2, _⟩ => rfl))

/-- The second position's feature row, repeated along the first position. -/
theorem v3_at (k : Fin 128) : val_main_v3 (F := Ideal) x0 (ix4 b i j k) = x0 (ix3 b j k) := by
  rw [val_main_v3_apply, val_main_v2_apply]
  exact congrArg x0 (funext fun a => Fin.ext (by match a with | ⟨0, _⟩ => rfl | ⟨1, _⟩ => rfl | ⟨2, _⟩ => rfl))

/-- The pair's distance as a row of one entry. -/
theorem v4_at (z : Fin 1) : val_main_v4 (F := Ideal) x1 (ix4 b i j z) = x1 (ix3 b i j) := by
  rw [val_main_v4_apply]
  exact congrArg x1 (funext fun a => Fin.ext (by match a with | ⟨0, _⟩ => rfl | ⟨1, _⟩ => rfl | ⟨2, _⟩ => rfl))

/-- The entrywise product of the two feature rows. -/
theorem v25_at (k : Fin 128) : val_main_v25 (F := Ideal) x0 (ix4 b i j k) = x0 (ix3 b i k) * x0 (ix3 b j k) := by
  rw [val_main_v25_apply, v1_at, v3_at, Ideal.mulf_def]

/-- The entrywise sum of the two feature rows. -/
theorem v26_at (k : Fin 128) : val_main_v26 (F := Ideal) x0 (ix4 b i j k) = x0 (ix3 b i k) + x0 (ix3 b j k) := by
  rw [val_main_v26_apply, v1_at, v3_at, Ideal.addf_def]

/-- A bias vector repeated over batch element and both positions. -/
theorem v8_at (h : Fin 256) : val_main_v8 (F := Ideal) c (ix4 b i j h) = c (ix1 h) := by
  rw [val_main_v8_apply, val_main_v7_apply]
  exact congrArg c (funext fun a => Fin.ext (by match a with | ⟨0, _⟩ => rfl))

theorem v13_at (h : Fin 256) : val_main_v13 (F := Ideal) c (ix4 b i j h) = c (ix1 h) := v8_at c b i j h
theorem v18_at (h : Fin 256) : val_main_v18 (F := Ideal) c (ix4 b i j h) = c (ix1 h) := v8_at c b i j h
theorem v23_at (h : Fin 256) : val_main_v23 (F := Ideal) c (ix4 b i j h) = c (ix1 h) := v8_at c b i j h
theorem v30_at (h : Fin 256) : val_main_v30 (F := Ideal) c (ix4 b i j h) = c (ix1 h) := v8_at c b i j h
theorem v35_at (h : Fin 256) : val_main_v35 (F := Ideal) c (ix4 b i j h) = c (ix1 h) := v8_at c b i j h
theorem v40_at (h : Fin 256) : val_main_v40 (F := Ideal) c (ix4 b i j h) = c (ix1 h) := v8_at c b i j h

/-- The zero that the rectifier compares with. -/
theorem zero0_at (y : S8x96x96x256.Idx) : val_main_call0_v0 (F := Ideal) y = 0 := by
  rw [val_main_call0_v0_apply, val_main_call0_cst_apply]
  exact Ideal.ofBits_zero_f32

theorem zero1_at (y : S8x96x96x256.Idx) : val_main_call1_v0 (F := Ideal) y = 0 := zero0_at y
theorem zero2_at (y : S8x96x96x256.Idx) : val_main_call2_v0 (F := Ideal) y = 0 := zero0_at y

/-! ## The concatenated rows, band by band -/

/-- The 257-wide row in its first band is the first feature row. -/
theorem v5_at0 (k : Fin 128) : val_main_v5 (F := Ideal) x0 x1 (ix4 b i j (r0 k)) = x0 (ix3 b i k) := by
  unfold val_main_v5
  refine (concatenate_apply_piece (3 : Fin 4) _ _ (ix4 b i j (r0 k)) 0 ?_ S8x96x96x128 (val_main_v1 (F := Ideal) x0) ?_ rfl
    0 ?_ (ix4 b i j k) ?_ ?_).trans (v1_at x0 b i j k)
  · show 0 < 3
    decide
  · rfl
  · rfl
  · intro a ha
    match a with
    | ⟨0, _⟩ => rfl
    | ⟨1, _⟩ => rfl
    | ⟨2, _⟩ => rfl
    | ⟨3, _⟩ => exact absurd rfl ha
  · show 0 + k.val = k.val
    omega

/-- In its second band it is the second feature row. -/
theorem v5_at1 (k : Fin 128) : val_main_v5 (F := Ideal) x0 x1 (ix4 b i j (r1 k)) = x0 (ix3 b j k) := by
  unfold val_main_v5
  refine (concatenate_apply_piece (3 : Fin 4) _ _ (ix4 b i j (r1 k)) 1 ?_ S8x96x96x128 (val_main_v3 (F := Ideal) x0) ?_ rfl
    128 ?_ (ix4 b i j k) ?_ ?_).trans (v3_at x0 b i j k)
  · show 1 < 3
    decide
  · rfl
  · rfl
  · intro a ha
    match a with
    | ⟨0, _⟩ => rfl
    | ⟨1, _⟩ => rfl
    | ⟨2, _⟩ => rfl
    | ⟨3, _⟩ => exact absurd rfl ha
  · show 128 + k.val = 128 + k.val
    rfl

/-- Its last entry is the distance. -/
theorem v5_at2 : val_main_v5 (F := Ideal) x0 x1 (ix4 b i j r2) = x1 (ix3 b i j) := by
  unfold val_main_v5
  refine (concatenate_apply_piece (3 : Fin 4) _ _ (ix4 b i j r2) 2 ?_ S8x96x96x1 (val_main_v4 (F := Ideal) x1) ?_ rfl
    256 ?_ (ix4 b i j (0 : Fin 1)) ?_ ?_).trans (v4_at x1 b i j 0)
  · show 2 < 3
    decide
  · rfl
  · rfl
  · intro a ha
    match a with
    | ⟨0, _⟩ => rfl
    | ⟨1, _⟩ => rfl
    | ⟨2, _⟩ => rfl
    | ⟨3, _⟩ => exact absurd rfl ha
  · show 256 + 0 = 256
    rfl

/-- The 256-wide row of the two feature rows, first half. -/
theorem v15_at0 (k : Fin 128) : val_main_v15 (F := Ideal) x0 (ix4 b i j (h0 k)) = x0 (ix3 b i k) := by
  unfold val_main_v15
  refine (concatenate_apply_piece (3 : Fin 4) _ _ (ix4 b i j (h0 k)) 0 ?_ S8x96x96x128 (val_main_v1 (F := Ideal) x0) ?_ rfl
    0 ?_ (ix4 b i j k) ?_ ?_).trans (v1_at x0 b i j k)
  · show 0 < 2
    decide
  · rfl
  · rfl
  · intro a ha
    match a with
    | ⟨0, _⟩ => rfl
    | ⟨1, _⟩ => rfl
    | ⟨2, _⟩ => rfl
    | ⟨3, _⟩ => exact absurd rfl ha
  · show 0 + k.val = k.val
    omega

/-- Second half. -/
theorem v15_at1 (k : Fin 128) : val_main_v15 (F := Ideal) x0 (ix4 b i j (h1 k)) = x0 (ix3 b j k) := by
  unfold val_main_v15
  refine (concatenate_apply_piece (3 : Fin 4) _ _ (ix4 b i j (h1 k)) 1 ?_ S8x96x96x128 (val_main_v3 (F := Ideal) x0) ?_ rfl
    128 ?_ (ix4 b i j k) ?_ ?_).trans (v3_at x0 b i j k)
  · show 1 < 2
    decide
  · rfl
  · rfl
  · intro a ha
    match a with
    | ⟨0, _⟩ => rfl
    | ⟨1, _⟩ => rfl
    | ⟨2, _⟩ => rfl
    | ⟨3, _⟩ => exact absurd rfl ha
  · show 128 + k.val = 128 + k.val
    rfl

/-- The 256-wide row of product and sum, first half: the product. -/
theorem v27_at0 (k : Fin 128) : val_main_v27 (F := Ideal) x0 (ix4 b i j (h0 k)) = x0 (ix3 b i k) * x0 (ix3 b j k) := by
  unfold val_main_v27
  refine (concatenate_apply_piece (3 : Fin 4) _ _ (ix4 b i j (h0 k)) 0 ?_ S8x96x96x128 (val_main_v25 (F := Ideal) x0) ?_ rfl
    0 ?_ (ix4 b i j k) ?_ ?_).trans (v25_at x0 b i j k)
  · show 0 < 2
    decide
  · rfl
  · rfl
  · intro a ha
    match a with
    | ⟨0, _⟩ => rfl
    | ⟨1, _⟩ => rfl
    | ⟨2, _⟩ => rfl
    | ⟨3, _⟩ => exact absurd rfl ha
  · show 0 + k.val = k.val
    omega

/-- Second half: the sum. -/
theorem v27_at1 (k : Fin 128) : val_main_v27 (F := Ideal) x0 (ix4 b i j (h1 k)) = x0 (ix3 b i k) + x0 (ix3 b j k) := by
  unfold val_main_v27
  refine (concatenate_apply_piece (3 : Fin 4) _ _ (ix4 b i j (h1 k)) 1 ?_ S8x96x96x128 (val_main_v26 (F := Ideal) x0) ?_ rfl
    128 ?_ (ix4 b i j k) ?_ ?_).trans (v26_at x0 b i j k)
  · show 1 < 2
    decide
  · rfl
  · rfl
  · intro a ha
    match a with
    | ⟨0, _⟩ => rfl
    | ⟨1, _⟩ => rfl
    | ⟨2, _⟩ => rfl
    | ⟨3, _⟩ => exact absurd rfl ha
  · show 128 + k.val = 128 + k.val
    rfl

/-! ## Where a matrix product reads its operands -/

theorem lidx6 (h : Fin 256) (k : Fin 257) : lidx_main_v6 (ix4 b i j h) k = ix4 b i j k :=
  funext fun a => Fin.ext (by match a with | ⟨0, _⟩ => rfl | ⟨1, _⟩ => rfl | ⟨2, _⟩ => rfl | ⟨3, _⟩ => rfl)
theorem ridx6 (h : Fin 256) (k : Fin 257) : ridx_main_v6 (ix4 b i j h) k = ix2 k h :=
  funext fun a => Fin.ext (by match a with | ⟨0, _⟩ => rfl | ⟨1, _⟩ => rfl)
theorem lidx11 (h : Fin 256) (k : Fin 256) : lidx_main_v11 (ix4 b i j h) k = ix4 b i j k :=
  funext fun a => Fin.ext (by match a with | ⟨0, _⟩ => rfl | ⟨1, _⟩ => rfl | ⟨2, _⟩ => rfl | ⟨3, _⟩ => rfl)
theorem ridx11 (h : Fin 256) (k : Fin 256) : ridx_main_v11 (ix4 b i j h) k = ix2 k h :=
  funext fun a => Fin.ext (by match a with | ⟨0, _⟩ => rfl | ⟨1, _⟩ => rfl)
theorem lidx16 (h : Fin 256) (k : Fin 256) : lidx_main_v16 (ix4 b i j h) k = ix4 b i j k := lidx11 b i j h k
theorem ridx16 (h : Fin 256) (k : Fin 256) : ridx_main_v16 (ix4 b i j h) k = ix2 k h := ridx11 b i j h k
theorem lidx21 (h : Fin 256) (k : Fin 256) : lidx_main_v21 (ix4 b i j h) k = ix4 b i j k := lidx11 b i j h k
theorem ridx21 (h : Fin 256) (k : Fin 256) : ridx_main_v21 (ix4 b i j h) k = ix2 k h := ridx11 b i j h k
theorem lidx28 (h : Fin 256) (k : Fin 256) : lidx_main_v28 (ix4 b i j h) k = ix4 b i j k := lidx11 b i j h k
theorem ridx28 (h : Fin 256) (k : Fin 256) : ridx_main_v28 (ix4 b i j h) k = ix2 k h := ridx11 b i j h k
theorem lidx33 (h : Fin 256) (k : Fin 256) : lidx_main_v33 (ix4 b i j h) k = ix4 b i j k := lidx11 b i j h k
theorem ridx33 (h : Fin 256) (k : Fin 256) : ridx_main_v33 (ix4 b i j h) k = ix2 k h := ridx11 b i j h k
theorem lidx38 (h : Fin 256) (k : Fin 768) : lidx_main_v38 (ix4 b i j h) k = ix4 b i j k :=
  funext fun a => Fin.ext (by match a with | ⟨0, _⟩ => rfl | ⟨1, _⟩ => rfl | ⟨2, _⟩ => rfl | ⟨3, _⟩ => rfl)
theorem ridx38 (h : Fin 256) (k : Fin 768) : ridx_main_v38 (ix4 b i j h) k = ix2 k h :=
  funext fun a => Fin.ext (by match a with | ⟨0, _⟩ => rfl | ⟨1, _⟩ => rfl)

/-! ## The three hidden layers -/

/-- The spatial hidden layer of the pair of positions i, j of batch element b. -/
abbrev hS (x4 : (⟨S256, .f32⟩ : BufTy).Contents (Elt Ideal)) : Fin 256 → EReal :=
  hidS (fun k => x0 (ix3 b i k)) (fun k => x0 (ix3 b j k)) (x1 (ix3 b i j))
    (fun k h => x3 (ix2 (r0 k) h)) (fun k h => x3 (ix2 (r1 k) h)) (fun h => x3 (ix2 r2 h)) (fun h => x4 (ix1 h))

/-- The temporal hidden layer. -/
abbrev hT : Fin 256 → EReal :=
  hidT (fun k => x0 (ix3 b i k)) (fun k => x0 (ix3 b j k))
    (fun k h => w (ix2 (h0 k) h)) (fun k h => w (ix2 (h1 k) h)) (fun h => c (ix1 h))

/-- The interaction hidden layer. -/
abbrev hI : Fin 256 → EReal :=
  hidI (fun k => x0 (ix3 b i k)) (fun k => x0 (ix3 b j k))
    (fun k h => w (ix2 (h0 k) h)) (fun k h => w (ix2 (h1 k) h)) (fun h => c (ix1 h))

theorem v10_at (x4 : (⟨S256, .f32⟩ : BufTy).Contents (Elt Ideal)) (h : Fin 256) :
    val_main_v10 (F := Ideal) x0 x1 x3 x4 (ix4 b i j h) = hS x0 x1 x3 b i j x4 h := by
  have e : val_main_v6 (F := Ideal) x0 x1 x3 (ix4 b i j h)
      = ∑ k : Fin 257, val_main_v5 (F := Ideal) x0 x1 (ix4 b i j k) * x3 (ix2 k h) := by
    rw [val_main_v6_apply]
    exact Finset.sum_congr rfl fun k _ => by rw [lidx6, ridx6]
  rw [val_main_v10_apply, val_main_v9_apply, e, v8_at, zero0_at, Ideal.maximumf_def, Ideal.addf_def, sum_257]
  simp only [v5_at0, v5_at1, v5_at2]
  rfl

theorem v20_at (h : Fin 256) :
    val_main_v20 (F := Ideal) x0 w c (ix4 b i j h) = hT x0 w c b i j h := by
  have e : val_main_v16 (F := Ideal) x0 w (ix4 b i j h)
      = ∑ k : Fin 256, val_main_v15 (F := Ideal) x0 (ix4 b i j k) * w (ix2 k h) := by
    rw [val_main_v16_apply]
    exact Finset.sum_congr rfl fun k _ => by rw [lidx16, ridx16]
  rw [val_main_v20_apply, val_main_v19_apply, e, v18_at, zero1_at, Ideal.maximumf_def, Ideal.addf_def, sum_256]
  simp only [v15_at0, v15_at1]
  rfl

theorem v32_at (h : Fin 256) :
    val_main_v32 (F := Ideal) x0 w c (ix4 b i j h) = hI x0 w c b i j h := by
  have e : val_main_v28 (F := Ideal) x0 w (ix4 b i j h)
      = ∑ k : Fin 256, val_main_v27 (F := Ideal) x0 (ix4 b i j k) * w (ix2 k h) := by
    rw [val_main_v28_apply]
    exact Finset.sum_congr rfl fun k _ => by rw [lidx28, ridx28]
  rw [val_main_v32_apply, val_main_v31_apply, e, v30_at, zero2_at, Ideal.maximumf_def, Ideal.addf_def, sum_256]
  simp only [v27_at0, v27_at1]
  rfl

/-! ## The three branches -/

/-- The spatial branch of the pair of positions i, j of batch element b. -/
abbrev bS (x4 : (⟨S256, .f32⟩ : BufTy).Contents (Elt Ideal)) : Fin 256 → EReal :=
  spatial (fun k => x0 (ix3 b i k)) (fun k => x0 (ix3 b j k)) (x1 (ix3 b i j))
    (fun k h => x3 (ix2 (r0 k) h)) (fun k h => x3 (ix2 (r1 k) h)) (fun h => x3 (ix2 r2 h)) (fun h => x4 (ix1 h))
    (fun h g => w (ix2 h g)) (fun g => c (ix1 g))

/-- The temporal branch. -/
abbrev bT : Fin 256 → EReal :=
  temporal (fun k => x0 (ix3 b i k)) (fun k => x0 (ix3 b j k))
    (fun k h => w (ix2 (h0 k) h)) (fun k h => w (ix2 (h1 k) h)) (fun h => c (ix1 h))
    (fun h g => w' (ix2 h g)) (fun g => c' (ix1 g))

/-- The interaction branch. -/
abbrev bI : Fin 256 → EReal :=
  interaction (fun k => x0 (ix3 b i k)) (fun k => x0 (ix3 b j k))
    (fun k h => w (ix2 (h0 k) h)) (fun k h => w (ix2 (h1 k) h)) (fun h => c (ix1 h))
    (fun h g => w' (ix2 h g)) (fun g => c' (ix1 g))

theorem v14_at (x4 : (⟨S256, .f32⟩ : BufTy).Contents (Elt Ideal)) (g : Fin 256) :
    val_main_v14 (F := Ideal) x0 x1 x3 x4 w c (ix4 b i j g) = bS x0 x1 x3 w c b i j x4 g := by
  have e : val_main_v11 (F := Ideal) x0 x1 x3 x4 w (ix4 b i j g)
      = ∑ h : Fin 256, hS x0 x1 x3 b i j x4 h * w (ix2 h g) := by
    rw [val_main_v11_apply]
    exact Finset.sum_congr rfl fun k _ => by rw [lidx11, ridx11, v10_at]
  rw [val_main_v14_apply, e, v13_at, Ideal.addf_def]
  rfl

theorem v24_at (g : Fin 256) :
    val_main_v24 (F := Ideal) x0 w c w' c' (ix4 b i j g) = bT x0 w w' c c' b i j g := by
  have e : val_main_v21 (F := Ideal) x0 w c w' (ix4 b i j g)
      = ∑ h : Fin 256, hT x0 w c b i j h * w' (ix2 h g) := by
    rw [val_main_v21_apply]
    exact Finset.sum_congr rfl fun k _ => by rw [lidx21, ridx21, v20_at]
  rw [val_main_v24_apply, e, v23_at, Ideal.addf_def]
  rfl

theorem v36_at (g : Fin 256) :
    val_main_v36 (F := Ideal) x0 w c w' c' (ix4 b i j g) = bI x0 w w' c c' b i j g := by
  have e : val_main_v33 (F := Ideal) x0 w c w' (ix4 b i j g)
      = ∑ h : Fin 256, hI x0 w c b i j h * w' (ix2 h g) := by
    rw [val_main_v33_apply]
    exact Finset.sum_congr rfl fun k _ => by rw [lidx33, ridx33, v32_at]
  rw [val_main_v36_apply, e, v35_at, Ideal.addf_def]
  rfl

/-! ## The three branches side by side, and the last layer -/

section Last

variable (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S256x256, .f32⟩ : BufTy).Contents (Elt Ideal))
  (x10 : (⟨S256, .f32⟩ : BufTy).Contents (Elt Ideal)) (x11 : (⟨S256x256, .f32⟩ : BufTy).Contents (Elt Ideal))
  (x12 : (⟨S256, .f32⟩ : BufTy).Contents (Elt Ideal)) (x13 : (⟨S256x256, .f32⟩ : BufTy).Contents (Elt Ideal))
  (x14 : (⟨S256, .f32⟩ : BufTy).Contents (Elt Ideal)) (x15 : (⟨S768x256, .f32⟩ : BufTy).Contents (Elt Ideal))
  (x16 : (⟨S256, .f32⟩ : BufTy).Contents (Elt Ideal))

/-- The 768-wide row in its first third is the spatial branch. -/
theorem v37_at0 (g : Fin 256) :
    val_main_v37 (F := Ideal) x0 x1 x3 x4 x5 x6 x7 x8 x9 x10 x11 x12 x13 x14 (ix4 b i j (f0 g))
      = bS x0 x1 x3 x5 x6 b i j x4 g := by
  unfold val_main_v37
  refine (concatenate_apply_piece (3 : Fin 4) _ _ (ix4 b i j (f0 g)) 0 ?_ S8x96x96x256
    (val_main_v14 (F := Ideal) x0 x1 x3 x4 x5 x6) ?_ rfl 0 ?_ (ix4 b i j g) ?_ ?_).trans (v14_at x0 x1 x3 x5 x6 b i j x4 g)
  · show 0 < 3
    decide
  · rfl
  · rfl
  · intro a ha
    match a with
    | ⟨0, _⟩ => rfl
    | ⟨1, _⟩ => rfl
    | ⟨2, _⟩ => rfl
    | ⟨3, _⟩ => exact absurd rfl ha
  · show 0 + g.val = g.val
    omega

/-- In its second third it is the temporal branch. -/
theorem v37_at1 (g : Fin 256) :
    val_main_v37 (F := Ideal) x0 x1 x3 x4 x5 x6 x7 x8 x9 x10 x11 x12 x13 x14 (ix4 b i j (f1 g))
      = bT x0 x7 x9 x8 x10 b i j g := by
  unfold val_main_v37
  refine (concatenate_apply_piece (3 : Fin 4) _ _ (ix4 b i j (f1 g)) 1 ?_ S8x96x96x256
    (val_main_v24 (F := Ideal) x0 x7 x8 x9 x10) ?_ rfl 256 ?_ (ix4 b i j g) ?_ ?_).trans (v24_at x0 x7 x9 x8 x10 b i j g)
  · show 1 < 3
    decide
  · rfl
  · rfl
  · intro a ha
    match a with
    | ⟨0, _⟩ => rfl
    | ⟨1, _⟩ => rfl
    | ⟨2, _⟩ => rfl
    | ⟨3, _⟩ => exact absurd rfl ha
  · show 256 + g.val = 256 + g.val
    rfl

/-- In its last third it is the interaction branch. -/
theorem v37_at2 (g : Fin 256) :
    val_main_v37 (F := Ideal) x0 x1 x3 x4 x5 x6 x7 x8 x9 x10 x11 x12 x13 x14 (ix4 b i j (f2 g))
      = bI x0 x11 x13 x12 x14 b i j g := by
  unfold val_main_v37
  refine (concatenate_apply_piece (3 : Fin 4) _ _ (ix4 b i j (f2 g)) 2 ?_ S8x96x96x256
    (val_main_v36 (F := Ideal) x0 x11 x12 x13 x14) ?_ rfl 512 ?_ (ix4 b i j g) ?_ ?_).trans (v36_at x0 x11 x13 x12 x14 b i j g)
  · show 2 < 3
    decide
  · rfl
  · rfl
  · intro a ha
    match a with
    | ⟨0, _⟩ => rfl
    | ⟨1, _⟩ => rfl
    | ⟨2, _⟩ => rfl
    | ⟨3, _⟩ => exact absurd rfl ha
  · show 512 + g.val = 512 + g.val
    rfl

/-- The last linear layer: the three branches against the three bands of its matrix, and its bias. -/
theorem v41_at (o : Fin 256) :
    val_main_v41 (F := Ideal) x0 x1 x3 x4 x5 x6 x7 x8 x9 x10 x11 x12 x13 x14 x15 x16 (ix4 b i j o)
      = (((∑ g : Fin 256, bS x0 x1 x3 x5 x6 b i j x4 g * x15 (ix2 (f0 g) o))
          + (∑ g : Fin 256, bT x0 x7 x9 x8 x10 b i j g * x15 (ix2 (f1 g) o)))
          + (∑ g : Fin 256, bI x0 x11 x13 x12 x14 b i j g * x15 (ix2 (f2 g) o))) + x16 (ix1 o) := by
  have e : val_main_v38 (F := Ideal) x0 x1 x3 x4 x5 x6 x7 x8 x9 x10 x11 x12 x13 x14 x15 (ix4 b i j o)
      = ∑ k : Fin 768, val_main_v37 (F := Ideal) x0 x1 x3 x4 x5 x6 x7 x8 x9 x10 x11 x12 x13 x14 (ix4 b i j k) * x15 (ix2 k o) := by
    rw [val_main_v38_apply]
    exact Finset.sum_congr rfl fun k _ => by rw [lidx38, ridx38]
  rw [val_main_v41_apply, e, v40_at, Ideal.addf_def, sum_768]
  simp only [v37_at0, v37_at1, v37_at2]

end Last

/-- The product of the two positions' mask entries, repeated along the row. -/
theorem v48_at (o : Fin 256) : val_main_v48 (F := Ideal) x2 (ix4 b i j o) = x2 (ix2 b i) * x2 (ix2 b j) := by
  have e1 : idx_main_v42 (idx_main_v44 (idx_main_v47 (idx_main_v48 (ix4 b i j o)))) = ix2 b i :=
    funext fun a => Fin.ext (by match a with | ⟨0, _⟩ => rfl | ⟨1, _⟩ => rfl)
  have e2 : idx_main_v43 (idx_main_v45 (idx_main_v47 (idx_main_v48 (ix4 b i j o)))) = ix2 b j :=
    funext fun a => Fin.ext (by match a with | ⟨0, _⟩ => rfl | ⟨1, _⟩ => rfl)
  rw [val_main_v48_apply, val_main_v47_apply, val_main_v46_apply, val_main_v44_apply, val_main_v42_apply,
    val_main_v45_apply, val_main_v43_apply, e1, e2, Ideal.mulf_def]

/-! ## The reference is the relation encoder -/

theorem ref_eq (x0 : (⟨S8x96x128, .f32⟩ : BufTy).Contents (Elt Ideal)) (x1 : (⟨S8x96x96, .f32⟩ : BufTy).Contents (Elt Ideal)) (x2 : (⟨S8x96, .f32⟩ : BufTy).Contents (Elt Ideal)) (x3 : (⟨S257x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S768x256, .f32⟩ : BufTy).Contents (Elt Ideal)) (x16 : (⟨S256, .f32⟩ : BufTy).Contents (Elt Ideal)) :
    Cert.ReferenceIdeal.Read.val_main_v49 (F := Ideal) x0 x1 x2 x3 x4 x5 x6 x7 x8 x9 x10 x11 x12 x13 x14 x15 x16
      = RelEnc.G x0 x1 x2 x3 x4 x5 x6 x7 x8 x9 x10 x11 x12 x13 x14 x15 x16 := by
  funext y
  obtain ⟨b, i, j, o, rfl⟩ : ∃ b i j o, y = ix4 b i j o := ⟨y 0, y 1, y 2, y 3, eq_ix4 y⟩
  rw [RelEnc.G_ix4, val_main_v49_apply, v41_at, v48_at, Ideal.mulf_def]
  rfl

end Cert.ReferenceIdeal.RefG

end
-- ==== Proof.lean ====
/-
  The certificate of the relation-encoder kernel against its reference.

  The kernel computes, for every pair (i, j) of positions of every batch element, three two-layer perceptrons of the two
  feature rows (a spatial one that also takes the pair's distance, a temporal one, and an interaction one over the rows'
  entrywise product and sum) and a final linear layer over the three, masked by the product of the two positions' mask
  entries. The reference concatenates the inputs of each layer and multiplies by the whole weight matrix; the kernel
  multiplies each piece by the matching band of rows of the matrix and adds the products. Over the extended reals a sum
  over a concatenated width is the sum of the sums over its bands (addition is commutative and associative there, with
  no finiteness assumption), and a change of float format is the identity, so the two programs compute one function,
  `RelEnc.G` of the argument arrays (Proof/Spec.lean).

  The kernel side: the body's stored value at an index is one row of that function of the body's input blocks
  (Proof/KI/Payload*.lean); the blocks are read off the argument arrays (Proof/KI/Blocks.lean); the twenty-four output
  blocks tile the result array (Proof/KI/Value.lean). The reference side: its run's result, stage by stage, is the same
  function (Proof/RefG.lean). The frames: the kernel reads the features through two windows on one array, each holding
  one half of the array's share (Proof/KI/Data.lean, Proof/KI/Run.lean, over Proof/LibSharedFrame.lean and
  Proof/LibSharePair.lean); the word-level kernel's frame is the same text at its own namespace (Proof/K/). The
  idealization rewrote nothing, so `preserves` is trivial.
-/
import proofs.«122816_j57561151701198_1_alg».proof.Defs
import proofs.«122816_j57561151701198_1_alg».proof.Proof.Gen.Kernel
import proofs.«122816_j57561151701198_1_alg».proof.Proof.Gen.KernelIdeal
import proofs.«122816_j57561151701198_1_alg».proof.Proof.Gen.ReferenceIdeal
import proofs.«122816_j57561151701198_1_alg».proof.Proof.Gen.Pre_finite_inputs
import proofs.«122816_j57561151701198_1_alg».proof.Proof.Gen.ReferenceIdeal.Run
import proofs.«122816_j57561151701198_1_alg».proof.Proof.Gen.ReferenceIdeal.Read
import proofs.«122816_j57561151701198_1_alg».proof.Proof.K.Run
import proofs.«122816_j57561151701198_1_alg».proof.Proof.KI.Value
import proofs.«122816_j57561151701198_1_alg».proof.Proof.RefG
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the encoder's result of those arguments. -/
theorem algebraic : Cert.algebraic_KernelIdeal_ReferenceIdeal := by
  intro m ρ m' ρ' _ hagree
  refine ⟨fun c => RelEnc.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v49_eq, Cert.ReferenceIdeal.RefG.ref_eq,
    h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
